-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x500000x3 : Shape := ⟨3, ![8, 500000, 3]⟩
abbrev S8x64x3 : Shape := ⟨3, ![8, 64, 3]⟩
abbrev S8x64 : Shape := ⟨2, ![8, 64]⟩
abbrev S8x500000 : Shape := ⟨2, ![8, 500000]⟩
abbrev S_ : Shape := ⟨0, ![]⟩

class Facts : Prop where
  bcast_S_S8x500000x3 : S_.BroadcastsInDim S8x500000x3 (![] : Fin 0 → Fin S8x500000x3.rank)
  reducesTo_S8x500000x3_S_d0_1_2 : S8x500000x3.ReducesTo [0, 1, 2] S_
  h_S_ : 0 < S_.numel
  bcast_S_S8x64x3 : S_.BroadcastsInDim S8x64x3 (![] : Fin 0 → Fin S8x64x3.rank)
  reducesTo_S8x64x3_S_d0_1_2 : S8x64x3.ReducesTo [0, 1, 2] S_
  bcast_S_S8x64 : S_.BroadcastsInDim S8x64 (![] : Fin 0 → Fin S8x64.rank)
  reducesTo_S8x64_S_d0_1 : S8x64.ReducesTo [0, 1] S_
  bcast_S_S8x500000 : S_.BroadcastsInDim S8x500000 (![] : Fin 0 → Fin S8x500000.rank)
  reducesTo_S8x500000_S_d0_1 : S8x500000.ReducesTo [0, 1] S_

variable [Facts]

def fn_part1 {F : FTy → Type} [FloatOps F] (main_v13 : IVec S_ 1) (main_v15 : IVec S8x500000 1) (main_c_5 : IVec S_ 1) : IVec S_ 1 :=
  let main_v16 : IVec S_ 1 := (fun x v => Host.reduce IntOp.andi x v reducesTo_S8x500000_S_d0_1 h_S_) main_v15 main_c_5
  let main_v17 : IVec S_ 1 := andi main_v13 main_v16
  main_v17

def fn {F : FTy → Type} [FloatOps F] (main_arg0 : FVec F S8x500000x3 .f32) (main_arg1 : FVec F S8x64x3 .f32) (main_arg2 : FVec F S8x64 .f32) (main_arg3 : IVec S8x500000 32) : IVec S_ 1 :=
  let main_v0 : FVec F S8x500000x3 .f32 := Host.absf main_arg0
  let main_cst : FVec F S_ .f32 := constant S_ .f32 0x7F800000#32
  let main_v1 : FVec F S8x500000x3 .f32 := broadcastInDim S8x500000x3 ![] bcast_S_S8x500000x3 main_cst
  let main_v2 : IVec S8x500000x3 1 := cmpf .olt main_v0 main_v1
  let main_c : IVec S_ 1 := constantI S_ 1 1#1
  let main_v3 : IVec S_ 1 := (fun x v => Host.reduce IntOp.andi x v reducesTo_S8x500000x3_S_d0_1_2 h_S_) main_v2 main_c
  let main_v4 : FVec F S8x64x3 .f32 := Host.absf main_arg1
  let main_cst_0 : FVec F S_ .f32 := constant S_ .f32 0x7F800000#32
  let main_v5 : FVec F S8x64x3 .f32 := broadcastInDim S8x64x3 ![] bcast_S_S8x64x3 main_cst_0
  let main_v6 : IVec S8x64x3 1 := cmpf .olt main_v4 main_v5
  let main_c_1 : IVec S_ 1 := constantI S_ 1 1#1
  let main_v7 : IVec S_ 1 := (fun x v => Host.reduce IntOp.andi x v reducesTo_S8x64x3_S_d0_1_2 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_c_4 : IVec S_ 32 := constantI S_ 32 64#32
  let main_v14 : IVec S8x500000 32 := broadcastInDim S8x500000 ![] bcast_S_S8x500000 main_c_4
  let main_v15 : IVec S8x500000 1 := cmpi .slt main_arg3 main_v14
  let main_c_5 : IVec S_ 1 := constantI S_ 1 1#1
  fn_part1 (F := F) main_v13 main_v15 main_c_5
-- ==== Kernel.lean ====
abbrev S8x500000x3 : Shape := ⟨3, ![8, 500000, 3]⟩
abbrev S8x64x3 : Shape := ⟨3, ![8, 64, 3]⟩
abbrev S8x64 : Shape := ⟨2, ![8, 64]⟩
abbrev S8x500000 : Shape := ⟨2, ![8, 500000]⟩
abbrev S_ : Shape := ⟨0, ![]⟩
abbrev S8x507904x3 : Shape := ⟨3, ![8, 507904, 3]⟩
abbrev S8x507904 : Shape := ⟨2, ![8, 507904]⟩
abbrev S8x3x507904 : Shape := ⟨3, ![8, 3, 507904]⟩
abbrev S8x1x507904 : Shape := ⟨3, ![8, 1, 507904]⟩
abbrev S8x64x1 : Shape := ⟨3, ![8, 64, 1]⟩
abbrev S8x1x1 : Shape := ⟨3, ![8, 1, 1]⟩
abbrev S1x3x16384 : Shape := ⟨3, ![1, 3, 16384]⟩
abbrev S1x64x3 : Shape := ⟨3, ![1, 64, 3]⟩
abbrev S1x64x1 : Shape := ⟨3, ![1, 64, 1]⟩
abbrev S1x1x16384 : Shape := ⟨3, ![1, 1, 16384]⟩
abbrev S1x1x1 : Shape := ⟨3, ![1, 1, 1]⟩
abbrev S1x1 : Shape := ⟨2, ![1, 1]⟩
abbrev S3x16384 : Shape := ⟨2, ![3, 16384]⟩
abbrev S64x3 : Shape := ⟨2, ![64, 3]⟩
abbrev S64x1 : Shape := ⟨2, ![64, 1]⟩
abbrev S1x16384 : Shape := ⟨2, ![1, 16384]⟩
abbrev S64x16384 : Shape := ⟨2, ![64, 16384]⟩
abbrev S16384 : Shape := ⟨1, ![16384]⟩
abbrev S1 : Shape := ⟨1, ![1]⟩

abbrev nBuf : Space → Nat
  | .hbm => 25
  | .vmem => 14
  | .smem => 0
  | _ => 0

abbrev bufTy : (tb : Table) → Fin (tcTables nBuf tb) → BufTy
  | .hbm, ⟨0, _⟩ => ⟨S8x500000x3, .f32⟩
  | .hbm, ⟨1, _⟩ => ⟨S8x64x3, .f32⟩
  | .hbm, ⟨2, _⟩ => ⟨S8x64, .f32⟩
  | .hbm, ⟨3, _⟩ => ⟨S8x500000, .i32⟩
  | .hbm, ⟨4, _⟩ => ⟨S_, .i32⟩
  | .hbm, ⟨5, _⟩ => ⟨S_, .f32⟩
  | .hbm, ⟨6, _⟩ => ⟨S8x507904x3, .f32⟩
  | .hbm, ⟨7, _⟩ => ⟨S_, .i32⟩
  | .hbm, ⟨8, _⟩ => ⟨S_, .i32⟩
  | .hbm, ⟨9, _⟩ => ⟨S8x507904, .i32⟩
  | .hbm, ⟨10, _⟩ => ⟨S8x3x507904, .f32⟩
  | .hbm, ⟨11, _⟩ => ⟨S8x1x507904, .i32⟩
  | .hbm, ⟨12, _⟩ => ⟨S8x64x1, .f32⟩
  | .hbm, ⟨13, _⟩ => ⟨S8x1x1, .f32⟩
  | .hbm, ⟨14, _⟩ => ⟨S8x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x3x16384, .f32⟩
  | .local _ .vmem, ⟨1, _⟩ => ⟨S1x3x16384, .f32⟩
  | .local _ .vmem, ⟨2, _⟩ => ⟨S1x64x3, .f32⟩
  | .local _ .vmem, ⟨3, _⟩ => ⟨S1x64x3, .f32⟩
  | .local _ .vmem, ⟨4, _⟩ => ⟨S1x64x1, .f32⟩
  | .local _ .vmem, ⟨5, _⟩ => ⟨S1x64x1, .f32⟩
  | .local _ .vmem, ⟨6, _⟩ => ⟨S1x1x16384, .i32⟩
  | .local _ .vmem, ⟨7, _⟩ => ⟨S1x1x16384, .i32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1, .f32⟩
  | .local _ .vmem, ⟨13, _⟩ => ⟨S1x1, .f32⟩
  | _, _ => ⟨S8x500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_cst : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 31], ![false, false]⟩

def k0_cond2 (i : grid0.Coords) : BitVec 1 :=
  let arg1 : BitVec 32 := BitVec.ofNat 32 (i 1).val
  let c30_i32 : BitVec 32 := 30#32
  let v62 : BitVec 1 := Scalar.cmpi .eq arg1 c30_i32
  let v63 : BitVec 32 := Scalar.extui v62
  let c0_i32_24 : BitVec 32 := 0#32
  let v64 : BitVec 1 := Scalar.cmpi .ne v63 c0_i32_24
  v64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  pads_S8x500000x3_S8x507904x3_000_079040_000 : S8x500000x3.Pads (![0, 0, 0] : Fin 3 → Nat) ![0, 7904, 0] ![0, 0, 0] S8x507904x3
  h_S_ : 0 < S_.numel
  pads_S8x500000_S8x507904_000_079040 : S8x500000.Pads (![0, 0] : Fin 2 → Nat) ![0, 7904] ![0, 0] S8x507904
  transposes_S8x507904x3_S8x3x507904_0_2_1 : S8x507904x3.Transposes [0, 2, 1] S8x3x507904
  shapeCasts_S8x507904_S8x1x507904 : S8x507904.ShapeCasts S8x1x507904
  shapeCasts_S8x64_S8x64x1 : S8x64.ShapeCasts S8x64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x16384_S1x3x16384_0_0_0 : ∀ a, (![0, 0, 0] : Fin 3 → Nat) a + S1x3x16384.size a ≤ S1x3x16384.size a
  h_S1x3x16384 : 0 < S1x3x16384.numel
  shapeCasts_S1x3x16384_S3x16384 : S1x3x16384.ShapeCasts S3x16384
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  slices_S3x16384_o0_0_S1x16384 : S3x16384.Slices ![0, 0] S1x16384
  slices_S3x16384_o1_0_S1x16384 : S3x16384.Slices ![1, 0] S1x16384
  slices_S3x16384_o2_0_S1x16384 : S3x16384.Slices ![2, 0] S1x16384
  slices_S64x3_o0_0_S64x1 : S64x3.Slices ![0, 0] S64x1
  slices_S64x3_o0_1_S64x1 : S64x3.Slices ![0, 1] S64x1
  slices_S64x3_o0_2_S64x1 : S64x3.Slices ![0, 2] S64x1
  broadcasts_S64x1_S64x16384 : S64x1.Broadcasts S64x16384
  broadcasts_S1x16384_S64x16384 : S1x16384.Broadcasts S64x16384
  iota_S64x16384_d0_w32 : S64x16384.Iotas .tc 32 [0]
  reduces_S64x16384_S16384 : S64x16384.Reduces [0] S16384
  shapeCasts_S16384_S1x16384 : S16384.ShapeCasts S1x16384
  shapeCasts_S1x16384_S1x1x16384 : S1x16384.ShapeCasts S1x1x16384
  reduces_S1x1x16384_S1 : S1x1x16384.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16384.size a ≤ S8x3x507904.size a
  hwx0_0 : ∀ i : grid0.Coords, EltTy.bits .f32 = 32 ∨ (Rect.block (s := S8x3x507904) S1x3x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x3.size a ≤ S8x64x3.size a
  hwx0_1 : ∀ i : grid0.Coords, EltTy.bits .f32 = 32 ∨ (Rect.block (s := S8x64x3) S1x64x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S8x64x1.size a
  hwx0_2 : ∀ i : grid0.Coords, EltTy.bits .f32 = 32 ∨ (Rect.block (s := S8x64x1) S1x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16384.size a ≤ S8x1x507904.size a
  hwx0_3 : ∀ i : grid0.Coords, EltTy.bits .i32 = 32 ∨ (Rect.block (s := S8x1x507904) S1x1x16384.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S8x1x1.size a
  hwx0_4 : ∀ i : grid0.Coords, EltTy.bits .f32 = 32 ∨ (Rect.block (s := S8x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S8x1x1.size a
  hwx0_5 : ∀ i : grid0.Coords, EltTy.bits .f32 = 32 ∨ (Rect.block (s := S8x1x1) S1x1x1.size (cc0_transform_5 i) (hinb0_5 i)).WholeWords (EltTy.packing .f32)

variable [Facts₀]

abbrev win0_0 : Pipeline.Window sig grid0 :=
  Pipeline.Window.ofSpec (Memref.whole main_v2) S1x3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x500000x3 : Shape := ⟨3, ![8, 500000, 3]⟩
abbrev S8x64x3 : Shape := ⟨3, ![8, 64, 3]⟩
abbrev S8x64 : Shape := ⟨2, ![8, 64]⟩
abbrev S8x500000 : Shape := ⟨2, ![8, 500000]⟩
abbrev S_ : Shape := ⟨0, ![]⟩
abbrev S8x500000x1 : Shape := ⟨3, ![8, 500000, 1]⟩
abbrev S1 : Shape := ⟨1, ![1]⟩
abbrev S1x1x1 : Shape := ⟨3, ![1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S8x500000x3, .f32⟩
  | .hbm, ⟨1, _⟩ => ⟨S8x64x3, .f32⟩
  | .hbm, ⟨2, _⟩ => ⟨S8x64, .f32⟩
  | .hbm, ⟨3, _⟩ => ⟨S8x500000, .i32⟩
  | .hbm, ⟨4, _⟩ => ⟨S_, .i32⟩
  | .hbm, ⟨5, _⟩ => ⟨S8x500000, .i32⟩
  | .hbm, ⟨6, _⟩ => ⟨S8x500000, .i1⟩
  | .hbm, ⟨7, _⟩ => ⟨S_, .i32⟩
  | .hbm, ⟨8, _⟩ => ⟨S_, .i32⟩
  | .hbm, ⟨9, _⟩ => ⟨S8x500000, .i32⟩
  | .hbm, ⟨10, _⟩ => ⟨S8x500000, .i32⟩
  | .hbm, ⟨11, _⟩ => ⟨S8x500000x1, .i32⟩
  | .hbm, ⟨12, _⟩ => ⟨S_, .i32⟩
  | .hbm, ⟨13, _⟩ => ⟨S8x500000x1, .i32⟩
  | .hbm, ⟨14, _⟩ => ⟨S8x500000x1, .i1⟩
  | .hbm, ⟨15, _⟩ => ⟨S_, .i32⟩
  | .hbm, ⟨16, _⟩ => ⟨S8x500000x1, .i32⟩
  | .hbm, ⟨17, _⟩ => ⟨S8x500000x1, .i32⟩
  | .hbm, ⟨18, _⟩ => ⟨S8x500000x1, .i32⟩
  | .hbm, ⟨19, _⟩ => ⟨S1, .i32⟩
  | .hbm, ⟨20, _⟩ => ⟨S_, .i32⟩
  | .hbm, ⟨21, _⟩ => ⟨S8x500000x1, .i32⟩
  | .hbm, ⟨22, _⟩ => ⟨S8x500000x1, .i1⟩
  | .hbm, ⟨23, _⟩ => ⟨S1x1x1, .i32⟩
  | .hbm, ⟨24, _⟩ => ⟨S8x500000x1, .i32⟩
  | .hbm, ⟨25, _⟩ => ⟨S8x500000x1, .i1⟩
  | .hbm, ⟨26, _⟩ => ⟨S8x500000x1, .i1⟩
  | .hbm, ⟨27, _⟩ => ⟨S_, .i1⟩
  | .hbm, ⟨28, _⟩ => ⟨S8x500000, .i1⟩
  | .hbm, ⟨29, _⟩ => ⟨S8x500000x3, .f32⟩
  | .hbm, ⟨30, _⟩ => ⟨S8x500000x3, .i1⟩
  | .hbm, ⟨31, _⟩ => ⟨S_, .f32⟩
  | .hbm, ⟨32, _⟩ => ⟨S8x500000x3, .f32⟩
  | .hbm, ⟨33, _⟩ => ⟨S8x500000x3, .f32⟩
  | .hbm, ⟨34, _⟩ => ⟨S_, .i32⟩
  | .hbm, ⟨35, _⟩ => ⟨S8x500000, .i32⟩
  | .hbm, ⟨36, _⟩ => ⟨S8x500000, .i1⟩
  | .hbm, ⟨37, _⟩ => ⟨S_, .i32⟩
  | .hbm, ⟨38, _⟩ => ⟨S8x500000, .i32⟩
  | .hbm, ⟨39, _⟩ => ⟨S8x500000, .i32⟩
  | .hbm, ⟨40, _⟩ => ⟨S8x500000, .i32⟩
  | .hbm, ⟨41, _⟩ => ⟨S8x500000x1, .i32⟩
  | .hbm, ⟨42, _⟩ => ⟨S1, .i32⟩
  | .hbm, ⟨43, _⟩ => ⟨S_, .i32⟩
  | .hbm, ⟨44, _⟩ => ⟨S8x500000x1, .i32⟩
  | .hbm, ⟨45, _⟩ => ⟨S8x500000x1, .i1⟩
  | .hbm, ⟨46, _⟩ => ⟨S1x1x1, .i32⟩
  | .hbm, ⟨47, _⟩ => ⟨S8x500000x1, .i32⟩
  | .hbm, ⟨48, _⟩ => ⟨S8x500000x1, .i1⟩
  | .hbm, ⟨49, _⟩ => ⟨S8x500000x1, .i1⟩
  | .hbm, ⟨50, _⟩ => ⟨S_, .i1⟩
  | .hbm, ⟨51, _⟩ => ⟨S8x500000, .i1⟩
  | .hbm, ⟨52, _⟩ => ⟨S8x500000, .f32⟩
  | .hbm, ⟨53, _⟩ => ⟨S_, .f32⟩
  | .hbm, ⟨54, _⟩ => ⟨S8x500000, .f32⟩
  | .hbm, ⟨55, _⟩ => ⟨S8x500000, .f32⟩
  | .hbm, ⟨56, _⟩ => ⟨S8x500000x3, .f32⟩
  | .hbm, ⟨57, _⟩ => ⟨S_, .f32⟩
  | .hbm, ⟨58, _⟩ => ⟨S8x500000, .f32⟩
  | .hbm, ⟨59, _⟩ => ⟨S8x500000, .f32⟩
  | .hbm, ⟨60, _⟩ => ⟨S8x500000, .f32⟩
  | .hbm, ⟨61, _⟩ => ⟨S_, .f32⟩
  | .hbm, ⟨62, _⟩ => ⟨S_, .f32⟩
  | .hbm, ⟨63, _⟩ => ⟨S8x500000, .f32⟩
  | .hbm, ⟨64, _⟩ => ⟨S8x500000, .f32⟩
  | .hbm, ⟨65, _⟩ => ⟨S_, .f32⟩
  | .hbm, ⟨66, _⟩ => ⟨S_, .f32⟩
  | .hbm, ⟨67, _⟩ => ⟨S8x500000, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .f32⟩
  | _, _ => ⟨S8x500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_c_1 : Ref sig .tc := ⟨.hbm, 19, rfl⟩
abbrev main_call1_c_2 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_c_3 : Ref sig .tc := ⟨.hbm, 27, rfl⟩
abbrev main_call1_v11 : Ref sig .tc := ⟨.hbm, 28, rfl⟩
abbrev main_call1_v12 : Ref sig .tc := ⟨.hbm, 29, rfl⟩
abbrev main_call1_v13 : Ref sig .tc := ⟨.hbm, 30, rfl⟩
abbrev main_call1_cst : Ref sig .tc := ⟨.hbm, 31, rfl⟩
abbrev main_call1_v14 : Ref sig .tc := ⟨.hbm, 32, rfl⟩
abbrev main_v4 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst_1 : Ref sig .tc := ⟨.hbm, 61, rfl⟩
abbrev main_call3_v0 : Ref sig .tc := ⟨.hbm, 62, rfl⟩
abbrev main_call3_v1 : Ref sig .tc := ⟨.hbm, 63, rfl⟩
abbrev main_v10 : Ref sig .tc := ⟨.hbm, 64, rfl⟩
abbrev main_cst_2 : Ref sig .tc := ⟨.hbm, 65, rfl⟩
abbrev main_v11 : Ref sig .tc := ⟨.hbm, 66, rfl⟩
abbrev main_v12 : Ref sig .tc := ⟨.hbm, 67, rfl⟩
abbrev main_c_3 : Ref sig .tc := ⟨.hbm, 68, rfl⟩
abbrev main_v13 : Ref sig .tc := ⟨.hbm, 69, rfl⟩
abbrev main_c_4 : Ref sig .tc := ⟨.hbm, 70, rfl⟩
abbrev main_v14 : Ref sig .tc := ⟨.hbm, 71, rfl⟩
abbrev main_c_5 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩

abbrev nD : Nat := 1
abbrev τ : Topo := Topo.v7x

variable {F : FTy → Type} [FloatOps F]

class Facts₀ : Prop where
  bcast_S_S8x500000 : S_.BroadcastsInDim S8x500000 (![] : Fin 0 → Fin S8x500000.rank)
  bcast_S8x500000_S8x500000x1_0_1 : S8x500000.BroadcastsInDim S8x500000x1 (![0, 1] : Fin 2 → Fin S8x500000x1.rank)
  bcast_S_S8x500000x1 : S_.BroadcastsInDim S8x500000x1 (![] : Fin 0 → Fin S8x500000x1.rank)
  bcast_S1_S1x1x1_2 : S1.BroadcastsInDim S1x1x1 (![2] : Fin 1 → Fin S1x1x1.rank)
  bcast_S1x1x1_S8x500000x1_0_1_2 : S1x1x1.BroadcastsInDim S8x500000x1 (![0, 1, 2] : Fin 3 → Fin S8x500000x1.rank)
  reducesTo_S8x500000x1_S8x500000_d2 : S8x500000x1.ReducesTo [2] S8x500000
  h_S_ : 0 < S_.numel
  bcast_S8x500000_S8x500000x3_0_1 : S8x500000.BroadcastsInDim S8x500000x3 (![0, 1] : Fin 2 → Fin S8x500000x3.rank)
  bcast_S_S8x500000x3 : S_.BroadcastsInDim S8x500000x3 (![] : Fin 0 → Fin S8x500000x3.rank)
  shapeCasts_S8x500000_S8x500000x1 : S8x500000.ShapeCasts S8x500000x1
  reducesTo_S8x500000x3_S8x500000_d2 : S8x500000x3.ReducesTo [2] S8x500000
  reducesTo_S8x500000_S_d0_1 : S8x500000.ReducesTo [0, 1] S_
  natLt_1_32 : 1 < 32
  gather_S8x64x3_S8x500000x1_S8x500000x3_2_1_0_0_1_2_113_wf : GatherDims.WF S8x64x3 S8x500000x1 S8x500000x3 [2] [1] [0] [1] [0] 2 ![1, 1, 3]
  gather_S8x64_S8x500000x1_S8x500000_n_1_0_0_1_2_11_wf : GatherDims.WF S8x64 S8x500000x1 S8x500000 [] [1] [0] [1] [0] 2 ![1, 1]

variable [Facts₀]

def gather_S8x64x3_S8x500000x1_S8x500000x3_2_1_0_0_1_2_113 : GatherDims S8x64x3 S8x500000x1 S8x500000x3 where
  offsetDims := [2]
  collapsedSliceDims := [1]
  operandBatchingDims := [0]
  startIndicesBatchingDims := [0]
  startIndexMap := [1]
  indexVectorDim := 2
  sliceSizes := ![1, 1, 3]
  wf := gather_S8x64x3_S8x500000x1_S8x500000x3_2_1_0_0_1_2_113_wf
def gather_S8x64_S8x500000x1_S8x500000_n_1_0_0_1_2_11 : GatherDims S8x64 S8x500000x1 S8x500000 where
  offsetDims := []
  collapsedSliceDims := [1]
  operandBatchingDims := [0]
  startIndicesBatchingDims := [0]
  startIndexMap := [1]
  indexVectorDim := 2
  sliceSizes := ![1, 1]
  wf := gather_S8x64_S8x500000x1_S8x500000_n_1_0_0_1_2_11_wf

class Facts : Prop extends Facts₀ where

variable [Facts]
-- ==== Proof.Pieces.lean ====
/-
  The body at one grid point, case by case. A batch's first tile resets the two accumulators and then adds the tile's
  sums to them; a middle tile adds to what the tile before left; the last tile adds and then copies the two accumulators
  to the batch's result blocks. Each accumulator and result block, read back after the body, is the body's arithmetic
  of the point's input blocks (and of what the point before left).
-/
import proofs.«400829_j54382875902439_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! What each control case leaves in the two carried accumulators and in the two result blocks, as the body's
    arithmetic of the point's input blocks and of what the point before left. -/

/-- A middle tile adds the tile's sum of selected distances to the running total. -/
theorem sB0 (c : Dev nD) (i : grid0.Coords) (arg2 : Memref sig .tc .vmem S1x3x16384 .f32) (harg2 : arg2.IsWhole) (arg3 : Memref sig .tc .vmem S1x64x3 .f32) (harg3 : arg3.IsWhole) (arg4 : Memref sig .tc .vmem S1x64x1 .f32) (harg4 : arg4.IsWhole) (arg5 : Memref sig .tc .vmem S1x1x16384 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x3x16384 .f32) (x1 : Vec F S1x64x3 .f32) (x2 : Vec F S1x64x1 .f32) (x3 : Vec F S1x1x16384 .i32) (xs0 xs1 : Vec F S1x1 .f32) :
    sout0_B_0 c i arg2 harg2 arg3 harg3 arg4 harg4 arg5 harg5 arg6 harg6 arg7 harg7 arg8 harg8 arg9 harg9 hc0 hc1 x0 x1 x2 x3 xs0 xs1 = k0_pay1 (k0_pay8 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x3x16384) hz3, View.ld_unit_zero (S := S1x64x3) hz3, View.ld_unit_zero (S := S1x64x1) hz3, View.ld_unit_zero (S := S1x1x16384) hz3, View.ld_unit_zero (S := S1x1x1) hz3, View.ld_unit_zero (S := S1x1) hz2]

/-- A middle tile adds the tile's number of counted points to the running count. -/
theorem sB1 (c : Dev nD) (i : grid0.Coords) (arg2 : Memref sig .tc .vmem S1x3x16384 .f32) (harg2 : arg2.IsWhole) (arg3 : Memref sig .tc .vmem S1x64x3 .f32) (harg3 : arg3.IsWhole) (arg4 : Memref sig .tc .vmem S1x64x1 .f32) (harg4 : arg4.IsWhole) (arg5 : Memref sig .tc .vmem S1x1x16384 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x3x16384 .f32) (x1 : Vec F S1x64x3 .f32) (x2 : Vec F S1x64x1 .f32) (x3 : Vec F S1x1x16384 .i32) (xs0 xs1 : Vec F S1x1 .f32) :
    sout0_B_1 c i arg2 harg2 arg3 harg3 arg4 harg4 arg5 harg5 arg6 harg6 arg7 harg7 arg8 harg8 arg9 harg9 hc0 hc1 x0 x1 x2 x3 xs0 xs1 = k0_pay2 (k0_pay9 x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x3x16384) hz3, View.ld_unit_zero (S := S1x64x3) hz3, View.ld_unit_zero (S := S1x64x1) hz3, View.ld_unit_zero (S := S1x1x16384) hz3, View.ld_unit_zero (S := S1x1x1) hz3, View.ld_unit_zero (S := S1x1) hz2]

/-- The first tile of a batch starts the running total from zero. -/
theorem sA0 (c : Dev nD) (i : grid0.Coords) (arg2 : Memref sig .tc .vmem S1x3x16384 .f32) (harg2 : arg2.IsWhole) (arg3 : Memref sig .tc .vmem S1x64x3 .f32) (harg3 : arg3.IsWhole) (arg4 : Memref sig .tc .vmem S1x64x1 .f32) (harg4 : arg4.IsWhole) (arg5 : Memref sig .tc .vmem S1x1x16384 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x3x16384 .f32) (x1 : Vec F S1x64x3 .f32) (x2 : Vec F S1x64x1 .f32) (x3 : Vec F S1x1x16384 .i32) :
    sout0_A_0 c i arg2 harg2 arg3 harg3 arg4 harg4 arg5 harg5 arg6 harg6 arg7 harg7 arg8 harg8 arg9 harg9 hc0 hc1 x0 x1 x2 x3 = k0_pay1 (k0_pay8 x0 x1 x2 x3) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, View.ld_unit_zero (S := S1x3x16384) hz3, View.ld_unit_zero (S := S1x64x3) hz3, View.ld_unit_zero (S := S1x64x1) hz3, View.ld_unit_zero (S := S1x1x16384) hz3, View.ld_unit_zero (S := S1x1x1) hz3, View.ld_unit_zero (S := S1x1) hz2]

/-- The first tile of a batch starts the running count from zero. -/
theorem sA1 (c : Dev nD) (i : grid0.Coords) (arg2 : Memref sig .tc .vmem S1x3x16384 .f32) (harg2 : arg2.IsWhole) (arg3 : Memref sig .tc .vmem S1x64x3 .f32) (harg3 : arg3.IsWhole) (arg4 : Memref sig .tc .vmem S1x64x1 .f32) (harg4 : arg4.IsWhole) (arg5 : Memref sig .tc .vmem S1x1x16384 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x3x16384 .f32) (x1 : Vec F S1x64x3 .f32) (x2 : Vec F S1x64x1 .f32) (x3 : Vec F S1x1x16384 .i32) :
    sout0_A_1 c i arg2 harg2 arg3 harg3 arg4 harg4 arg5 harg5 arg6 harg6 arg7 harg7 arg8 harg8 arg9 harg9 hc0 hc1 x0 x1 x2 x3 = k0_pay2 (k0_pay9 x3) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, View.ld_unit_zero (S := S1x3x16384) hz3, View.ld_unit_zero (S := S1x64x3) hz3, View.ld_unit_zero (S := S1x64x1) hz3, View.ld_unit_zero (S := S1x1x16384) hz3, View.ld_unit_zero (S := S1x1x1) hz3, View.ld_unit_zero (S := S1x1) hz2]

/-- The last tile of a batch adds its sum like a middle one … -/
theorem sC0 (c : Dev nD) (i : grid0.Coords) (arg2 : Memref sig .tc .vmem S1x3x16384 .f32) (harg2 : arg2.IsWhole) (arg3 : Memref sig .tc .vmem S1x64x3 .f32) (harg3 : arg3.IsWhole) (arg4 : Memref sig .tc .vmem S1x64x1 .f32) (harg4 : arg4.IsWhole) (arg5 : Memref sig .tc .vmem S1x1x16384 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x3x16384 .f32) (x1 : Vec F S1x64x3 .f32) (x2 : Vec F S1x64x1 .f32) (x3 : Vec F S1x1x16384 .i32) (xs0 xs1 : Vec F S1x1 .f32) :
    sout0_C_0 c i arg2 harg2 arg3 harg3 arg4 harg4 arg5 harg5 arg6 harg6 arg7 harg7 arg8 harg8 arg9 harg9 hc0 hc1 x0 x1 x2 x3 xs0 xs1 = k0_pay1 (k0_pay8 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x3x16384) hz3, View.ld_unit_zero (S := S1x64x3) hz3, View.ld_unit_zero (S := S1x64x1) hz3, View.ld_unit_zero (S := S1x1x16384) hz3, View.ld_unit_zero (S := S1x1x1) hz3, View.ld_unit_zero (S := S1x1) hz2]

theorem sC1 (c : Dev nD) (i : grid0.Coords) (arg2 : Memref sig .tc .vmem S1x3x16384 .f32) (harg2 : arg2.IsWhole) (arg3 : Memref sig .tc .vmem S1x64x3 .f32) (harg3 : arg3.IsWhole) (arg4 : Memref sig .tc .vmem S1x64x1 .f32) (harg4 : arg4.IsWhole) (arg5 : Memref sig .tc .vmem S1x1x16384 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x3x16384 .f32) (x1 : Vec F S1x64x3 .f32) (x2 : Vec F S1x64x1 .f32) (x3 : Vec F S1x1x16384 .i32) (xs0 xs1 : Vec F S1x1 .f32) :
    sout0_C_1 c i arg2 harg2 arg3 harg3 arg4 harg4 arg5 harg5 arg6 harg6 arg7 harg7 arg8 harg8 arg9 harg9 hc0 hc1 x0 x1 x2 x3 xs0 xs1 = k0_pay2 (k0_pay9 x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x3x16384) hz3, View.ld_unit_zero (S := S1x64x3) hz3, View.ld_unit_zero (S := S1x64x1) hz3, View.ld_unit_zero (S := S1x1x16384) hz3, View.ld_unit_zero (S := S1x1x1) hz3, View.ld_unit_zero (S := S1x1) hz2]

/-- … and then writes the finished total to the batch's result block, -/
theorem oC4 (c : Dev nD) (i : grid0.Coords) (arg2 : Memref sig .tc .vmem S1x3x16384 .f32) (harg2 : arg2.IsWhole) (arg3 : Memref sig .tc .vmem S1x64x3 .f32) (harg3 : arg3.IsWhole) (arg4 : Memref sig .tc .vmem S1x64x1 .f32) (harg4 : arg4.IsWhole) (arg5 : Memref sig .tc .vmem S1x1x16384 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x3x16384 .f32) (x1 : Vec F S1x64x3 .f32) (x2 : Vec F S1x64x1 .f32) (x3 : Vec F S1x1x16384 .i32) (xs0 xs1 : Vec F S1x1 .f32) :
    out0_C_4 c i arg2 harg2 arg3 harg3 arg4 harg4 arg5 harg5 arg6 harg6 arg7 harg7 arg8 harg8 arg9 harg9 hc0 hc1 x0 x1 x2 x3 xs0 xs1 = k0_pay3 (k0_pay1 (k0_pay8 x0 x1 x2 x3) xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x3x16384) hz3, View.ld_unit_zero (S := S1x64x3) hz3, View.ld_unit_zero (S := S1x64x1) hz3, View.ld_unit_zero (S := S1x1x16384) hz3, View.ld_unit_zero (S := S1x1x1) hz3, View.ld_unit_zero (S := S1x1) hz2, View.readCov_unit_zero (S := S1x1) _ hz2]

/-- and the finished count to the batch's count block. -/
theorem oC5 (c : Dev nD) (i : grid0.Coords) (arg2 : Memref sig .tc .vmem S1x3x16384 .f32) (harg2 : arg2.IsWhole) (arg3 : Memref sig .tc .vmem S1x64x3 .f32) (harg3 : arg3.IsWhole) (arg4 : Memref sig .tc .vmem S1x64x1 .f32) (harg4 : arg4.IsWhole) (arg5 : Memref sig .tc .vmem S1x1x16384 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x3x16384 .f32) (x1 : Vec F S1x64x3 .f32) (x2 : Vec F S1x64x1 .f32) (x3 : Vec F S1x1x16384 .i32) (xs0 xs1 : Vec F S1x1 .f32) :
    out0_C_5 c i arg2 harg2 arg3 harg3 arg4 harg4 arg5 harg5 arg6 harg6 arg7 harg7 arg8 harg8 arg9 harg9 hc0 hc1 x0 x1 x2 x3 xs0 xs1 = k0_pay4 (k0_pay2 (k0_pay9 x3) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x3x16384) hz3, View.ld_unit_zero (S := S1x64x3) hz3, View.ld_unit_zero (S := S1x64x1) hz3, View.ld_unit_zero (S := S1x1x16384) hz3, View.ld_unit_zero (S := S1x1x1) hz3, View.ld_unit_zero (S := S1x1) hz2, View.readCov_unit_zero (S := S1x1) _ hz2]

end Cert.KernelIdeal.Pieces

end
-- ==== Proof.Tile.lean ====
/-
  One tile of one batch: what the kernel body computes from the tile's blocks — 16384 points (three coordinate rows),
  the batch's 64 plane normals and offsets, and the points' plane assignments.
  For lane `l` and plane `p` the distance is `|nx·x + ny·y + nz·z + d|`; the body keeps, for each lane, the distance to
  the plane the lane's assignment names (a sum over the 64 planes of a selection by equality with the plane number),
  adds the lanes up into the running total, and adds the number of lanes with a non-negative assignment to the
  running count.
-/
import proofs.«400829_j54382875902439_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

variable {α : Type}

/-- A column `[a, 1]` broadcast along the lanes to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A slice of a rank-2 array at offsets `(o0, o1)` reads, at `(i, j)`, the array at `(o0 + i, o1 + j)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (i : Fin m0) (j : Fin m1) (i' : Fin n0) (j' : Fin n1)
    (hi : i'.val = o0 + i.val) (hj : j'.val = o1 + j.val) :
    extractStridedSlice ⟨2, ![m0, m1]⟩ ![o0, o1] X h (ix2 i j) = X (ix2 i' j') := by
  refine extractStridedSlice_apply _ X h (ix2 i j) (ix2 i' j') fun ax => ?_
  match ax with
  | ⟨0, _⟩ => exact hi
  | ⟨1, _⟩ => exact hj

theorem absf_apply' {s : Shape} (a : FVec Ideal s .f32) (i : s.Idx) : absf a i = max (a i) (-(a i)) := rfl
theorem cmpi_apply' {s : Shape} {w : Nat} (p : CmpIPredicate) (x y : IVec s w) (i : s.Idx) : cmpi p x y i = IntOp.cmpi p (x i) (y i) := rfl

/-- The sum over the 64 planes of a `[64, 16384]` array, at lane `l`. -/
theorem plane_sum (src : FVec Ideal S64x16384 .f32) (hφ : FKind.Formats .f32) (hacc : (0x00000000#32 : BitVec 32) = 0x00000000#32) (l : Fin 16384) :
    multiReduction .add [0] S16384 src 0x00000000#32 reduces_S64x16384_S16384 hφ hacc (ix1 l) = ∑ p : Fin 64, src (ix2 p l) :=
  (Ideal.multiReduction_add_single src 0x00000000#32 reduces_S64x16384_S16384 hφ hacc (ix1 l)).trans
    (Finset.sum_congr rfl fun p _ => congrArg src (funext fun a => by match a with | ⟨0, _⟩ => rfl | ⟨1, _⟩ => rfl))

/-- Coordinate row `k` of the tile's points, broadcast over the planes, at `(p, l)`. -/
theorem xrow (o : ℕ) (k : Fin 3) (hk : k.val = o) (x0 : Vec Ideal S1x3x16384 .f32) (h2 : S3x16384.Slices ![o, 0] S1x16384) (p : Fin 64) (l : Fin 16384) :
    broadcastTo S64x16384 (extractStridedSlice S1x16384 ![o, 0] (shapeCast S3x16384 x0 shapeCasts_S1x3x16384_S3x16384) h2) broadcasts_S1x16384_S64x16384 (ix2 p l)
      = x0 (ix3 (0 : Fin 1) k l) := by
  rw [broadcastTo_1b_ab_apply, slice2_apply o 0 _ h2 (0 : Fin 1) l k l (by simp [hk]) (by simp), shapeCast_1ab_ab_apply]

/-- Column `k` of the batch's normals, broadcast over the lanes, at `(p, l)`. -/
theorem ncol (o : ℕ) (k : Fin 3) (hk : k.val = o) (x1 : Vec Ideal S1x64x3 .f32) (h2 : S64x3.Slices ![0, o] S64x1) (p : Fin 64) (l : Fin 16384) :
    broadcastTo S64x16384 (extractStridedSlice S64x1 ![0, o] (shapeCast S64x3 x1 shapeCasts_S1x64x3_S64x3) h2) broadcasts_S64x1_S64x16384 (ix2 p l)
      = x1 (ix3 (0 : Fin 1) p k) := by
  rw [broadcastTo_a1_ab_apply, slice2_apply 0 o _ h2 p (0 : Fin 1) p k (by simp) (by simp [hk]), shapeCast_1ab_ab_apply]

/-- The batch's offsets, broadcast over the lanes, at `(p, l)`. -/
theorem ocol (x2 : Vec Ideal S1x64x1 .f32) (p : Fin 64) (l : Fin 16384) :
    broadcastTo S64x16384 (shapeCast S64x1 x2 shapeCasts_S1x64x1_S64x1) broadcasts_S64x1_S64x16384 (ix2 p l) = x2 (ix3 (0 : Fin 1) p (0 : Fin 1)) := by
  rw [broadcastTo_a1_ab_apply, shapeCast_1ab_ab_apply]

/-- The tile's assignments, broadcast over the planes, at `(p, l)`. -/
theorem arow (x3 : Vec Ideal S1x1x16384 .i32) (p : Fin 64) (l : Fin 16384) :
    broadcastTo S64x16384 (shapeCast S1x16384 x3 shapeCasts_S1x1x16384_S1x16384) broadcasts_S1x16384_S64x16384 (ix2 p l) = x3 (ix3 (0 : Fin 1) (0 : Fin 1) l) := by
  rw [broadcastTo_1b_ab_apply, shapeCast_1ab_ab_apply]

/-- The distance of lane `l`'s point to plane `p`, from the tile's blocks. -/
def tdist (x0 : Vec Ideal S1x3x16384 .f32) (x1 : Vec Ideal S1x64x3 .f32) (x2 : Vec Ideal S1x64x1 .f32) (p : Fin 64) (l : Fin 16384) : EReal :=
  max (x1 (ix3 (0 : Fin 1) p (0 : Fin 3)) * x0 (ix3 (0 : Fin 1) (0 : Fin 3) l) + x1 (ix3 (0 : Fin 1) p (1 : Fin 3)) * x0 (ix3 (0 : Fin 1) (1 : Fin 3) l)
        + x1 (ix3 (0 : Fin 1) p (2 : Fin 3)) * x0 (ix3 (0 : Fin 1) (2 : Fin 3) l) + x2 (ix3 (0 : Fin 1) p (0 : Fin 1)))
    (-(x1 (ix3 (0 : Fin 1) p (0 : Fin 3)) * x0 (ix3 (0 : Fin 1) (0 : Fin 3) l) + x1 (ix3 (0 : Fin 1) p (1 : Fin 3)) * x0 (ix3 (0 : Fin 1) (1 : Fin 3) l)
        + x1 (ix3 (0 : Fin 1) p (2 : Fin 3)) * x0 (ix3 (0 : Fin 1) (2 : Fin 3) l) + x2 (ix3 (0 : Fin 1) p (0 : Fin 1))))

/-- What the tile keeps for lane `l`: over the 64 planes, the distance where the plane's number is the lane's assignment. -/
theorem pay8_apply (x0 : Vec Ideal S1x3x16384 .f32) (x1 : Vec Ideal S1x64x3 .f32) (x2 : Vec Ideal S1x64x1 .f32) (x3 : Vec Ideal S1x1x16384 .i32) (l : Fin 16384) :
    k0_pay8 (F := Ideal) x0 x1 x2 x3 (ix2 (0 : Fin 1) l)
      = ∑ p : Fin 64, Scalar.select (IntOp.cmpi .eq (BitVec.ofNat 32 p.val) (x3 (ix3 (0 : Fin 1) (0 : Fin 1) l))) (tdist x0 x1 x2 p l) 0 := by
  unfold k0_pay8 k0_pay7
  dsimp only
  refine (shapeCast_a_1a_apply _ _ (0 : Fin 1) l).trans ?_
  refine (plane_sum _ _ _ l).trans ?_
  refine Finset.sum_congr rfl fun p _ => ?_
  simp only [select_apply, cmpi_apply', absf_apply', addf_apply, mulf_apply, broadcast_apply]
  rw [xrow 0 0 rfl, xrow 1 1 rfl, xrow 2 2 rfl, ncol 0 0 rfl, ncol 1 1 rfl, ncol 2 2 rfl, ocol, arow, iota_single_apply]
  show Scalar.select (IntOp.cmpi .eq (BitVec.ofNat 32 p.val) _) _ (Ideal.ofBits .f32 0x00000000#32) = _
  rw [Ideal.ofBits_zero_f32]
  rfl

/-- The lanes of a tile, as the indices of a `[1, 1, 16384]` array. -/
def laneEquiv : S1x1x16384.Idx ≃ Fin 16384 where
  toFun i := i 2
  invFun l := ix3 (0 : Fin 1) (0 : Fin 1) l
  left_inv i := by
    funext a
    match a with
    | ⟨0, _⟩ => exact Subsingleton.elim (α := Fin 1) _ _
    | ⟨1, _⟩ => exact Subsingleton.elim (α := Fin 1) _ _
    | ⟨2, _⟩ => rfl
  right_inv l := rfl

/-- The sum over all lanes of a `[1, 1, 16384]` array. -/
theorem lanes_sum (src : FVec Ideal S1x1x16384 .f32) (hφ : FKind.Formats .f32) (hacc : (0x00000000#32 : BitVec 32) = 0x00000000#32) (j : S1.Idx) :
    multiReduction .add [1, 2] S1 src 0x00000000#32 reduces_S1x1x16384_S1 hφ hacc j = ∑ l : Fin 16384, src (ix3 (0 : Fin 1) (0 : Fin 1) l) :=
  (Ideal.multiReduction_add_total src 0x00000000#32 reduces_S1x1x16384_S1 (fun b => by match b with | ⟨0, _⟩ => rfl) hφ hacc j).trans
    (Equiv.sum_comp laneEquiv.symm src).symm

/-- The one entry of a `[1]` vector cast to `[1, 1, 1]` and extracted. -/
theorem extract_cast (v : S1.Idx → α) (h : S1.ShapeCasts S1x1x1) (h' : ∀ a, (![0, 0, 0] : Fin 3 → Nat) a < S1x1x1.size a) :
    extractAt ![0, 0, 0] (shapeCast S1x1x1 v h) h' = v (ix1 (0 : Fin 1)) := by
  unfold extractAt shapeCast
  exact congrArg v (funext fun a => by match a with | ⟨0, _⟩ => exact Subsingleton.elim (α := Fin 1) _ _)

/-- The running total after a tile: what it was, plus the tile's lanes added up. -/
theorem pay1_apply (v37 : FVec Ideal S1x16384 .f32) (v40 : Vec Ideal S1x1 .f32) (j : S1x1.Idx) :
    k0_pay1 (F := Ideal) v37 v40 j = v40 j + ∑ l : Fin 16384, v37 (ix2 (0 : Fin 1) l) := by
  unfold k0_pay1
  dsimp only
  rw [shapeCast_self, addf_apply, broadcast_apply, extract_cast]
  refine congrArg (fun z => v40 j + z) ?_
  refine (lanes_sum _ _ _ (ix1 (0 : Fin 1))).trans ?_
  exact Finset.sum_congr rfl fun l _ => shapeCast_ab_1ab_apply v37 _ (0 : Fin 1) (0 : Fin 1) l

/-- A validity bit widened and converted is the number 1 or 0. -/
theorem bit_to_real (b : BitVec 1) : (FloatOps.sitofp (F := Ideal) .f32 (b.setWidth 32) : EReal) = if b = 1#1 then 1 else 0 := by
  rcases BitVec.eq_zero_or_eq_one b with rfl | rfl
  · show (((0#1 : BitVec 1).setWidth 32).toInt : ℝ) = ((if (0#1 : BitVec 1) = 1#1 then 1 else 0 : EReal))
    simp
  · show (((1#1 : BitVec 1).setWidth 32).toInt : ℝ) = ((if (1#1 : BitVec 1) = 1#1 then 1 else 0 : EReal))
    simp

/-- The running count after a tile: what it was, plus the number of lanes whose bit is set. -/
theorem pay2_apply (v39 : IVec S1x16384 1) (v50 : Vec Ideal S1x1 .f32) (j : S1x1.Idx) :
    k0_pay2 (F := Ideal) v39 v50 j = v50 j + ∑ l : Fin 16384, (if v39 (ix2 (0 : Fin 1) l) = 1#1 then (1 : EReal) else 0) := by
  unfold k0_pay2
  dsimp only
  rw [shapeCast_self, addf_apply, broadcast_apply, extract_cast]
  refine congrArg (fun z => v50 j + z) ?_
  refine (lanes_sum _ _ _ (ix1 (0 : Fin 1))).trans ?_
  refine Finset.sum_congr rfl fun l _ => ?_
  rw [shapeCast_ab_1ab_apply, sitofp_apply, extui_apply]
  exact bit_to_real _

/-- The bit of lane `l`: its assignment is not negative. -/
theorem pay9_apply (x3 : Vec Ideal S1x1x16384 .i32) (l : Fin 16384) :
    k0_pay9 (F := Ideal) x3 (ix2 (0 : Fin 1) l) = IntOp.cmpi .sge (x3 (ix3 (0 : Fin 1) (0 : Fin 1) l)) 0#32 := by
  unfold k0_pay9 k0_pay7
  dsimp only
  rw [cmpi_apply', shapeCast_1ab_ab_apply, broadcast_apply]

/-- The result blocks are the accumulators, as `[1, 1, 1]` blocks. -/
theorem pay3_apply (v : Vec Ideal S1x1 .f32) : k0_pay3 (F := Ideal) v (ix3 (0 : Fin 1) (0 : Fin 1) (0 : Fin 1)) = v (ix2 (0 : Fin 1) (0 : Fin 1)) := by
  unfold k0_pay3
  try dsimp only
  rw [shapeCast_ab_1ab_apply]

theorem pay4_apply (v : Vec Ideal S1x1 .f32) : k0_pay4 (F := Ideal) v (ix3 (0 : Fin 1) (0 : Fin 1) (0 : Fin 1)) = v (ix2 (0 : Fin 1) (0 : Fin 1)) := by
  unfold k0_pay4
  try dsimp only
  rw [shapeCast_ab_1ab_apply]

/-- The accumulators start from zero. -/
theorem pay5_apply (j : S1x1.Idx) : (k0_pay5 (F := Ideal)) j = 0 := by
  unfold k0_pay5
  try dsimp only
  rw [shapeCast_self, broadcast_apply]
  exact Ideal.ofBits_zero_f32

theorem pay6_apply (j : S1x1.Idx) : (k0_pay6 (F := Ideal)) j = 0 := by
  unfold k0_pay6
  try dsimp only
  rw [shapeCast_self, broadcast_apply]
  exact Ideal.ofBits_zero_f32

end Cert.KernelIdeal.Tile

end
-- ==== Proof.Acc.lean ====
/-
  The accumulation over the grid. The grid has 8 × 31 points: point `t` is tile `t % 31` of batch `t / 31`.
  The two accumulators restart at a batch's first tile and grow by the tile's sum of kept distances, respectively
  its number of counted points; after a batch's last tile they are written to the batch's two result blocks.
-/
import proofs.«400829_j54382875902439_2_alg».proof.Proof.Gen.KernelIdeal.Frame
import proofs.«400829_j54382875902439_2_alg».proof.Proof.Pieces
import proofs.«400829_j54382875902439_2_alg».proof.Proof.Tile

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- The point's block of point coordinates, -/
abbrev xb0 (c : Dev nD) (t : Fin cfg0.N) : Vec Ideal S1x3x16384 .f32 := iblk m c 0 t
/-- of plane normals, -/
abbrev xb1 (c : Dev nD) (t : Fin cfg0.N) : Vec Ideal S1x64x3 .f32 := iblk m c 1 t
/-- of plane offsets, -/
abbrev xb2 (c : Dev nD) (t : Fin cfg0.N) : Vec Ideal S1x64x1 .f32 := iblk m c 2 t
/-- and of plane assignments. -/
abbrev xb3 (c : Dev nD) (t : Fin cfg0.N) : Vec Ideal S1x1x16384 .i32 := iblk m c 3 t

/-- Tile `n`'s sum of kept distances (zero past the grid). -/
def tT (c : Dev nD) (n : ℕ) : EReal :=
  if h : n < cfg0.N then ∑ l : Fin 16384, k0_pay8 (F := Ideal) (xb0 m c ⟨n, h⟩) (xb1 m c ⟨n, h⟩) (xb2 m c ⟨n, h⟩) (xb3 m c ⟨n, h⟩) (ix2 (0 : Fin 1) l) else 0

/-- Tile `n`'s number of counted points (zero past the grid). -/
def tC (c : Dev nD) (n : ℕ) : EReal :=
  if h : n < cfg0.N then ∑ l : Fin 16384, (if k0_pay9 (F := Ideal) (xb3 m c ⟨n, h⟩) (ix2 (0 : Fin 1) l) = 1#1 then (1 : EReal) else 0) else 0

/-- The running total after point `n`: restarted at a batch's first tile. -/
def accT (c : Dev nD) : ℕ → EReal
  | 0 => tT m c 0
  | n + 1 => if (n + 1) % 31 = 0 then tT m c (n + 1) else accT c n + tT m c (n + 1)

/-- The running count after point `n`. -/
def accC (c : Dev nD) : ℕ → EReal
  | 0 => tC m c 0
  | n + 1 => if (n + 1) % 31 = 0 then tC m c (n + 1) else accC c n + tC m c (n + 1)

theorem accT_zero (c : Dev nD) : accT m c 0 = tT m c 0 := rfl
theorem accT_succ (c : Dev nD) (n : ℕ) : accT m c (n + 1) = if (n + 1) % 31 = 0 then tT m c (n + 1) else accT m c n + tT m c (n + 1) := rfl
theorem accC_zero (c : Dev nD) : accC m c 0 = tC m c 0 := rfl
theorem accC_succ (c : Dev nD) (n : ℕ) : accC m c (n + 1) = if (n + 1) % 31 = 0 then tC m c (n + 1) else accC m c n + tC m c (n + 1) := rfl

theorem tT_of_lt (c : Dev nD) (n : ℕ) (h : n < cfg0.N) :
    tT m c n = ∑ l : Fin 16384, k0_pay8 (F := Ideal) (xb0 m c ⟨n, h⟩) (xb1 m c ⟨n, h⟩) (xb2 m c ⟨n, h⟩) (xb3 m c ⟨n, h⟩) (ix2 (0 : Fin 1) l) := dif_pos h
theorem tC_of_lt (c : Dev nD) (n : ℕ) (h : n < cfg0.N) :
    tC m c n = ∑ l : Fin 16384, (if k0_pay9 (F := Ideal) (xb3 m c ⟨n, h⟩) (ix2 (0 : Fin 1) l) = 1#1 then (1 : EReal) else 0) := dif_pos h

/-- After point `n` the two carried accumulators hold the running total and the running count. -/
theorem acc_eq (c : Dev nD) : ∀ (n : ℕ) (h : n < cfg0.N),
    (outsAt0 m c n h).2.2.1 = (fun _ => accT m c n) ∧ (outsAt0 m c n h).2.2.2 = (fun _ => accC m c n)
  | 0, h => by
    have h1 : ¬((⟨0, h⟩ : Fin cfg0.N).val % 31 = 30) := by simp
    rw [outsAt0_A m c ⟨0, h⟩ rfl h1]
    dsimp only
    constructor
    · refine (Pieces.sA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) ((hcond0_0 ⟨0, h⟩).mpr rfl) (fun hh => h1 ((hcond0_1 ⟨0, h⟩).mp hh)) (xb0 m c ⟨0, h⟩) (xb1 m c ⟨0, h⟩) (xb2 m c ⟨0, h⟩) (xb3 m c ⟨0, h⟩)).trans ?_
      funext j
      rw [Tile.pay1_apply, Tile.pay5_apply, zero_add, accT_zero, tT_of_lt m c 0 h]
    · refine (Pieces.sA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) ((hcond0_0 ⟨0, h⟩).mpr rfl) (fun hh => h1 ((hcond0_1 ⟨0, h⟩).mp hh)) (xb0 m c ⟨0, h⟩) (xb1 m c ⟨0, h⟩) (xb2 m c ⟨0, h⟩) (xb3 m c ⟨0, h⟩)).trans ?_
      funext j
      rw [Tile.pay2_apply, Tile.pay6_apply, zero_add, accC_zero, tC_of_lt m c 0 h]
  | n + 1, h => by
    obtain ⟨ihT, ihC⟩ := acc_eq c n (Nat.lt_of_succ_lt h)
    have eT : (outsAt0 m c ((⟨n + 1, h⟩ : Fin cfg0.N).val - 1) (Nat.lt_of_le_of_lt (Nat.sub_le _ _) (⟨n + 1, h⟩ : Fin cfg0.N).isLt)).2.2.1 = (fun _ => accT m c n) := ihT
    have eC : (outsAt0 m c ((⟨n + 1, h⟩ : Fin cfg0.N).val - 1) (Nat.lt_of_le_of_lt (Nat.sub_le _ _) (⟨n + 1, h⟩ : Fin cfg0.N).isLt)).2.2.2 = (fun _ => accC m c n) := ihC
    by_cases h0 : (n + 1) % 31 = 0
    · have h1 : ¬(n + 1) % 31 = 30 := by omega
      rw [outsAt0_A m c ⟨n + 1, h⟩ h0 h1]
      dsimp only
      constructor
      · refine (Pieces.sA0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole cc0_scratch0) scM0_1 (Memref.isWhole_whole cc0_scratch1) ((hcond0_0 (⟨n + 1, h⟩ : Fin cfg0.N)).mpr h0) (fun hh => h1 ((hcond0_1 (⟨n + 1, h⟩ : Fin cfg0.N)).mp hh)) (xb0 m c (⟨n + 1, h⟩ : Fin cfg0.N)) (xb1 m c (⟨n + 1, h⟩ : Fin cfg0.N)) (xb2 m c (⟨n + 1, h⟩ : Fin cfg0.N)) (xb3 m c (⟨n + 1, h⟩ : Fin cfg0.N))).trans ?_
        funext j
        rw [Tile.pay1_apply, Tile.pay5_apply, zero_add, accT_succ, if_pos h0, tT_of_lt m c (n + 1) h]
      · refine (Pieces.sA1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole cc0_scratch0) scM0_1 (Memref.isWhole_whole cc0_scratch1) ((hcond0_0 (⟨n + 1, h⟩ : Fin cfg0.N)).mpr h0) (fun hh => h1 ((hcond0_1 (⟨n + 1, h⟩ : Fin cfg0.N)).mp hh)) (xb0 m c (⟨n + 1, h⟩ : Fin cfg0.N)) (xb1 m c (⟨n + 1, h⟩ : Fin cfg0.N)) (xb2 m c (⟨n + 1, h⟩ : Fin cfg0.N)) (xb3 m c (⟨n + 1, h⟩ : Fin cfg0.N))).trans ?_
        funext j
        rw [Tile.pay2_apply, Tile.pay6_apply, zero_add, accC_succ, if_pos h0, tC_of_lt m c (n + 1) h]
    · by_cases h1 : (n + 1) % 31 = 30
      · rw [outsAt0_C m c ⟨n + 1, h⟩ h0 h1]
        dsimp only
        constructor
        · refine (Pieces.sC0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole cc0_scratch0) scM0_1 (Memref.isWhole_whole cc0_scratch1) (fun hh => h0 ((hcond0_0 (⟨n + 1, h⟩ : Fin cfg0.N)).mp hh)) ((hcond0_1 (⟨n + 1, h⟩ : Fin cfg0.N)).mpr h1) (xb0 m c (⟨n + 1, h⟩ : Fin cfg0.N)) (xb1 m c (⟨n + 1, h⟩ : Fin cfg0.N)) (xb2 m c (⟨n + 1, h⟩ : Fin cfg0.N)) (xb3 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_
          funext j
          rw [Tile.pay1_apply, eT, accT_succ, if_neg h0, tT_of_lt m c (n + 1) h]
        · refine (Pieces.sC1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole cc0_scratch0) scM0_1 (Memref.isWhole_whole cc0_scratch1) (fun hh => h0 ((hcond0_0 (⟨n + 1, h⟩ : Fin cfg0.N)).mp hh)) ((hcond0_1 (⟨n + 1, h⟩ : Fin cfg0.N)).mpr h1) (xb0 m c (⟨n + 1, h⟩ : Fin cfg0.N)) (xb1 m c (⟨n + 1, h⟩ : Fin cfg0.N)) (xb2 m c (⟨n + 1, h⟩ : Fin cfg0.N)) (xb3 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_
          funext j
          rw [Tile.pay2_apply, eC, accC_succ, if_neg h0, tC_of_lt m c (n + 1) h]
      · rw [outsAt0_B m c ⟨n + 1, h⟩ h0 h1]
        dsimp only
        constructor
        · refine (Pieces.sB0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole cc0_scratch0) scM0_1 (Memref.isWhole_whole cc0_scratch1) (fun hh => h0 ((hcond0_0 (⟨n + 1, h⟩ : Fin cfg0.N)).mp hh)) (fun hh => h1 ((hcond0_1 (⟨n + 1, h⟩ : Fin cfg0.N)).mp hh)) (xb0 m c (⟨n + 1, h⟩ : Fin cfg0.N)) (xb1 m c (⟨n + 1, h⟩ : Fin cfg0.N)) (xb2 m c (⟨n + 1, h⟩ : Fin cfg0.N)) (xb3 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_
          funext j
          rw [Tile.pay1_apply, eT, accT_succ, if_neg h0, tT_of_lt m c (n + 1) h]
        · refine (Pieces.sB1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole cc0_scratch0) scM0_1 (Memref.isWhole_whole cc0_scratch1) (fun hh => h0 ((hcond0_0 (⟨n + 1, h⟩ : Fin cfg0.N)).mp hh)) (fun hh => h1 ((hcond0_1 (⟨n + 1, h⟩ : Fin cfg0.N)).mp hh)) (xb0 m c (⟨n + 1, h⟩ : Fin cfg0.N)) (xb1 m c (⟨n + 1, h⟩ : Fin cfg0.N)) (xb2 m c (⟨n + 1, h⟩ : Fin cfg0.N)) (xb3 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_
          funext j
          rw [Tile.pay2_apply, eC, accC_succ, if_neg h0, tC_of_lt m c (n + 1) h]

end Cert.KernelIdeal.Acc

end
-- ==== Proof.Inputs.lean ====
/-
  What the kernel's blocks hold, in terms of the argument arrays.
  Point `t` is tile `t % 31` of batch `t / 31`. Its blocks read the transposed, padded points at
  `(batch, coordinate, 16384·tile + lane)`, the batch's normals and offsets, and the padded assignments at
  `(batch, 0, 16384·tile + lane)`. The padding (positions 500000 … 507903) is zero for the points and −1 for the
  assignments.
-/
import proofs.«400829_j54382875902439_2_alg».proof.Proof.Acc
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Inputs

open Cert.KernelIdeal Cert.KernelIdeal.Gen Cert.KernelIdeal.Acc Idealize.ShloMosaic.ValueIdx Idealize.ShloMosaic.StableHlo

variable (m : (ℓ : Loc nD τ sig) → Buf (Elt Ideal) ℓ)

/-! ## The windows' blocks by point -/

theorem idx0 : ∀ t : Fin cfg0.N, win0_0.index t (0 : Fin 3) = t.val / 31 ∧ win0_0.index t (1 : Fin 3) = 0 ∧ win0_0.index t (2 : Fin 3) = t.val % 31 :=
  (by decide +kernel : ∀ t : Fin grid0.N, _)
theorem idx1 : ∀ t : Fin cfg0.N, win0_1.index t (0 : Fin 3) = t.val / 31 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 31 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 31 ∧ win0_3.index t (1 : Fin 3) = 0 ∧ win0_3.index t (2 : Fin 3) = t.val % 31 :=
  (by decide +kernel : ∀ t : Fin grid0.N, _)

/-- The points block at `(0, k, l)` is the padded, transposed array at `(batch, k, 16384·tile + l)`. -/
theorem xb0_apply (c : Dev nD) (t : Fin cfg0.N) (k : Fin 3) (l : Fin 16384) (b : Fin 8) (n' : Fin 507904)
    (hb : b.val = t.val / 31) (hn : n'.val = 16384 * (t.val % 31) + l.val) :
    xb0 m c t (ix3 (0 : Fin 1) k l) = (V m c main_v2 : S8x3x507904.Idx → EReal) (ix3 b k n') := by
  unfold xb0 iblk
  rw [View.read_apply]
  show (V m c main_v2 : S8x3x507904.Idx → EReal) _ = _
  refine congrArg (V m c main_v2 : S8x3x507904.Idx → EReal) (funext fun a => Fin.ext ?_)
  obtain ⟨e0, e1, e2⟩ := idx0 t
  match a with
  | ⟨0, _⟩ => show win0_0.index t 0 * 1 + 1 * 0 = b.val; rw [e0, hb]; omega
  | ⟨1, _⟩ => show win0_0.index t 1 * 3 + 1 * k.val = k.val; rw [e1]; omega
  | ⟨2, _⟩ => show win0_0.index t 2 * 16384 + 1 * l.val = n'.val; rw [e2, hn]; omega

/-- The normals block at `(0, p, k)` is the batch's normal `p`, coordinate `k`. -/
theorem xb1_apply (c : Dev nD) (t : Fin cfg0.N) (p : Fin 64) (k : Fin 3) (b : Fin 8) (hb : b.val = t.val / 31) :
    xb1 m c t (ix3 (0 : Fin 1) p k) = m ((c : Thread nD τ).loc main_arg1) (ix3 b p k) := by
  unfold xb1 iblk
  rw [View.read_apply]
  show (V m c main_arg1 : S8x64x3.Idx → EReal) _ = _
  rw [V_main_arg1]
  refine congrArg (m ((c : Thread nD τ).loc main_arg1) : S8x64x3.Idx → EReal) (funext fun a => Fin.ext ?_)
  obtain ⟨e0, e1, e2⟩ := idx1 t
  match a with
  | ⟨0, _⟩ => show win0_1.index t 0 * 1 + 1 * 0 = b.val; rw [e0, hb]; omega
  | ⟨1, _⟩ => show win0_1.index t 1 * 64 + 1 * p.val = p.val; rw [e1]; omega
  | ⟨2, _⟩ => show win0_1.index t 2 * 3 + 1 * k.val = k.val; rw [e2]; omega

/-- The offsets block at `(0, p, 0)` is the reshaped offsets at `(batch, p, 0)`. -/
theorem xb2_apply (c : Dev nD) (t : Fin cfg0.N) (p : Fin 64) (b : Fin 8) (hb : b.val = t.val / 31) :
    xb2 m c t (ix3 (0 : Fin 1) p (0 : Fin 1)) = (V m c main_v4 : S8x64x1.Idx → EReal) (ix3 b p (0 : Fin 1)) := by
  unfold xb2 iblk
  rw [View.read_apply]
  show (V m c main_v4 : S8x64x1.Idx → EReal) _ = _
  refine congrArg (V m c main_v4 : S8x64x1.Idx → EReal) (funext fun a => Fin.ext ?_)
  obtain ⟨e0, e1, e2⟩ := idx2 t
  match a with
  | ⟨0, _⟩ => show win0_2.index t 0 * 1 + 1 * 0 = b.val; rw [e0, hb]; omega
  | ⟨1, _⟩ => show win0_2.index t 1 * 64 + 1 * p.val = p.val; rw [e1]; omega
  | ⟨2, _⟩ => show win0_2.index t 2 * 1 + 1 * 0 = 0; rw [e2]

/-- The assignments block at `(0, 0, l)` is the padded array at `(batch, 0, 16384·tile + l)`. -/
theorem xb3_apply (c : Dev nD) (t : Fin cfg0.N) (l : Fin 16384) (b : Fin 8) (n' : Fin 507904)
    (hb : b.val = t.val / 31) (hn : n'.val = 16384 * (t.val % 31) + l.val) :
    xb3 m c t (ix3 (0 : Fin 1) (0 : Fin 1) l) = (V m c main_v3 : S8x1x507904.Idx → BitVec 32) (ix3 b (0 : Fin 1) n') := by
  unfold xb3 iblk
  rw [View.read_apply]
  show (V m c main_v3 : S8x1x507904.Idx → BitVec 32) _ = _
  refine congrArg (V m c main_v3 : S8x1x507904.Idx → BitVec 32) (funext fun a => Fin.ext ?_)
  obtain ⟨e0, e1, e2⟩ := idx3 t
  match a with
  | ⟨0, _⟩ => show win0_3.index t 0 * 1 + 1 * 0 = b.val; rw [e0, hb]; omega
  | ⟨1, _⟩ => show win0_3.index t 1 * 1 + 1 * 0 = 0; rw [e1]
  | ⟨2, _⟩ => show win0_3.index t 2 * 16384 + 1 * l.val = n'.val; rw [e2, hn]; omega

/-! ## The arrays the region finds -/

variable {α : Type}

/-- The points padded along the point axis: inside, the points; past them, the padding value. -/
theorem pad_pts (x : S8x500000x3.Idx → α) (v : S_.Idx → α) (b : Fin 8) (n' : Fin 507904) (k : Fin 3) :
    pad S8x507904x3 ![0, 0, 0] ![0, 7904, 0] ![0, 0, 0] x v pads_S8x500000x3_S8x507904x3_000_079040_000 h_S_ (ix3 b n' k)
      = if h : n'.val < 500000 then x (ix3 b ⟨n'.val, h⟩ k) else v (Shape.Idx.first h_S_) := by
  unfold pad
  by_cases h : n'.val < 500000
  · have hin : ∀ a : Fin S8x500000x3.rank, (![0, 0, 0] : Fin 3 → Nat) a ≤ ((ix3 b n' k : S8x507904x3.Idx) (a.cast pads_S8x500000x3_S8x507904x3_000_079040_000.1)).val
        ∧ (((ix3 b n' k : S8x507904x3.Idx) (a.cast pads_S8x500000x3_S8x507904x3_000_079040_000.1)).val - (![0, 0, 0] : Fin 3 → Nat) a) % ((![0, 0, 0] : Fin 3 → Nat) a + 1) = 0
        ∧ (((ix3 b n' k : S8x507904x3.Idx) (a.cast pads_S8x500000x3_S8x507904x3_000_079040_000.1)).val - (![0, 0, 0] : Fin 3 → Nat) a) / ((![0, 0, 0] : Fin 3 → Nat) a + 1) < S8x500000x3.size a := by
      intro a
      match a with
      | ⟨0, _⟩ => show 0 ≤ b.val ∧ (b.val - 0) % 1 = 0 ∧ (b.val - 0) / 1 < 8; have := b.isLt; omega
      | ⟨1, _⟩ => show 0 ≤ n'.val ∧ (n'.val - 0) % 1 = 0 ∧ (n'.val - 0) / 1 < 500000; omega
      | ⟨2, _⟩ => show 0 ≤ k.val ∧ (k.val - 0) % 1 = 0 ∧ (k.val - 0) / 1 < 3; have := k.isLt; omega
    rw [dif_pos hin, dif_pos h]
    refine congrArg x (funext fun a => Fin.ext ?_)
    match a with
    | ⟨0, _⟩ => show (b.val - 0) / 1 = b.val; omega
    | ⟨1, _⟩ => show (n'.val - 0) / 1 = n'.val; omega
    | ⟨2, _⟩ => show (k.val - 0) / 1 = k.val; omega
  · rw [dif_neg h, dif_neg]
    intro hin
    have h1 := (hin (1 : Fin 3)).2.2
    have h1' : (n'.val - 0) / 1 < 500000 := h1
    omega

/-- The assignments padded along the point axis. -/
theorem pad_asg (x : S8x500000.Idx → α) (v : S_.Idx → α) (b : Fin 8) (n' : Fin 507904) :
    pad S8x507904 ![0, 0] ![0, 7904] ![0, 0] x v pads_S8x500000_S8x507904_000_079040 h_S_ (ix2 b n')
      = if h : n'.val < 500000 then x (ix2 b ⟨n'.val, h⟩) else v (Shape.Idx.first h_S_) := by
  unfold pad
  by_cases h : n'.val < 500000
  · have hin : ∀ a : Fin S8x500000.rank, (![0, 0] : Fin 2 → Nat) a ≤ ((ix2 b n' : S8x507904.Idx) (a.cast pads_S8x500000_S8x507904_000_079040.1)).val
        ∧ (((ix2 b n' : S8x507904.Idx) (a.cast pads_S8x500000_S8x507904_000_079040.1)).val - (![0, 0] : Fin 2 → Nat) a) % ((![0, 0] : Fin 2 → Nat) a + 1) = 0
        ∧ (((ix2 b n' : S8x507904.Idx) (a.cast pads_S8x500000_S8x507904_000_079040.1)).val - (![0, 0] : Fin 2 → Nat) a) / ((![0, 0] : Fin 2 → Nat) a + 1) < S8x500000.size a := by
      intro a
      match a with
      | ⟨0, _⟩ => show 0 ≤ b.val ∧ (b.val - 0) % 1 = 0 ∧ (b.val - 0) / 1 < 8; have := b.isLt; omega
      | ⟨1, _⟩ => show 0 ≤ n'.val ∧ (n'.val - 0) % 1 = 0 ∧ (n'.val - 0) / 1 < 500000; omega
    rw [dif_pos hin, dif_pos h]
    refine congrArg x (funext fun a => Fin.ext ?_)
    match a with
    | ⟨0, _⟩ => show (b.val - 0) / 1 = b.val; omega
    | ⟨1, _⟩ => show (n'.val - 0) / 1 = n'.val; omega
  · rw [dif_neg h, dif_neg]
    intro hin
    have h1 := (hin (1 : Fin 2)).2.2
    have h1' : (n'.val - 0) / 1 < 500000 := h1
    omega

/-- The region finds the points padded with zeros and transposed. -/
theorem V_v2 (c : Dev nD) : (V m c main_v2 : S8x3x507904.Idx → EReal)
    = transpose S8x3x507904 [0, 2, 1] (pad S8x507904x3 ![0, 0, 0] ![0, 7904, 0] ![0, 0, 0] (m ((c : Thread nD τ).loc main_arg0))
        (sitofp (F := Ideal) .f32 (constantI S_ 32 0#32)) pads_S8x500000x3_S8x507904x3_000_079040_000 h_S_) transposes_S8x507904x3_S8x3x507904_0_2_1 := by
  dsimp only [V, V0]
  simp only [hostOps0, hostOps0_1, hostOps0_2, hostOps0_3, hostOps0_4, List.flatten_cons, List.flatten_nil, List.append_nil, List.cons_append, List.nil_append]
  after_results
  simp only [TRef.ofBuf, TRef.toBuf, cast_eq]

/-- The region finds the assignments padded with −1 and given a unit middle axis. -/
theorem V_v3 (c : Dev nD) : (V m c main_v3 : S8x1x507904.Idx → BitVec 32)
    = shapeCast S8x1x507904 (pad S8x507904 ![0, 0] ![0, 7904] ![0, 0] (m ((c : Thread nD τ).loc main_arg3))
        (id (constantI S_ 32 4294967295#32)) pads_S8x500000_S8x507904_000_079040 h_S_) shapeCasts_S8x507904_S8x1x507904 := by
  dsimp only [V, V0]
  simp only [hostOps0, hostOps0_1, hostOps0_2, hostOps0_3, hostOps0_4, List.flatten_cons, List.flatten_nil, List.append_nil, List.cons_append, List.nil_append]
  after_results
  simp only [TRef.ofBuf, TRef.toBuf, cast_eq]
  rfl

/-- The region finds the offsets given a unit last axis. -/
theorem V_v4 (c : Dev nD) : (V m c main_v4 : S8x64x1.Idx → EReal)
    = shapeCast S8x64x1 (m ((c : Thread nD τ).loc main_arg2)) shapeCasts_S8x64_S8x64x1 := by
  dsimp only [V, V0]
  simp only [hostOps0, hostOps0_1, hostOps0_2, hostOps0_3, hostOps0_4, List.flatten_cons, List.flatten_nil, List.append_nil, List.cons_append, List.nil_append]
  after_results
  rfl

end Cert.KernelIdeal.Inputs

end
-- ==== Proof.Out.lean ====
/-
  The two result arrays after the region: entry `b` of the totals is the running total after the last tile of batch
  `b` (point `31·b + 30`), entry `b` of the counts the running count there.
-/
import proofs.«400829_j54382875902439_2_alg».proof.Proof.Acc

set_option maxRecDepth 16384

noncomputable section

open Idealize.ShloMosaic Idealize.ShloMosaic.TcCoe Idealize.SL.Sem
open Idealize.ShloMosaic.Pipeline (Dat)

namespace Cert.KernelIdeal.Out

open Cert.KernelIdeal Cert.KernelIdeal.Gen Cert.KernelIdeal.Acc Idealize.ShloMosaic.ValueIdx

variable (m : (ℓ : Loc nD τ sig) → Buf (Elt Ideal) ℓ)

/-- After a batch's last tile the result blocks hold the finished total and count. -/
theorem out_eq (c : Dev nD) (n : ℕ) (h : n + 1 < cfg0.N) (h1 : (n + 1) % 31 = 30) :
    (outsAt0 m c (n + 1) h).1 (ix3 (0 : Fin 1) (0 : Fin 1) (0 : Fin 1)) = accT m c (n + 1)
    ∧ (outsAt0 m c (n + 1) h).2.1 (ix3 (0 : Fin 1) (0 : Fin 1) (0 : Fin 1)) = accC m c (n + 1) := by
  have h0 : ¬(n + 1) % 31 = 0 := by omega
  obtain ⟨ihT, ihC⟩ := acc_eq m c n (Nat.lt_of_succ_lt h)
  have eT : (outsAt0 m c ((⟨n + 1, h⟩ : Fin cfg0.N).val - 1) (Nat.lt_of_le_of_lt (Nat.sub_le _ _) (⟨n + 1, h⟩ : Fin cfg0.N).isLt)).2.2.1 = (fun _ => accT m c n) := ihT
  have eC : (outsAt0 m c ((⟨n + 1, h⟩ : Fin cfg0.N).val - 1) (Nat.lt_of_le_of_lt (Nat.sub_le _ _) (⟨n + 1, h⟩ : Fin cfg0.N).isLt)).2.2.2 = (fun _ => accC m c n) := ihC
  rw [outsAt0_C m c ⟨n + 1, h⟩ h0 h1]
  dsimp only
  constructor
  · refine (congrFun (Pieces.oC4 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole cc0_scratch0) scM0_1 (Memref.isWhole_whole cc0_scratch1) (fun hh => h0 ((hcond0_0 (⟨n + 1, h⟩ : Fin cfg0.N)).mp hh)) ((hcond0_1 (⟨n + 1, h⟩ : Fin cfg0.N)).mpr h1) (xb0 m c (⟨n + 1, h⟩ : Fin cfg0.N)) (xb1 m c (⟨n + 1, h⟩ : Fin cfg0.N)) (xb2 m c (⟨n + 1, h⟩ : Fin cfg0.N)) (xb3 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2) (ix3 (0 : Fin 1) (0 : Fin 1) (0 : Fin 1))).trans ?_
    rw [Tile.pay3_apply, Tile.pay1_apply, eT, accT_succ, if_neg h0, tT_of_lt m c (n + 1) h]
  · refine (congrFun (Pieces.oC5 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole cc0_scratch0) scM0_1 (Memref.isWhole_whole cc0_scratch1) (fun hh => h0 ((hcond0_0 (⟨n + 1, h⟩ : Fin cfg0.N)).mp hh)) ((hcond0_1 (⟨n + 1, h⟩ : Fin cfg0.N)).mpr h1) (xb0 m c (⟨n + 1, h⟩ : Fin cfg0.N)) (xb1 m c (⟨n + 1, h⟩ : Fin cfg0.N)) (xb2 m c (⟨n + 1, h⟩ : Fin cfg0.N)) (xb3 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2) (ix3 (0 : Fin 1) (0 : Fin 1) (0 : Fin 1))).trans ?_
    rw [Tile.pay4_apply, Tile.pay2_apply, eC, accC_succ, if_neg h0, tC_of_lt m c (n + 1) h]

/-- The result windows' block of point `t` is block `t / 31` (the batch), -/
theorem idx4 : ∀ t : Fin cfg0.N, win0_4.index t (0 : Fin 3) = t.val / 31 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 31 ∧ win0_5.index t (1 : Fin 3) = 0 ∧ win0_5.index t (2 : Fin 3) = 0 :=
  (by decide +kernel : ∀ t : Fin grid0.N, _)

/-- Entry `b` of the totals array is the running total after batch `b`'s last tile. -/
theorem arr4 (c : Dev nD) (i : S8x1x1.Idx) : (dats (F := Ideal) m 0 c).arrAt 4 cfg0.N i = accT m c (31 * (i 0).val + 30) := by
  refine (dats (F := Ideal) m 0 c).arrAt_forall_of_cover 4 (fun (i : S8x1x1.Idx) (v : EReal) => v = accT m c (31 * (i 0).val + 30)) ?_ ?_ i
  · intro t hf y
    have h30 : t.val % 31 = 30 := (flush0_4 t).mp hf
    obtain ⟨tv, tlt⟩ := t
    obtain ⟨n, rfl⟩ : ∃ n, tv = n + 1 := ⟨tv - 1, by dsimp only at h30; omega⟩
    have hy : (y : S1x1x1.Idx) = ix3 (0 : Fin 1) (0 : Fin 1) (0 : Fin 1) := by
      funext a
      match a with
      | ⟨0, _⟩ => exact Subsingleton.elim (α := Fin 1) _ _
      | ⟨1, _⟩ => exact Subsingleton.elim (α := Fin 1) _ _
      | ⟨2, _⟩ => exact Subsingleton.elim (α := Fin 1) _ _
    show (cfg0.win 4).cut (grid0.coords ⟨n + 1, tlt⟩) ((dats (F := Ideal) m 0 c).after 4 ⟨n + 1, tlt⟩) y = _
    rw [after0_4]
    show (outsAt0 m c (n + 1) tlt).1 (y : S1x1x1.Idx) = _
    rw [hy, (out_eq m c n tlt h30).1]
    refine congrArg (accT m c) ?_
    show n + 1 = 31 * (win0_4.index ⟨n + 1, tlt⟩ (0 : Fin 3) * 1 + 1 * ((ix3 (0 : Fin 1) (0 : Fin 1) (0 : Fin 1) : S1x1x1.Idx) 0).val) + 30
    rw [(idx4 ⟨n + 1, tlt⟩).1]
    show n + 1 = 31 * ((n + 1) / 31 * 1 + 1 * 0) + 30
    dsimp only at h30
    omega
  · intro i
    have hi0 : ((i : S8x1x1.Idx) 0).val < 8 := ((i : S8x1x1.Idx) 0).isLt
    have hi1 : ((i : S8x1x1.Idx) 1).val < 1 := ((i : S8x1x1.Idx) 1).isLt
    have hi2 : ((i : S8x1x1.Idx) 2).val < 1 := ((i : S8x1x1.Idx) 2).isLt
    have hlt : 31 * ((i : S8x1x1.Idx) 0).val + 30 < cfg0.N := by rw [show cfg0.N = 248 from N_0]; omega
    refine ⟨⟨31 * ((i : S8x1x1.Idx) 0).val + 30, hlt⟩, (flush0_4 _).mpr (by dsimp only; omega), ?_⟩
    show i ∈ ((View.whole main_v5_0).slice (win0_4.rect ⟨31 * ((i : S8x1x1.Idx) 0).val + 30, hlt⟩)).set
    rw [View.set_slice_whole, Rect.mem_set_unit]
    obtain ⟨e0, e1, e2⟩ := idx4 ⟨31 * ((i : S8x1x1.Idx) 0).val + 30, hlt⟩
    intro a
    match a with
    | ⟨0, _⟩ =>
      show win0_4.index ⟨31 * ((i : S8x1x1.Idx) 0).val + 30, hlt⟩ 0 * 1 ≤ ((i : S8x1x1.Idx) 0 : Nat) ∧ ((i : S8x1x1.Idx) 0 : Nat) < win0_4.index ⟨31 * ((i : S8x1x1.Idx) 0).val + 30, hlt⟩ 0 * 1 + 1
      rw [e0]; dsimp only; omega
    | ⟨1, _⟩ =>
      show win0_4.index ⟨31 * ((i : S8x1x1.Idx) 0).val + 30, hlt⟩ 1 * 1 ≤ ((i : S8x1x1.Idx) 1 : Nat) ∧ ((i : S8x1x1.Idx) 1 : Nat) < win0_4.index ⟨31 * ((i : S8x1x1.Idx) 0).val + 30, hlt⟩ 1 * 1 + 1
      rw [e1]; omega
    | ⟨2, _⟩ =>
      show win0_4.index ⟨31 * ((i : S8x1x1.Idx) 0).val + 30, hlt⟩ 2 * 1 ≤ ((i : S8x1x1.Idx) 2 : Nat) ∧ ((i : S8x1x1.Idx) 2 : Nat) < win0_4.index ⟨31 * ((i : S8x1x1.Idx) 0).val + 30, hlt⟩ 2 * 1 + 1
      rw [e2]; omega

/-- Entry `b` of the counts array is the running count after batch `b`'s last tile. -/
theorem arr5 (c : Dev nD) (i : S8x1x1.Idx) : (dats (F := Ideal) m 0 c).arrAt 5 cfg0.N i = accC m c (31 * (i 0).val + 30) := by
  refine (dats (F := Ideal) m 0 c).arrAt_forall_of_cover 5 (fun (i : S8x1x1.Idx) (v : EReal) => v = accC m c (31 * (i 0).val + 30)) ?_ ?_ i
  · intro t hf y
    have h30 : t.val % 31 = 30 := (flush0_5 t).mp hf
    obtain ⟨tv, tlt⟩ := t
    obtain ⟨n, rfl⟩ : ∃ n, tv = n + 1 := ⟨tv - 1, by dsimp only at h30; omega⟩
    have hy : (y : S1x1x1.Idx) = ix3 (0 : Fin 1) (0 : Fin 1) (0 : Fin 1) := by
      funext a
      match a with
      | ⟨0, _⟩ => exact Subsingleton.elim (α := Fin 1) _ _
      | ⟨1, _⟩ => exact Subsingleton.elim (α := Fin 1) _ _
      | ⟨2, _⟩ => exact Subsingleton.elim (α := Fin 1) _ _
    show (cfg0.win 5).cut (grid0.coords ⟨n + 1, tlt⟩) ((dats (F := Ideal) m 0 c).after 5 ⟨n + 1, tlt⟩) y = _
    rw [after0_5]
    show (outsAt0 m c (n + 1) tlt).2.1 (y : S1x1x1.Idx) = _
    rw [hy, (out_eq m c n tlt h30).2]
    refine congrArg (accC m c) ?_
    show n + 1 = 31 * (win0_5.index ⟨n + 1, tlt⟩ (0 : Fin 3) * 1 + 1 * ((ix3 (0 : Fin 1) (0 : Fin 1) (0 : Fin 1) : S1x1x1.Idx) 0).val) + 30
    rw [(idx5 ⟨n + 1, tlt⟩).1]
    show n + 1 = 31 * ((n + 1) / 31 * 1 + 1 * 0) + 30
    dsimp only at h30
    omega
  · intro i
    have hi0 : ((i : S8x1x1.Idx) 0).val < 8 := ((i : S8x1x1.Idx) 0).isLt
    have hi1 : ((i : S8x1x1.Idx) 1).val < 1 := ((i : S8x1x1.Idx) 1).isLt
    have hi2 : ((i : S8x1x1.Idx) 2).val < 1 := ((i : S8x1x1.Idx) 2).isLt
    have hlt : 31 * ((i : S8x1x1.Idx) 0).val + 30 < cfg0.N := by rw [show cfg0.N = 248 from N_0]; omega
    refine ⟨⟨31 * ((i : S8x1x1.Idx) 0).val + 30, hlt⟩, (flush0_5 _).mpr (by dsimp only; omega), ?_⟩
    show i ∈ ((View.whole main_v5_1).slice (win0_5.rect ⟨31 * ((i : S8x1x1.Idx) 0).val + 30, hlt⟩)).set
    rw [View.set_slice_whole, Rect.mem_set_unit]
    obtain ⟨e0, e1, e2⟩ := idx5 ⟨31 * ((i : S8x1x1.Idx) 0).val + 30, hlt⟩
    intro a
    match a with
    | ⟨0, _⟩ =>
      show win0_5.index ⟨31 * ((i : S8x1x1.Idx) 0).val + 30, hlt⟩ 0 * 1 ≤ ((i : S8x1x1.Idx) 0 : Nat) ∧ ((i : S8x1x1.Idx) 0 : Nat) < win0_5.index ⟨31 * ((i : S8x1x1.Idx) 0).val + 30, hlt⟩ 0 * 1 + 1
      rw [e0]; dsimp only; omega
    | ⟨1, _⟩ =>
      show win0_5.index ⟨31 * ((i : S8x1x1.Idx) 0).val + 30, hlt⟩ 1 * 1 ≤ ((i : S8x1x1.Idx) 1 : Nat) ∧ ((i : S8x1x1.Idx) 1 : Nat) < win0_5.index ⟨31 * ((i : S8x1x1.Idx) 0).val + 30, hlt⟩ 1 * 1 + 1
      rw [e1]; omega
    | ⟨2, _⟩ =>
      show win0_5.index ⟨31 * ((i : S8x1x1.Idx) 0).val + 30, hlt⟩ 2 * 1 ≤ ((i : S8x1x1.Idx) 2 : Nat) ∧ ((i : S8x1x1.Idx) 2 : Nat) < win0_5.index ⟨31 * ((i : S8x1x1.Idx) 0).val + 30, hlt⟩ 2 * 1 + 1
      rw [e2]; omega

end Cert.KernelIdeal.Out

end
-- ==== Proof.Spec.lean ====
/-
  The quantity both programs compute, stated once over the argument arrays.

  For batch `b`, point `n` and plane `p` the distance of the point to the plane is
  `|nx·x + ny·y + nz·z + d|`. A point contributes the distance to the plane its assignment names when that
  assignment is a plane number (0 … 63) and nothing otherwise; a point counts when its assignment is not negative.
  The result is the sum of the contributions divided by the count when some point counts, and the bare sum otherwise.
-/
import Idealize.ShloMosaic.PureOps.Ideal
import Idealize.ShloMosaic.Lib.ValueIdx

noncomputable section

namespace Cert.PlaneSpec

open Idealize.ShloMosaic Idealize.ShloMosaic.ValueIdx

/-- points: batch × point × coordinate -/
abbrev SP : Shape := ⟨3, ![8, 500000, 3]⟩
/-- plane normals: batch × plane × coordinate -/
abbrev SN : Shape := ⟨3, ![8, 64, 3]⟩
/-- plane offsets: batch × plane -/
abbrev SO : Shape := ⟨2, ![8, 64]⟩
/-- plane assignments: batch × point -/
abbrev SA : Shape := ⟨2, ![8, 500000]⟩

/-- `|nx·x + ny·y + nz·z + d|` for point `n` and plane `p` of batch `b`. -/
def dist (P : SP.Idx → EReal) (Nm : SN.Idx → EReal) (Off : SO.Idx → EReal) (b : Fin 8) (n : Fin 500000) (p : Fin 64) : EReal :=
  max (Nm (ix3 b p 0) * P (ix3 b n 0) + Nm (ix3 b p 1) * P (ix3 b n 1) + Nm (ix3 b p 2) * P (ix3 b n 2) + Off (ix2 b p))
    (-(Nm (ix3 b p 0) * P (ix3 b n 0) + Nm (ix3 b p 1) * P (ix3 b n 1) + Nm (ix3 b p 2) * P (ix3 b n 2) + Off (ix2 b p)))

/-- What point `n` of batch `b` contributes: the distance to the plane it is assigned to, if it is assigned to one. -/
def sel (P : SP.Idx → EReal) (Nm : SN.Idx → EReal) (Off : SO.Idx → EReal) (A : SA.Idx → BitVec 32) (b : Fin 8) (n : Fin 500000) : EReal :=
  if h : (A (ix2 b n)).toNat < 64 then dist P Nm Off b n ⟨(A (ix2 b n)).toNat, h⟩ else 0

/-- The sum of all contributions. -/
def total (P : SP.Idx → EReal) (Nm : SN.Idx → EReal) (Off : SO.Idx → EReal) (A : SA.Idx → BitVec 32) : EReal :=
  ∑ b : Fin 8, ∑ n : Fin 500000, sel P Nm Off A b n

/-- The number of points whose assignment is not negative. -/
def count (A : SA.Idx → BitVec 32) : EReal :=
  ∑ b : Fin 8, ∑ n : Fin 500000, (if 0 ≤ (A (ix2 b n)).toInt then (1 : EReal) else 0)

/-- The mean over the counted points when there is one, else the bare sum. -/
def result (T C : EReal) : EReal :=
  Scalar.select (Ideal.cmp .ogt C 0) (Ideal.div T (max C 1)) T

end Cert.PlaneSpec

end
-- ==== Proof.Tail.lean ====
/-
  After the region: the host adds up the eight batch totals and the eight batch counts, and returns the total
  divided by the count when the count is positive, else the total.
-/
import proofs.«400829_j54382875902439_2_alg».proof.Proof.Out
import proofs.«400829_j54382875902439_2_alg».proof.Proof.Spec
import Idealize.ShloMosaic.Lib.StableHlo.Run
import Idealize.ShloMosaic.Lib.IdealHost

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Acc Idealize.ShloMosaic.ValueIdx Idealize.ShloMosaic.StableHlo

variable (m : (ℓ : Loc nD τ sig) → Buf (Elt Ideal) ℓ)

/-- The sum of the batch totals, -/
def KT (c : Dev nD) : EReal := ∑ b : Fin 8, accT m c (31 * b.val + 30)
/-- and of the batch counts. -/
def KC (c : Dev nD) : EReal := ∑ b : Fin 8, accC m c (31 * b.val + 30)

/-- The batches, as the indices of an `[8, 1, 1]` array. -/
def batchEquiv : S8x1x1.Idx ≃ Fin 8 where
  toFun i := i 0
  invFun b := ix3 b (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv b := rfl

theorem ofBits_one_f32 : Ideal.ofBits .f32 0x3F800000#32 = 1 := by
  have h : Ideal.ofBits .f32 0x3F800000#32 = ((1 : ℝ) : EReal) := by
    simp [Ideal.ofBits, Ideal.ieee, -EReal.coe_mul]
    norm_num
  rw [h]; rfl

/-- The host's sum of an `[8, 1, 1]` array from zero is the sum of its eight entries. -/
theorem sum8 (x : FVec Ideal S8x1x1 .f32) (j : S_.Idx) :
    Host.reduceAdd (F := Ideal) x (constant (F := Ideal) S_ .f32 0x00000000#32) reducesTo_S8x1x1_S_d0_1_2 h_S_ j = ∑ b : Fin 8, x (ix3 b (0 : Fin 1) (0 : Fin 1)) := by
  refine (hostReduceAdd_apply x _ reducesTo_S8x1x1_S_d0_1_2 h_S_ j).trans ?_
  refine (Ideal.hostReduceAdd_total reducesTo_S8x1x1_S_d0_1_2 (fun b => b.elim0) x _ j).trans ?_
  rw [constant_apply, Ideal.ofBits_zero_f32, zero_add]
  exact (Equiv.sum_comp batchEquiv.symm x).symm

theorem tail_eq (c : Dev nD) :
    Pipeline.afterTail₀ cfgs (dats (F := Ideal) m) 0 (V0 m) [hostOps1, hostOps1_1] c main_v11 = fun _ => Cert.PlaneSpec.result (KT m c) (KC m c) := by
  unfold Pipeline.afterTail₀
  simp only [hostOps1, hostOps1_1, List.flatten_cons, List.flatten_nil, List.append_nil, List.cons_append, List.nil_append]
  after_results
  simp only [TRef.ofBuf, TRef.toBuf, cast_eq]
  have e4 : Pipeline.withArrays (cfgs 0).spec c (V0 m c) (fun w => (dats (F := Ideal) m 0 c).arrAt w (cfgs 0).N) (Proc.devRef .tc main_v5_0)
      = (dats (F := Ideal) m 0 c).arrAt 4 cfg0.N := Pipeline.withArrays_arr spec0 launch0.win.arr_inj c _ _ 4
  have e5 : Pipeline.withArrays (cfgs 0).spec c (V0 m c) (fun w => (dats (F := Ideal) m 0 c).arrAt w (cfgs 0).N) (Proc.devRef .tc main_v5_1)
      = (dats (F := Ideal) m 0 c).arrAt 5 cfg0.N := Pipeline.withArrays_arr spec0 launch0.win.arr_inj c _ _ 5
  rw [e4, e5]
  funext j
  have hT : Host.reduceAdd (F := Ideal) ((dats (F := Ideal) m 0 c).arrAt 4 cfg0.N) (constant (F := Ideal) S_ .f32 0x00000000#32) reducesTo_S8x1x1_S_d0_1_2 h_S_ j = KT m c :=
    (sum8 _ j).trans (Finset.sum_congr rfl fun b _ => Out.arr4 m c (ix3 b (0 : Fin 1) (0 : Fin 1)))
  have hC : Host.reduceAdd (F := Ideal) ((dats (F := Ideal) m 0 c).arrAt 5 cfg0.N) (constant (F := Ideal) S_ .f32 0x00000000#32) reducesTo_S8x1x1_S_d0_1_2 h_S_ j = KC m c :=
    (sum8 _ j).trans (Finset.sum_congr rfl fun b _ => Out.arr5 m c (ix3 b (0 : Fin 1) (0 : Fin 1)))
  show Scalar.select (FloatOps.cmpf .ogt (Host.reduceAdd (F := Ideal) _ _ _ _ j) (Ideal.ofBits .f32 0x00000000#32))
      (FloatOps.hostDivf (Host.reduceAdd (F := Ideal) _ _ _ _ j) (FloatOps.maximumf (Host.reduceAdd (F := Ideal) _ _ _ _ j) (Ideal.ofBits .f32 0x3F800000#32)))
      (Host.reduceAdd (F := Ideal) _ _ _ _ j) = _
  rw [hT, hC, Ideal.ofBits_zero_f32, ofBits_one_f32]
  rfl

end Cert.KernelIdeal.Tail

end
-- ==== Proof.Sums.lean ====
/-
  Finite sums over the extended reals used to compare the tiled accumulation with one sum over all points:
  a selection by equality with one of 64 plane numbers keeps at most one term; 31 tiles of 16384 lanes are the
  507904 padded positions of a batch; and the padded positions past the 500000 points contribute nothing.
-/
import Idealize.ShloMosaic.PureOps.Ideal
import Idealize.ShloMosaic.Lib.StableHlo.Predicate
import Mathlib.Algebra.BigOperators.Fin
import Mathlib.Logic.Equiv.Fin.Basic

namespace Cert.Sums

open Idealize.ShloMosaic

/-- Over the 64 planes, keeping the term whose number is the word `a`: that term when `a` is a plane number, else nothing. -/
theorem onehot_sum (d : Fin 64 → EReal) (a : BitVec 32) :
    ∑ p : Fin 64, Scalar.select (IntOp.cmpi .eq (BitVec.ofNat 32 p.val) a) (d p) 0
      = if h : a.toNat < 64 then d ⟨a.toNat, h⟩ else 0 := by
  have hsel : ∀ p : Fin 64, Scalar.select (IntOp.cmpi .eq (BitVec.ofNat 32 p.val) a) (d p) 0 = if BitVec.ofNat 32 p.val = a then d p else 0 := by
    intro p
    unfold Scalar.select
    by_cases hp : BitVec.ofNat 32 p.val = a
    · rw [if_pos hp]
      exact if_pos (StableHlo.Predicate.cmpi_eq_iff.mpr hp)
    · rw [if_neg hp]
      exact if_neg (fun hc => hp (StableHlo.Predicate.cmpi_eq_iff.mp hc))
  simp only [hsel]
  by_cases h : a.toNat < 64
  · rw [dif_pos h, Finset.sum_eq_single (⟨a.toNat, h⟩ : Fin 64)]
    · rw [if_pos]
      show BitVec.ofNat 32 a.toNat = a
      exact BitVec.eq_of_toNat_eq (by rw [BitVec.toNat_ofNat]; exact Nat.mod_eq_of_lt a.isLt)
    · intro p _ hp
      rw [if_neg]
      intro he
      apply hp
      apply Fin.ext
      have : (BitVec.ofNat 32 p.val).toNat = a.toNat := congrArg BitVec.toNat he
      rw [BitVec.toNat_ofNat, Nat.mod_eq_of_lt (by have := p.isLt; omega)] at this
      exact this
    · intro hn; exact absurd (Finset.mem_univ _) hn
  · rw [dif_neg h]
    refine Finset.sum_eq_zero fun p _ => ?_
    rw [if_neg]
    intro he
    apply h
    have : (BitVec.ofNat 32 p.val).toNat = a.toNat := congrArg BitVec.toNat he
    rw [BitVec.toNat_ofNat, Nat.mod_eq_of_lt (by have := p.isLt; omega)] at this
    have := p.isLt
    omega

/-- 31 tiles of 16384 lanes are the 507904 padded positions. -/
theorem sum_tiles (f : Fin 507904 → EReal) :
    ∑ i : Fin 31, ∑ l : Fin 16384, f ⟨16384 * i.val + l.val, by have := i.isLt; have := l.isLt; omega⟩ = ∑ n : Fin 507904, f n := by
  rw [← Fintype.sum_prod_type']
  exact (Fintype.sum_equiv (finProdFinEquiv (m := 31) (n := 16384)) _ _ fun x => by
    refine congrArg f (Fin.ext ?_)
    show 16384 * x.1.val + x.2.val = x.2.val + 16384 * x.1.val
    omega)

/-- The padded positions past the points contribute nothing. -/
theorem sum_pad (g : Fin 500000 → EReal) :
    ∑ n : Fin 507904, (if h : n.val < 500000 then g ⟨n.val, h⟩ else 0) = ∑ n : Fin 500000, g n := by
  rw [show (∑ n : Fin 507904, (if h : n.val < 500000 then g ⟨n.val, h⟩ else 0))
      = ∑ n : Fin (500000 + 7904), (if h : n.val < 500000 then g ⟨n.val, h⟩ else 0) from rfl, Fin.sum_univ_add]
  have h1 : ∀ i : Fin 500000, (if h : (Fin.castAdd 7904 i).val < 500000 then g ⟨(Fin.castAdd 7904 i).val, h⟩ else 0) = g i := by
    intro i
    rw [dif_pos (by show i.val < 500000; exact i.isLt)]
    rfl
  have h2 : ∀ i : Fin 7904, (if h : (Fin.natAdd 500000 i).val < 500000 then g ⟨(Fin.natAdd 500000 i).val, h⟩ else 0) = 0 := by
    intro i
    rw [dif_neg (by show ¬(500000 + i.val < 500000); omega)]
  simp only [h1, h2, Finset.sum_const_zero, add_zero]

end Cert.Sums
-- ==== Proof.KValue.lean ====
/-
  The kernel's two sums in terms of the argument arrays. Tile `i` of batch `b` covers the padded positions
  `16384·i … 16384·i + 16383`; a real position contributes what the specification says for that point, a padded one
  (assignment −1, which is no plane number and is negative) contributes nothing to either sum.
-/
import proofs.«400829_j54382875902439_2_alg».proof.Proof.Inputs
import proofs.«400829_j54382875902439_2_alg».proof.Proof.Tail
import proofs.«400829_j54382875902439_2_alg».proof.Proof.Sums
import proofs.«400829_j54382875902439_2_alg».proof.Proof.Spec

set_option maxRecDepth 16384

noncomputable section

open Idealize.ShloMosaic Idealize.ShloMosaic.TcCoe Idealize.SL.Sem

namespace Cert.KernelIdeal.KValue

open Cert.KernelIdeal Cert.KernelIdeal.Gen Cert.KernelIdeal.Acc Cert.KernelIdeal.Inputs Idealize.ShloMosaic.ValueIdx

variable (m : (ℓ : Loc nD τ sig) → Buf (Elt Ideal) ℓ)

/-- The argument arrays. -/
abbrev aP (c : Dev nD) : Cert.PlaneSpec.SP.Idx → EReal := m ((c : Thread nD τ).loc main_arg0)
abbrev aN (c : Dev nD) : Cert.PlaneSpec.SN.Idx → EReal := m ((c : Thread nD τ).loc main_arg1)
abbrev aO (c : Dev nD) : Cert.PlaneSpec.SO.Idx → EReal := m ((c : Thread nD τ).loc main_arg2)
abbrev aA (c : Dev nD) : Cert.PlaneSpec.SA.Idx → BitVec 32 := m ((c : Thread nD τ).loc main_arg3)

/-- What padded position `n'` of batch `b` contributes to the total, -/
def gsel (c : Dev nD) (b : Fin 8) (n' : Fin 507904) : EReal :=
  if h : n'.val < 500000 then Cert.PlaneSpec.sel (aP m c) (aN m c) (aO m c) (aA m c) b ⟨n'.val, h⟩ else 0
/-- and to the count. -/
def gcnt (c : Dev nD) (b : Fin 8) (n' : Fin 507904) : EReal :=
  if h : n'.val < 500000 then (if 0 ≤ (aA m c (ix2 b ⟨n'.val, h⟩)).toInt then (1 : EReal) else 0) else 0

section Point

variable (c : Dev nD) (t : Fin cfg0.N) (l : Fin 16384) (b : Fin 8) (n' : Fin 507904)

/-- The assignment the tile sees at lane `l`: the point's, or −1 on the padding. -/
theorem asg_at (hb : b.val = t.val / 31) (hn : n'.val = 16384 * (t.val % 31) + l.val) : xb3 m c t (ix3 (0 : Fin 1) (0 : Fin 1) l) = if h : n'.val < 500000 then aA m c (ix2 b ⟨n'.val, h⟩) else 4294967295#32 := by
  rw [xb3_apply m c t l b n' hb hn, V_v3]
  refine (shapeCast_apply _ shapeCasts_S8x507904_S8x1x507904 (ix3 b (0 : Fin 1) n') (ix2 b n') (by
    rw [Shape.rowMajor_val_two, Shape.rowMajor_val_three]
    show b.val * 507904 + n'.val = (b.val * 1 + 0) * 507904 + n'.val
    omega)).trans ?_
  rw [pad_asg]
  rfl

/-- The point coordinate `k` the tile sees at lane `l`, on a real position. -/
theorem pts_at (hb : b.val = t.val / 31) (hn : n'.val = 16384 * (t.val % 31) + l.val) (k : Fin 3) (h : n'.val < 500000) : xb0 m c t (ix3 (0 : Fin 1) k l) = aP m c (ix3 b ⟨n'.val, h⟩ k) := by
  rw [xb0_apply m c t k l b n' hb hn, V_v2, transpose_ix3_021_apply, pad_pts, dif_pos h]

/-- The plane offset the tile sees. -/
theorem off_at (hb : b.val = t.val / 31) (p : Fin 64) : xb2 m c t (ix3 (0 : Fin 1) p (0 : Fin 1)) = aO m c (ix2 b p) := by
  rw [xb2_apply m c t p b hb, V_v4]
  exact shapeCast_apply _ shapeCasts_S8x64_S8x64x1 (ix3 b p (0 : Fin 1)) (ix2 b p) (by
    rw [Shape.rowMajor_val_two, Shape.rowMajor_val_three]
    show b.val * 64 + p.val = (b.val * 64 + p.val) * 1 + 0
    omega)

/-- On a real position the tile's distance to plane `p` is the specification's. -/
theorem tdist_at (hb : b.val = t.val / 31) (hn : n'.val = 16384 * (t.val % 31) + l.val) (p : Fin 64) (h : n'.val < 500000) :
    Tile.tdist (xb0 m c t) (xb1 m c t) (xb2 m c t) p l = Cert.PlaneSpec.dist (aP m c) (aN m c) (aO m c) b ⟨n'.val, h⟩ p := by
  unfold Tile.tdist Cert.PlaneSpec.dist
  rw [pts_at m c t l b n' hb hn 0 h, pts_at m c t l b n' hb hn 1 h, pts_at m c t l b n' hb hn 2 h,
    xb1_apply m c t p 0 b hb, xb1_apply m c t p 1 b hb, xb1_apply m c t p 2 b hb, off_at m c t b hb p]

/-- What lane `l` contributes to the tile's total. -/
theorem lane_sel (hb : b.val = t.val / 31) (hn : n'.val = 16384 * (t.val % 31) + l.val) :
    k0_pay8 (F := Ideal) (xb0 m c t) (xb1 m c t) (xb2 m c t) (xb3 m c t) (ix2 (0 : Fin 1) l) = gsel m c b n' := by
  rw [Tile.pay8_apply, Cert.Sums.onehot_sum, asg_at m c t l b n' hb hn]
  unfold gsel
  by_cases h : n'.val < 500000
  · simp only [dif_pos h]
    unfold Cert.PlaneSpec.sel
    by_cases h' : (aA m c (ix2 b ⟨n'.val, h⟩)).toNat < 64
    · rw [dif_pos h', dif_pos h']
      exact tdist_at m c t l b n' hb hn _ h
    · rw [dif_neg h', dif_neg h']
  · simp only [dif_neg h]
    rw [dif_neg (by decide)]

/-- What lane `l` contributes to the tile's count. -/
theorem lane_cnt (hb : b.val = t.val / 31) (hn : n'.val = 16384 * (t.val % 31) + l.val) :
    (if k0_pay9 (F := Ideal) (xb3 m c t) (ix2 (0 : Fin 1) l) = 1#1 then (1 : EReal) else 0) = gcnt m c b n' := by
  rw [Tile.pay9_apply, asg_at m c t l b n' hb hn]
  unfold gcnt
  by_cases h : n'.val < 500000
  · simp only [dif_pos h]
    have e : (IntOp.cmpi .sge (aA m c (ix2 b ⟨n'.val, h⟩)) 0#32 = 1#1) ↔ 0 ≤ (aA m c (ix2 b ⟨n'.val, h⟩)).toInt := by
      unfold IntOp.cmpi
      simp [BitVec.sle]
      exact (StableHlo.Predicate.ofBool_eq_one_iff _).trans decide_eq_true_iff
    by_cases h0 : 0 ≤ (aA m c (ix2 b ⟨n'.val, h⟩)).toInt
    · rw [if_pos h0, if_pos (e.mpr h0)]
    · rw [if_neg h0, if_neg (fun hc => h0 (e.mp hc))]
  · simp only [dif_neg h]
    rw [if_neg (by decide)]

end Point

/-- Tile `i` of batch `b`: its total is the sum of its 16384 positions' contributions, -/
theorem tT_tile (c : Dev nD) (b : Fin 8) (i : Fin 31) :
    tT m c (31 * b.val + i.val) = ∑ l : Fin 16384, gsel m c b ⟨16384 * i.val + l.val, by have := i.isLt; have := l.isLt; omega⟩ := by
  have hlt : 31 * b.val + i.val < cfg0.N := by rw [show cfg0.N = 248 from N_0]; have := b.isLt; have := i.isLt; omega
  rw [tT_of_lt m c _ hlt]
  refine Finset.sum_congr rfl fun l _ => ?_
  have hi : (31 * b.val + i.val) % 31 = i.val := by have := i.isLt; omega
  exact lane_sel m c ⟨31 * b.val + i.val, hlt⟩ l b ⟨16384 * i.val + l.val, by have := i.isLt; have := l.isLt; omega⟩
    (by show b.val = (31 * b.val + i.val) / 31; have := i.isLt; omega)
    (by show 16384 * i.val + l.val = 16384 * ((31 * b.val + i.val) % 31) + l.val; rw [hi])

/-- and its count the sum of its positions' counts. -/
theorem tC_tile (c : Dev nD) (b : Fin 8) (i : Fin 31) :
    tC m c (31 * b.val + i.val) = ∑ l : Fin 16384, gcnt m c b ⟨16384 * i.val + l.val, by have := i.isLt; have := l.isLt; omega⟩ := by
  have hlt : 31 * b.val + i.val < cfg0.N := by rw [show cfg0.N = 248 from N_0]; have := b.isLt; have := i.isLt; omega
  rw [tC_of_lt m c _ hlt]
  refine Finset.sum_congr rfl fun l _ => ?_
  have hi : (31 * b.val + i.val) % 31 = i.val := by have := i.isLt; omega
  exact lane_cnt m c ⟨31 * b.val + i.val, hlt⟩ l b ⟨16384 * i.val + l.val, by have := i.isLt; have := l.isLt; omega⟩
    (by show b.val = (31 * b.val + i.val) / 31; have := i.isLt; omega)
    (by show 16384 * i.val + l.val = 16384 * ((31 * b.val + i.val) % 31) + l.val; rw [hi])

/-- Within a batch the running total after tile `j` is the sum of the tiles so far. -/
theorem accT_block (c : Dev nD) (b : ℕ) : ∀ j, j < 31 → accT m c (31 * b + j) = ∑ i ∈ Finset.range (j + 1), tT m c (31 * b + i)
  | 0, _ => by
    rw [Finset.sum_range_one, Nat.add_zero]
    cases b with
    | zero => rfl
    | succ b' =>
      rw [show 31 * (b' + 1) = (31 * b' + 30) + 1 by ring, accT_succ, if_pos (by omega)]
  | j + 1, h => by
    rw [show 31 * b + (j + 1) = (31 * b + j) + 1 by ring, accT_succ, if_neg (by omega), accT_block c b j (by omega),
      Finset.sum_range_succ (fun i => tT m c (31 * b + i)) (j + 1)]
    rw [show 31 * b + (j + 1) = (31 * b + j) + 1 by ring]

theorem accC_block (c : Dev nD) (b : ℕ) : ∀ j, j < 31 → accC m c (31 * b + j) = ∑ i ∈ Finset.range (j + 1), tC m c (31 * b + i)
  | 0, _ => by
    rw [Finset.sum_range_one, Nat.add_zero]
    cases b with
    | zero => rfl
    | succ b' =>
      rw [show 31 * (b' + 1) = (31 * b' + 30) + 1 by ring, accC_succ, if_pos (by omega)]
  | j + 1, h => by
    rw [show 31 * b + (j + 1) = (31 * b + j) + 1 by ring, accC_succ, if_neg (by omega), accC_block c b j (by omega),
      Finset.sum_range_succ (fun i => tC m c (31 * b + i)) (j + 1)]
    rw [show 31 * b + (j + 1) = (31 * b + j) + 1 by ring]

/-- The kernel's total is the specification's. -/
theorem KT_eq (c : Dev nD) : Tail.KT m c = Cert.PlaneSpec.total (aP m c) (aN m c) (aO m c) (aA m c) := by
  unfold Tail.KT Cert.PlaneSpec.total
  refine Finset.sum_congr rfl fun b _ => ?_
  rw [accT_block m c b.val 30 (by omega)]
  refine (Finset.sum_range (fun i => tT m c (31 * b.val + i))).trans ?_
  refine (Finset.sum_congr rfl fun i _ => tT_tile m c b i).trans ?_
  refine (Cert.Sums.sum_tiles (gsel m c b)).trans ?_
  exact Cert.Sums.sum_pad (fun n => Cert.PlaneSpec.sel (aP m c) (aN m c) (aO m c) (aA m c) b n)

/-- The kernel's count is the specification's. -/
theorem KC_eq (c : Dev nD) : Tail.KC m c = Cert.PlaneSpec.count (aA m c) := by
  unfold Tail.KC Cert.PlaneSpec.count
  refine Finset.sum_congr rfl fun b _ => ?_
  rw [accC_block m c b.val 30 (by omega)]
  refine (Finset.sum_range (fun i => tC m c (31 * b.val + i))).trans ?_
  refine (Finset.sum_congr rfl fun i _ => tC_tile m c b i).trans ?_
  refine (Cert.Sums.sum_tiles (gcnt m c b)).trans ?_
  exact Cert.Sums.sum_pad (fun n => if 0 ≤ (aA m c (ix2 b n)).toInt then (1 : EReal) else 0)

/-- THE KERNEL'S RUN, read: the result is the specification's value of the argument arrays, which end unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v11)
        = (fun _ => Cert.PlaneSpec.result (Cert.PlaneSpec.total (aP m c) (aN m c) (aO m c) (aA m c)) (Cert.PlaneSpec.count (aA m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans
        ((Tail.tail_eq m c).trans (by rw [KT_eq, KC_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefRun.lean ====
/-
  The reference's run: every weakly fair execution of @main ends with the result buffer at the last stage of the
  reference's value, read off the arguments' contents at launch, and with the arguments unchanged.

  @main is a straight line of 73 operations, each writing one buffer of its own, once, from buffers written before
  it. The line is cut into eleven stretches at points where few values are still to be read. For each stretch, and for
  ANY contents `W` of the buffers that hold, at the buffers the stretch reads, the stages of the reference's value
  computed so far, the stretch leaves the next stage in the buffer it ends on: each operation's result buffer takes
  its function's value of the operands' contents and every other buffer keeps what it held. Chained, with the stages
  still to be read carried unchanged across each stretch, the last buffer holds the last stage. Nothing here compares
  the fully composed term of the arguments: every comparison is of one stretch's few operations against one stage.
-/
import proofs.«400829_j54382875902439_2_alg».proof.Proof.RefRead
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- @main's 73 operations, in order (a called function's operations stand in its call's place, spelt `TRef.…`). -/
abbrev ops : List (HloOp τ sig (Elt F)) :=
  [ nullary main_c (constantI S_ 32 0#32),
    unary main_c main_v0 (broadcastInDim S8x500000 ![] bcast_S_S8x500000 : (⟨S_, .i32⟩ : BufTy).Contents (Elt F) → (⟨S8x500000, .i32⟩ : BufTy).Contents (Elt F)),
    binary main_arg3 main_v0 main_v1 (cmpi .sge : (⟨S8x500000, .i32⟩ : BufTy).Contents (Elt F) → (⟨S8x500000, .i32⟩ : BufTy).Contents (Elt F) → (⟨S8x500000, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S8x500000, .i32⟩) main_call0_v1) (broadcastInDim S8x500000 ![] bcast_S_S8x500000),
    TRef.binary (TRef.of (T := ⟨S8x500000, .i32⟩) main_call0_v1) (TRef.of (T := ⟨S8x500000, .i32⟩) main_arg3) (TRef.of (T := ⟨S8x500000, .i32⟩) main_v2) maxsi,
    unary main_v2 main_v3 (broadcastInDim S8x500000x1 ![0, 1] bcast_S8x500000_S8x500000x1_0_1 : (⟨S8x500000, .i32⟩ : BufTy).Contents (Elt F) → (⟨S8x500000x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x500000x1, .i32⟩) main_call1_v0) (broadcastInDim S8x500000x1 ![] bcast_S_S8x500000x1),
    TRef.binary (TRef.of (T := ⟨S8x500000x1, .i32⟩) main_v3) (TRef.of (T := ⟨S8x500000x1, .i32⟩) main_call1_v0) (TRef.of (T := ⟨S8x500000x1, .i1⟩) main_call1_v1) (cmpi .slt),
    TRef.nullary (TRef.of (T := ⟨S_, .i32⟩) main_call1_c_0) (constantI S_ 32 64#32),
    TRef.unary (TRef.of (T := ⟨S_, .i32⟩) main_call1_c_0) (TRef.of (T := ⟨S8x500000x1, .i32⟩) main_call1_v2) (broadcastInDim S8x500000x1 ![] bcast_S_S8x500000x1),
    TRef.binary (TRef.of (T := ⟨S8x500000x1, .i32⟩) main_v3) (TRef.of (T := ⟨S8x500000x1, .i32⟩) main_call1_v2) (TRef.of (T := ⟨S8x500000x1, .i32⟩) main_call1_v3) addi,
    TRef.ternary (TRef.of (T := ⟨S8x500000x1, .i1⟩) main_call1_v1) (TRef.of (T := ⟨S8x500000x1, .i32⟩) main_call1_v3) (TRef.of (T := ⟨S8x500000x1, .i32⟩) main_v3) (TRef.of (T := ⟨S8x500000x1, .i32⟩) main_call1_v4) select,
    TRef.nullary (TRef.of (T := ⟨S1, .i32⟩) main_call1_c_1) (constantI S1 32 63#32),
    TRef.nullary (TRef.of (T := ⟨S_, .i32⟩) main_call1_c_2) (constantI S_ 32 0#32),
    TRef.unary (TRef.of (T := ⟨S_, .i32⟩) main_call1_c_2) (TRef.of (T := ⟨S8x500000x1, .i32⟩) main_call1_v5) (broadcastInDim S8x500000x1 ![] bcast_S_S8x500000x1),
    TRef.binary (TRef.of (T := ⟨S8x500000x1, .i32⟩) main_call1_v4) (TRef.of (T := ⟨S8x500000x1, .i32⟩) main_call1_v5) (TRef.of (T := ⟨S8x500000x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S8x500000x1, .i32⟩) main_call1_v8) (broadcastInDim S8x500000x1 ![0, 1, 2] bcast_S1x1x1_S8x500000x1_0_1_2),
    TRef.binary (TRef.of (T := ⟨S8x500000x1, .i32⟩) main_call1_v4) (TRef.of (T := ⟨S8x500000x1, .i32⟩) main_call1_v8) (TRef.of (T := ⟨S8x500000x1, .i1⟩) main_call1_v9) (cmpi .sle),
    TRef.binary (TRef.of (T := ⟨S8x500000x1, .i1⟩) main_call1_v6) (TRef.of (T := ⟨S8x500000x1, .i1⟩) main_call1_v9) (TRef.of (T := ⟨S8x500000x1, .i1⟩) main_call1_v10) andi,
    TRef.nullary (TRef.of (T := ⟨S_, .i1⟩) main_call1_c_3) (constantI S_ 1 1#1),
    TRef.binary (TRef.of (T := ⟨S8x500000x1, .i1⟩) main_call1_v10) (TRef.of (T := ⟨S_, .i1⟩) main_call1_c_3) (TRef.of (T := ⟨S8x500000, .i1⟩) main_call1_v11) (fun x v => Host.reduce IntOp.andi x v reducesTo_S8x500000x1_S8x500000_d2 h_S_),
    TRef.binary (TRef.of (T := ⟨S8x64x3, .f32⟩) main_arg1) (TRef.of (T := ⟨S8x500000x1, .i32⟩) main_call1_v4) (TRef.of (T := ⟨S8x500000x3, .f32⟩) main_call1_v12) (fun x i => Host.gather gather_S8x64x3_S8x500000x1_S8x500000x3_2_1_0_0_1_2_113 x i),
    TRef.unary (TRef.of (T := ⟨S8x500000, .i1⟩) main_call1_v11) (TRef.of (T := ⟨S8x500000x3, .i1⟩) main_call1_v13) (broadcastInDim S8x500000x3 ![0, 1] bcast_S8x500000_S8x500000x3_0_1),
    TRef.nullary (TRef.of (T := ⟨S_, .f32⟩) main_call1_cst) (constant S_ .f32 0x7FC00000#32),
    TRef.unary (TRef.of (T := ⟨S_, .f32⟩) main_call1_cst) (TRef.of (T := ⟨S8x500000x3, .f32⟩) main_call1_v14) (broadcastInDim S8x500000x3 ![] bcast_S_S8x500000x3),
    TRef.ternary (TRef.of (T := ⟨S8x500000x3, .i1⟩) main_call1_v13) (TRef.of (T := ⟨S8x500000x3, .f32⟩) main_call1_v12) (TRef.of (T := ⟨S8x500000x3, .f32⟩) main_call1_v14) (TRef.of (T := ⟨S8x500000x3, .f32⟩) main_v4) select,
    TRef.nullary (TRef.of (T := ⟨S_, .i32⟩) main_call2_c) (constantI S_ 32 0#32),
    TRef.unary (TRef.of (T := ⟨S_, .i32⟩) main_call2_c) (TRef.of (T := ⟨S8x500000, .i32⟩) main_call2_v0) (broadcastInDim S8x500000 ![] bcast_S_S8x500000),
    TRef.binary (TRef.of (T := ⟨S8x500000, .i32⟩) main_v2) (TRef.of (T := ⟨S8x500000, .i32⟩) main_call2_v0) (TRef.of (T := ⟨S8x500000, .i1⟩) main_call2_v1) (cmpi .slt),
    TRef.nullary (TRef.of (T := ⟨S_, .i32⟩) main_call2_c_0) (constantI S_ 32 64#32),
    TRef.unary (TRef.of (T := ⟨S_, .i32⟩) main_call2_c_0) (TRef.of (T := ⟨S8x500000, .i32⟩) main_call2_v2) (broadcastInDim S8x500000 ![] bcast_S_S8x500000),
    TRef.binary (TRef.of (T := ⟨S8x500000, .i32⟩) main_v2) (TRef.of (T := ⟨S8x500000, .i32⟩) main_call2_v2) (TRef.of (T := ⟨S8x500000, .i32⟩) main_call2_v3) addi,
    TRef.ternary (TRef.of (T := ⟨S8x500000, .i1⟩) main_call2_v1) (TRef.of (T := ⟨S8x500000, .i32⟩) main_call2_v3) (TRef.of (T := ⟨S8x500000, .i32⟩) main_v2) (TRef.of (T := ⟨S8x500000, .i32⟩) main_call2_v4) select,
    TRef.reshape (TRef.of (T := ⟨S8x500000, .i32⟩) main_call2_v4) (TRef.of (T := ⟨S8x500000x1, .i32⟩) main_call2_v5) rfl shapeCasts_S8x500000_S8x500000x1,
    TRef.nullary (TRef.of (T := ⟨S1, .i32⟩) main_call2_c_1) (constantI S1 32 63#32),
    TRef.nullary (TRef.of (T := ⟨S_, .i32⟩) main_call2_c_2) (constantI S_ 32 0#32),
    TRef.unary (TRef.of (T := ⟨S_, .i32⟩) main_call2_c_2) (TRef.of (T := ⟨S8x500000x1, .i32⟩) main_call2_v6) (broadcastInDim S8x500000x1 ![] bcast_S_S8x500000x1),
    TRef.binary (TRef.of (T := ⟨S8x500000x1, .i32⟩) main_call2_v5) (TRef.of (T := ⟨S8x500000x1, .i32⟩) main_call2_v6) (TRef.of (T := ⟨S8x500000x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8x500000x1, .i32⟩) main_call2_v9) (broadcastInDim S8x500000x1 ![0, 1, 2] bcast_S1x1x1_S8x500000x1_0_1_2),
    TRef.binary (TRef.of (T := ⟨S8x500000x1, .i32⟩) main_call2_v5) (TRef.of (T := ⟨S8x500000x1, .i32⟩) main_call2_v9) (TRef.of (T := ⟨S8x500000x1, .i1⟩) main_call2_v10) (cmpi .sle),
    TRef.binary (TRef.of (T := ⟨S8x500000x1, .i1⟩) main_call2_v7) (TRef.of (T := ⟨S8x500000x1, .i1⟩) main_call2_v10) (TRef.of (T := ⟨S8x500000x1, .i1⟩) main_call2_v11) andi,
    TRef.nullary (TRef.of (T := ⟨S_, .i1⟩) main_call2_c_3) (constantI S_ 1 1#1),
    TRef.binary (TRef.of (T := ⟨S8x500000x1, .i1⟩) main_call2_v11) (TRef.of (T := ⟨S_, .i1⟩) main_call2_c_3) (TRef.of (T := ⟨S8x500000, .i1⟩) main_call2_v12) (fun x v => Host.reduce IntOp.andi x v reducesTo_S8x500000x1_S8x500000_d2 h_S_),
    TRef.binary (TRef.of (T := ⟨S8x64, .f32⟩) main_arg2) (TRef.of (T := ⟨S8x500000x1, .i32⟩) main_call2_v5) (TRef.of (T := ⟨S8x500000, .f32⟩) main_call2_v13) (fun x i => Host.gather gather_S8x64_S8x500000x1_S8x500000_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8x500000, .f32⟩) main_call2_v14) (broadcastInDim S8x500000 ![] bcast_S_S8x500000),
    TRef.ternary (TRef.of (T := ⟨S8x500000, .i1⟩) main_call2_v12) (TRef.of (T := ⟨S8x500000, .f32⟩) main_call2_v13) (TRef.of (T := ⟨S8x500000, .f32⟩) main_call2_v14) (TRef.of (T := ⟨S8x500000, .f32⟩) main_v5) select,
    binary main_arg0 main_v4 main_v6 (mulf : (⟨S8x500000x3, .f32⟩ : BufTy).Contents (Elt F) → (⟨S8x500000x3, .f32⟩ : BufTy).Contents (Elt F) → (⟨S8x500000x3, .f32⟩ : BufTy).Contents (Elt F)),
    nullary main_cst (constant S_ .f32 0x00000000#32),
    binary main_v6 main_cst main_v7 ((fun x v => Host.reduceAdd x v reducesTo_S8x500000x3_S8x500000_d2 h_S_) : (⟨S8x500000x3, .f32⟩ : BufTy).Contents (Elt F) → (⟨S_, .f32⟩ : BufTy).Contents (Elt F) → (⟨S8x500000, .f32⟩ : BufTy).Contents (Elt F)),
    binary main_v7 main_v5 main_v8 (addf : (⟨S8x500000, .f32⟩ : BufTy).Contents (Elt F) → (⟨S8x500000, .f32⟩ : BufTy).Contents (Elt F) → (⟨S8x500000, .f32⟩ : BufTy).Contents (Elt F)),
    unary main_v8 main_v9 (Host.absf : (⟨S8x500000, .f32⟩ : BufTy).Contents (Elt F) → (⟨S8x500000, .f32⟩ : BufTy).Contents (Elt F)),
    nullary main_cst_1 (constant S_ .f32 0x00000000#32),
    TRef.unary (TRef.of (T := ⟨S_, .f32⟩) main_cst_1) (TRef.of (T := ⟨S_, .f32⟩) main_call3_v0) id,
    TRef.unary (TRef.of (T := ⟨S_, .f32⟩) main_call3_v0) (TRef.of (T := ⟨S8x500000, .f32⟩) main_call3_v1) (broadcastInDim S8x500000 ![] bcast_S_S8x500000),
    TRef.ternary (TRef.of (T := ⟨S8x500000, .i1⟩) main_v1) (TRef.of (T := ⟨S8x500000, .f32⟩) main_v9) (TRef.of (T := ⟨S8x500000, .f32⟩) main_call3_v1) (TRef.of (T := ⟨S8x500000, .f32⟩) main_v10) select,
    nullary main_cst_2 (constant S_ .f32 0x00000000#32),
    binary main_v10 main_cst_2 main_v11 ((fun x v => Host.reduceAdd x v reducesTo_S8x500000_S_d0_1 h_S_) : (⟨S8x500000, .f32⟩ : BufTy).Contents (Elt F) → (⟨S_, .f32⟩ : BufTy).Contents (Elt F) → (⟨S_, .f32⟩ : BufTy).Contents (Elt F)),
    unary main_v1 main_v12 ((extui 32 · natLt_1_32) : (⟨S8x500000, .i1⟩ : BufTy).Contents (Elt F) → (⟨S8x500000, .i32⟩ : BufTy).Contents (Elt F)),
    nullary main_c_3 (constantI S_ 32 0#32),
    binary main_v12 main_c_3 main_v13 ((fun x v => Host.reduce IntOp.addi x v reducesTo_S8x500000_S_d0_1 h_S_) : (⟨S8x500000, .i32⟩ : BufTy).Contents (Elt F) → (⟨S_, .i32⟩ : BufTy).Contents (Elt F) → (⟨S_, .i32⟩ : BufTy).Contents (Elt F)),
    nullary main_c_4 (constantI S_ 32 0#32),
    binary main_v13 main_c_4 main_v14 (cmpi .sgt : (⟨S_, .i32⟩ : BufTy).Contents (Elt F) → (⟨S_, .i32⟩ : BufTy).Contents (Elt F) → (⟨S_, .i1⟩ : BufTy).Contents (Elt F)),
    nullary main_c_5 (constantI S_ 32 1#32),
    binary main_v13 main_c_5 main_v15 (maxsi : (⟨S_, .i32⟩ : BufTy).Contents (Elt F) → (⟨S_, .i32⟩ : BufTy).Contents (Elt F) → (⟨S_, .i32⟩ : BufTy).Contents (Elt F)),
    unary main_v15 main_v16 (sitofp .f32 : (⟨S_, .i32⟩ : BufTy).Contents (Elt F) → (⟨S_, .f32⟩ : BufTy).Contents (Elt F)),
    binary main_v11 main_v16 main_v17 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v14) (TRef.of (T := ⟨S_, .f32⟩) main_v17) (TRef.of (T := ⟨S_, .f32⟩) main_v11) (TRef.of (T := ⟨S_, .f32⟩) main_v18) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., nullary_bufs_sub .., binary_bufs_sub .., binary_bufs_sub .., unary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., nullary_bufs_sub .., binary_bufs_sub .., unary_bufs_sub .., binary_bufs_sub .., ternary_bufs_sub ..⟩

/-! ## The operations, cut where few values are still to be read -/

/-- The validity bits, the clipped assignment, and the clipped assignment as a column. -/
abbrev opsA : List (HloOp τ sig (Elt F)) :=
  [ nullary main_c (constantI S_ 32 0#32),
    unary main_c main_v0 (broadcastInDim S8x500000 ![] bcast_S_S8x500000 : (⟨S_, .i32⟩ : BufTy).Contents (Elt F) → (⟨S8x500000, .i32⟩ : BufTy).Contents (Elt F)),
    binary main_arg3 main_v0 main_v1 (cmpi .sge : (⟨S8x500000, .i32⟩ : BufTy).Contents (Elt F) → (⟨S8x500000, .i32⟩ : BufTy).Contents (Elt F) → (⟨S8x500000, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S8x500000, .i32⟩) main_call0_v1) (broadcastInDim S8x500000 ![] bcast_S_S8x500000),
    TRef.binary (TRef.of (T := ⟨S8x500000, .i32⟩) main_call0_v1) (TRef.of (T := ⟨S8x500000, .i32⟩) main_arg3) (TRef.of (T := ⟨S8x500000, .i32⟩) main_v2) maxsi,
    unary main_v2 main_v3 (broadcastInDim S8x500000x1 ![0, 1] bcast_S8x500000_S8x500000x1_0_1 : (⟨S8x500000, .i32⟩ : BufTy).Contents (Elt F) → (⟨S8x500000x1, .i32⟩ : BufTy).Contents (Elt F)) ]

/-- The first take's start indices: the wrap of a negative index. -/
abbrev opsB : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S8x500000x1, .i32⟩) main_call1_v0) (broadcastInDim S8x500000x1 ![] bcast_S_S8x500000x1),
    TRef.binary (TRef.of (T := ⟨S8x500000x1, .i32⟩) main_v3) (TRef.of (T := ⟨S8x500000x1, .i32⟩) main_call1_v0) (TRef.of (T := ⟨S8x500000x1, .i1⟩) main_call1_v1) (cmpi .slt),
    TRef.nullary (TRef.of (T := ⟨S_, .i32⟩) main_call1_c_0) (constantI S_ 32 64#32),
    TRef.unary (TRef.of (T := ⟨S_, .i32⟩) main_call1_c_0) (TRef.of (T := ⟨S8x500000x1, .i32⟩) main_call1_v2) (broadcastInDim S8x500000x1 ![] bcast_S_S8x500000x1),
    TRef.binary (TRef.of (T := ⟨S8x500000x1, .i32⟩) main_v3) (TRef.of (T := ⟨S8x500000x1, .i32⟩) main_call1_v2) (TRef.of (T := ⟨S8x500000x1, .i32⟩) main_call1_v3) addi,
    TRef.ternary (TRef.of (T := ⟨S8x500000x1, .i1⟩) main_call1_v1) (TRef.of (T := ⟨S8x500000x1, .i32⟩) main_call1_v3) (TRef.of (T := ⟨S8x500000x1, .i32⟩) main_v3) (TRef.of (T := ⟨S8x500000x1, .i32⟩) main_call1_v4) select ]

/-- The first take's range test, and-reduced over its unit axis. -/
abbrev opsC : List (HloOp τ sig (Elt F)) :=
  [ TRef.nullary (TRef.of (T := ⟨S1, .i32⟩) main_call1_c_1) (constantI S1 32 63#32),
    TRef.nullary (TRef.of (T := ⟨S_, .i32⟩) main_call1_c_2) (constantI S_ 32 0#32),
    TRef.unary (TRef.of (T := ⟨S_, .i32⟩) main_call1_c_2) (TRef.of (T := ⟨S8x500000x1, .i32⟩) main_call1_v5) (broadcastInDim S8x500000x1 ![] bcast_S_S8x500000x1),
    TRef.binary (TRef.of (T := ⟨S8x500000x1, .i32⟩) main_call1_v4) (TRef.of (T := ⟨S8x500000x1, .i32⟩) main_call1_v5) (TRef.of (T := ⟨S8x500000x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S8x500000x1, .i32⟩) main_call1_v8) (broadcastInDim S8x500000x1 ![0, 1, 2] bcast_S1x1x1_S8x500000x1_0_1_2),
    TRef.binary (TRef.of (T := ⟨S8x500000x1, .i32⟩) main_call1_v4) (TRef.of (T := ⟨S8x500000x1, .i32⟩) main_call1_v8) (TRef.of (T := ⟨S8x500000x1, .i1⟩) main_call1_v9) (cmpi .sle),
    TRef.binary (TRef.of (T := ⟨S8x500000x1, .i1⟩) main_call1_v6) (TRef.of (T := ⟨S8x500000x1, .i1⟩) main_call1_v9) (TRef.of (T := ⟨S8x500000x1, .i1⟩) main_call1_v10) andi,
    TRef.nullary (TRef.of (T := ⟨S_, .i1⟩) main_call1_c_3) (constantI S_ 1 1#1),
    TRef.binary (TRef.of (T := ⟨S8x500000x1, .i1⟩) main_call1_v10) (TRef.of (T := ⟨S_, .i1⟩) main_call1_c_3) (TRef.of (T := ⟨S8x500000, .i1⟩) main_call1_v11) (fun x v => Host.reduce IntOp.andi x v reducesTo_S8x500000x1_S8x500000_d2 h_S_) ]

/-- The first take's gather, and its select against the test. -/
abbrev opsD : List (HloOp τ sig (Elt F)) :=
  [ TRef.binary (TRef.of (T := ⟨S8x64x3, .f32⟩) main_arg1) (TRef.of (T := ⟨S8x500000x1, .i32⟩) main_call1_v4) (TRef.of (T := ⟨S8x500000x3, .f32⟩) main_call1_v12) (fun x i => Host.gather gather_S8x64x3_S8x500000x1_S8x500000x3_2_1_0_0_1_2_113 x i),
    TRef.unary (TRef.of (T := ⟨S8x500000, .i1⟩) main_call1_v11) (TRef.of (T := ⟨S8x500000x3, .i1⟩) main_call1_v13) (broadcastInDim S8x500000x3 ![0, 1] bcast_S8x500000_S8x500000x3_0_1),
    TRef.nullary (TRef.of (T := ⟨S_, .f32⟩) main_call1_cst) (constant S_ .f32 0x7FC00000#32),
    TRef.unary (TRef.of (T := ⟨S_, .f32⟩) main_call1_cst) (TRef.of (T := ⟨S8x500000x3, .f32⟩) main_call1_v14) (broadcastInDim S8x500000x3 ![] bcast_S_S8x500000x3),
    TRef.ternary (TRef.of (T := ⟨S8x500000x3, .i1⟩) main_call1_v13) (TRef.of (T := ⟨S8x500000x3, .f32⟩) main_call1_v12) (TRef.of (T := ⟨S8x500000x3, .f32⟩) main_call1_v14) (TRef.of (T := ⟨S8x500000x3, .f32⟩) main_v4) select ]

/-- The second take's start indices, reshaped to a column. -/
abbrev opsE : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8x500000, .i32⟩) main_call2_v0) (broadcastInDim S8x500000 ![] bcast_S_S8x500000),
    TRef.binary (TRef.of (T := ⟨S8x500000, .i32⟩) main_v2) (TRef.of (T := ⟨S8x500000, .i32⟩) main_call2_v0) (TRef.of (T := ⟨S8x500000, .i1⟩) main_call2_v1) (cmpi .slt),
    TRef.nullary (TRef.of (T := ⟨S_, .i32⟩) main_call2_c_0) (constantI S_ 32 64#32),
    TRef.unary (TRef.of (T := ⟨S_, .i32⟩) main_call2_c_0) (TRef.of (T := ⟨S8x500000, .i32⟩) main_call2_v2) (broadcastInDim S8x500000 ![] bcast_S_S8x500000),
    TRef.binary (TRef.of (T := ⟨S8x500000, .i32⟩) main_v2) (TRef.of (T := ⟨S8x500000, .i32⟩) main_call2_v2) (TRef.of (T := ⟨S8x500000, .i32⟩) main_call2_v3) addi,
    TRef.ternary (TRef.of (T := ⟨S8x500000, .i1⟩) main_call2_v1) (TRef.of (T := ⟨S8x500000, .i32⟩) main_call2_v3) (TRef.of (T := ⟨S8x500000, .i32⟩) main_v2) (TRef.of (T := ⟨S8x500000, .i32⟩) main_call2_v4) select,
    TRef.reshape (TRef.of (T := ⟨S8x500000, .i32⟩) main_call2_v4) (TRef.of (T := ⟨S8x500000x1, .i32⟩) main_call2_v5) rfl shapeCasts_S8x500000_S8x500000x1 ]

/-- The second take's range test, and-reduced over its unit axis. -/
abbrev opsFs : List (HloOp τ sig (Elt F)) :=
  [ TRef.nullary (TRef.of (T := ⟨S1, .i32⟩) main_call2_c_1) (constantI S1 32 63#32),
    TRef.nullary (TRef.of (T := ⟨S_, .i32⟩) main_call2_c_2) (constantI S_ 32 0#32),
    TRef.unary (TRef.of (T := ⟨S_, .i32⟩) main_call2_c_2) (TRef.of (T := ⟨S8x500000x1, .i32⟩) main_call2_v6) (broadcastInDim S8x500000x1 ![] bcast_S_S8x500000x1),
    TRef.binary (TRef.of (T := ⟨S8x500000x1, .i32⟩) main_call2_v5) (TRef.of (T := ⟨S8x500000x1, .i32⟩) main_call2_v6) (TRef.of (T := ⟨S8x500000x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8x500000x1, .i32⟩) main_call2_v9) (broadcastInDim S8x500000x1 ![0, 1, 2] bcast_S1x1x1_S8x500000x1_0_1_2),
    TRef.binary (TRef.of (T := ⟨S8x500000x1, .i32⟩) main_call2_v5) (TRef.of (T := ⟨S8x500000x1, .i32⟩) main_call2_v9) (TRef.of (T := ⟨S8x500000x1, .i1⟩) main_call2_v10) (cmpi .sle),
    TRef.binary (TRef.of (T := ⟨S8x500000x1, .i1⟩) main_call2_v7) (TRef.of (T := ⟨S8x500000x1, .i1⟩) main_call2_v10) (TRef.of (T := ⟨S8x500000x1, .i1⟩) main_call2_v11) andi,
    TRef.nullary (TRef.of (T := ⟨S_, .i1⟩) main_call2_c_3) (constantI S_ 1 1#1),
    TRef.binary (TRef.of (T := ⟨S8x500000x1, .i1⟩) main_call2_v11) (TRef.of (T := ⟨S_, .i1⟩) main_call2_c_3) (TRef.of (T := ⟨S8x500000, .i1⟩) main_call2_v12) (fun x v => Host.reduce IntOp.andi x v reducesTo_S8x500000x1_S8x500000_d2 h_S_) ]

/-- The second take's gather, and its select against the test. -/
abbrev opsG : List (HloOp τ sig (Elt F)) :=
  [ TRef.binary (TRef.of (T := ⟨S8x64, .f32⟩) main_arg2) (TRef.of (T := ⟨S8x500000x1, .i32⟩) main_call2_v5) (TRef.of (T := ⟨S8x500000, .f32⟩) main_call2_v13) (fun x i => Host.gather gather_S8x64_S8x500000x1_S8x500000_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8x500000, .f32⟩) main_call2_v14) (broadcastInDim S8x500000 ![] bcast_S_S8x500000),
    TRef.ternary (TRef.of (T := ⟨S8x500000, .i1⟩) main_call2_v12) (TRef.of (T := ⟨S8x500000, .f32⟩) main_call2_v13) (TRef.of (T := ⟨S8x500000, .f32⟩) main_call2_v14) (TRef.of (T := ⟨S8x500000, .f32⟩) main_v5) select ]

/-- The products, their sum over the coordinates, the offset added, the absolute value. -/
abbrev opsH : List (HloOp τ sig (Elt F)) :=
  [ binary main_arg0 main_v4 main_v6 (mulf : (⟨S8x500000x3, .f32⟩ : BufTy).Contents (Elt F) → (⟨S8x500000x3, .f32⟩ : BufTy).Contents (Elt F) → (⟨S8x500000x3, .f32⟩ : BufTy).Contents (Elt F)),
    nullary main_cst (constant S_ .f32 0x00000000#32),
    binary main_v6 main_cst main_v7 ((fun x v => Host.reduceAdd x v reducesTo_S8x500000x3_S8x500000_d2 h_S_) : (⟨S8x500000x3, .f32⟩ : BufTy).Contents (Elt F) → (⟨S_, .f32⟩ : BufTy).Contents (Elt F) → (⟨S8x500000, .f32⟩ : BufTy).Contents (Elt F)),
    binary main_v7 main_v5 main_v8 (addf : (⟨S8x500000, .f32⟩ : BufTy).Contents (Elt F) → (⟨S8x500000, .f32⟩ : BufTy).Contents (Elt F) → (⟨S8x500000, .f32⟩ : BufTy).Contents (Elt F)),
    unary main_v8 main_v9 (Host.absf : (⟨S8x500000, .f32⟩ : BufTy).Contents (Elt F) → (⟨S8x500000, .f32⟩ : BufTy).Contents (Elt F)) ]

/-- The select against the validity bits, and the sum over all points. -/
abbrev opsI : List (HloOp τ sig (Elt F)) :=
  [ nullary main_cst_1 (constant S_ .f32 0x00000000#32),
    TRef.unary (TRef.of (T := ⟨S_, .f32⟩) main_cst_1) (TRef.of (T := ⟨S_, .f32⟩) main_call3_v0) id,
    TRef.unary (TRef.of (T := ⟨S_, .f32⟩) main_call3_v0) (TRef.of (T := ⟨S8x500000, .f32⟩) main_call3_v1) (broadcastInDim S8x500000 ![] bcast_S_S8x500000),
    TRef.ternary (TRef.of (T := ⟨S8x500000, .i1⟩) main_v1) (TRef.of (T := ⟨S8x500000, .f32⟩) main_v9) (TRef.of (T := ⟨S8x500000, .f32⟩) main_call3_v1) (TRef.of (T := ⟨S8x500000, .f32⟩) main_v10) select,
    nullary main_cst_2 (constant S_ .f32 0x00000000#32),
    binary main_v10 main_cst_2 main_v11 ((fun x v => Host.reduceAdd x v reducesTo_S8x500000_S_d0_1 h_S_) : (⟨S8x500000, .f32⟩ : BufTy).Contents (Elt F) → (⟨S_, .f32⟩ : BufTy).Contents (Elt F) → (⟨S_, .f32⟩ : BufTy).Contents (Elt F)) ]

/-- The validity bits widened and summed. -/
abbrev opsJ : List (HloOp τ sig (Elt F)) :=
  [ unary main_v1 main_v12 ((extui 32 · natLt_1_32) : (⟨S8x500000, .i1⟩ : BufTy).Contents (Elt F) → (⟨S8x500000, .i32⟩ : BufTy).Contents (Elt F)),
    nullary main_c_3 (constantI S_ 32 0#32),
    binary main_v12 main_c_3 main_v13 ((fun x v => Host.reduce IntOp.addi x v reducesTo_S8x500000_S_d0_1 h_S_) : (⟨S8x500000, .i32⟩ : BufTy).Contents (Elt F) → (⟨S_, .i32⟩ : BufTy).Contents (Elt F) → (⟨S_, .i32⟩ : BufTy).Contents (Elt F)) ]

/-- The comparison of the count with zero, its maximum with one, the division and the closing select. -/
abbrev opsK : List (HloOp τ sig (Elt F)) :=
  [ nullary main_c_4 (constantI S_ 32 0#32),
    binary main_v13 main_c_4 main_v14 (cmpi .sgt : (⟨S_, .i32⟩ : BufTy).Contents (Elt F) → (⟨S_, .i32⟩ : BufTy).Contents (Elt F) → (⟨S_, .i1⟩ : BufTy).Contents (Elt F)),
    nullary main_c_5 (constantI S_ 32 1#32),
    binary main_v13 main_c_5 main_v15 (maxsi : (⟨S_, .i32⟩ : BufTy).Contents (Elt F) → (⟨S_, .i32⟩ : BufTy).Contents (Elt F) → (⟨S_, .i32⟩ : BufTy).Contents (Elt F)),
    unary main_v15 main_v16 (sitofp .f32 : (⟨S_, .i32⟩ : BufTy).Contents (Elt F) → (⟨S_, .f32⟩ : BufTy).Contents (Elt F)),
    binary main_v11 main_v16 main_v17 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v14) (TRef.of (T := ⟨S_, .f32⟩) main_v17) (TRef.of (T := ⟨S_, .f32⟩) main_v11) (TRef.of (T := ⟨S_, .f32⟩) main_v18) select ]

theorem ops_eq : (ops : List (HloOp τ sig (Elt F)))
    = opsA ++ (opsB ++ (opsC ++ (opsD ++ (opsE ++ (opsFs ++ (opsG ++ (opsH ++ (opsI ++ (opsJ ++ opsK))))))))) := rfl

/-! ## Each stretch, from ANY contents `W` that hold the stages it reads -/

local notation "⟪" r "⟫" => Proc.devRef Proc.tc r

section Stretches

variable (W : Valuation τ sig (Elt F))
  (a0 : (⟨S8x500000x3, .f32⟩ : BufTy).Contents (Elt F)) (a1 : (⟨S8x64x3, .f32⟩ : BufTy).Contents (Elt F))
  (a2 : (⟨S8x64, .f32⟩ : BufTy).Contents (Elt F)) (a3 : (⟨S8x500000, .i32⟩ : BufTy).Contents (Elt F))

theorem stA (h3 : W ⟪main_arg3⟫ = a3) :
    after opsA W ⟪main_v1⟫ = val_main_v1 (F := F) a3 ∧ after opsA W ⟪main_v2⟫ = val_main_v2 (F := F) a3
      ∧ after opsA W ⟪main_v3⟫ = val_main_v3 (F := F) a3 := by
  refine ⟨?_, ?_, ?_⟩ <;> after_results_simp <;> simp only [TRef.ofBuf, TRef.toBuf, cast_eq, h3] <;> rfl

theorem stB (h : W ⟪main_v3⟫ = val_main_v3 (F := F) a3) :
    after opsB W ⟪main_call1_v4⟫ = val_main_call1_v4 (F := F) a3 := by
  after_results_simp; simp only [TRef.ofBuf, TRef.toBuf, cast_eq, h]; rfl

theorem stC (h : W ⟪main_call1_v4⟫ = val_main_call1_v4 (F := F) a3) :
    after opsC W ⟪main_call1_v11⟫ = val_main_call1_v11 (F := F) a3 := by
  after_results_simp; simp only [TRef.ofBuf, TRef.toBuf, cast_eq, h]; rfl

theorem stD (h1 : W ⟪main_arg1⟫ = a1) (h4 : W ⟪main_call1_v4⟫ = val_main_call1_v4 (F := F) a3)
    (h11 : W ⟪main_call1_v11⟫ = val_main_call1_v11 (F := F) a3) :
    after opsD W ⟪main_v4⟫ = val_main_v4 (F := F) a1 a3 := by
  after_results_simp; simp only [TRef.ofBuf, TRef.toBuf, cast_eq, h1, h4, h11]; rfl

theorem stE (h : W ⟪main_v2⟫ = val_main_v2 (F := F) a3) :
    after opsE W ⟪main_call2_v5⟫ = val_main_call2_v5 (F := F) a3 := by
  after_results_simp; simp only [TRef.ofBuf, TRef.toBuf, cast_eq, h]; rfl

theorem stF (h : W ⟪main_call2_v5⟫ = val_main_call2_v5 (F := F) a3) :
    after opsFs W ⟪main_call2_v12⟫ = val_main_call2_v12 (F := F) a3 := by
  after_results_simp; simp only [TRef.ofBuf, TRef.toBuf, cast_eq, h]; rfl

theorem stG (h2 : W ⟪main_arg2⟫ = a2) (h5 : W ⟪main_call2_v5⟫ = val_main_call2_v5 (F := F) a3)
    (h12 : W ⟪main_call2_v12⟫ = val_main_call2_v12 (F := F) a3) :
    after opsG W ⟪main_v5⟫ = val_main_v5 (F := F) a2 a3 := by
  after_results_simp; simp only [TRef.ofBuf, TRef.toBuf, cast_eq, h2, h5, h12]; rfl

theorem stH (h0 : W ⟪main_arg0⟫ = a0) (h4 : W ⟪main_v4⟫ = val_main_v4 (F := F) a1 a3)
    (h5 : W ⟪main_v5⟫ = val_main_v5 (F := F) a2 a3) :
    after opsH W ⟪main_v9⟫ = val_main_v9 (F := F) a0 a1 a2 a3 := by
  after_results_simp; simp only [h0, h4, h5]; rfl

theorem stI (h1 : W ⟪main_v1⟫ = val_main_v1 (F := F) a3) (h9 : W ⟪main_v9⟫ = val_main_v9 (F := F) a0 a1 a2 a3) :
    after opsI W ⟪main_v11⟫ = val_main_v11 (F := F) a0 a1 a2 a3 := by
  after_results_simp; simp only [TRef.ofBuf, TRef.toBuf, cast_eq, h1, h9]; rfl

theorem stJ (h1 : W ⟪main_v1⟫ = val_main_v1 (F := F) a3) :
    after opsJ W ⟪main_v13⟫ = val_main_v13 (F := F) a3 := by
  after_results_simp; simp only [h1]; rfl

theorem stK (h11 : W ⟪main_v11⟫ = val_main_v11 (F := F) a0 a1 a2 a3) (h13 : W ⟪main_v13⟫ = val_main_v13 (F := F) a3) :
    after opsK W ⟪main_v18⟫ = val_main_v18 (F := F) a0 a1 a2 a3 := by
  after_results_simp; simp only [TRef.ofBuf, TRef.toBuf, cast_eq, h11, h13]; rfl

end Stretches

/-! ## The whole line -/

section Whole

variable (V : Valuation τ sig (Elt F))
  (a0 : (⟨S8x500000x3, .f32⟩ : BufTy).Contents (Elt F)) (a1 : (⟨S8x64x3, .f32⟩ : BufTy).Contents (Elt F))
  (a2 : (⟨S8x64, .f32⟩ : BufTy).Contents (Elt F)) (a3 : (⟨S8x500000, .i32⟩ : BufTy).Contents (Elt F))

/-- From contents holding the four arguments, the result buffer ends at the last stage. Each stretch is run from the
    contents the one before left, named afresh, with the stages still to be read carried across it: no operation of a
    stretch writes a buffer written before it. -/
theorem v18_after (h0 : V ⟪main_arg0⟫ = a0) (h1 : V ⟪main_arg1⟫ = a1) (h2 : V ⟪main_arg2⟫ = a2) (h3 : V ⟪main_arg3⟫ = a3) :
    after ops V ⟪main_v18⟫ = val_main_v18 (F := F) a0 a1 a2 a3 := by
  rw [ops_eq]
  simp only [after_append]
  -- the validity bits and the clipped assignment
  obtain ⟨v1, v2, v3⟩ := stA V a3 h3
  have r0 : after opsA V ⟪main_arg0⟫ = a0 := Eq.trans (by after_results_simp) h0
  have r1 : after opsA V ⟪main_arg1⟫ = a1 := Eq.trans (by after_results_simp) h1
  have r2 : after opsA V ⟪main_arg2⟫ = a2 := Eq.trans (by after_results_simp) h2
  generalize after opsA V = W₁ at v1 v2 v3 r0 r1 r2 ⊢
  -- the first take's start indices
  have c4 := stB W₁ a3 v3
  have v1b : after opsB W₁ ⟪main_v1⟫ = val_main_v1 (F := F) a3 := Eq.trans (by after_results_simp) v1
  have v2b : after opsB W₁ ⟪main_v2⟫ = val_main_v2 (F := F) a3 := Eq.trans (by after_results_simp) v2
  have r0b : after opsB W₁ ⟪main_arg0⟫ = a0 := Eq.trans (by after_results_simp) r0
  have r1b : after opsB W₁ ⟪main_arg1⟫ = a1 := Eq.trans (by after_results_simp) r1
  have r2b : after opsB W₁ ⟪main_arg2⟫ = a2 := Eq.trans (by after_results_simp) r2
  clear v1 v2 v3 r0 r1 r2
  generalize after opsB W₁ = W₂ at c4 v1b v2b r0b r1b r2b ⊢
  -- its range test
  have c11 := stC W₂ a3 c4
  have c4c : after opsC W₂ ⟪main_call1_v4⟫ = val_main_call1_v4 (F := F) a3 := Eq.trans (by after_results_simp) c4
  have v1c : after opsC W₂ ⟪main_v1⟫ = val_main_v1 (F := F) a3 := Eq.trans (by after_results_simp) v1b
  have v2c : after opsC W₂ ⟪main_v2⟫ = val_main_v2 (F := F) a3 := Eq.trans (by after_results_simp) v2b
  have r0c : after opsC W₂ ⟪main_arg0⟫ = a0 := Eq.trans (by after_results_simp) r0b
  have r1c : after opsC W₂ ⟪main_arg1⟫ = a1 := Eq.trans (by after_results_simp) r1b
  have r2c : after opsC W₂ ⟪main_arg2⟫ = a2 := Eq.trans (by after_results_simp) r2b
  clear c4 v1b v2b r0b r1b r2b
  generalize after opsC W₂ = W₃ at c11 c4c v1c v2c r0c r1c r2c ⊢
  -- its gather and select
  have m4 := stD W₃ a1 a3 r1c c4c c11
  have v1d : after opsD W₃ ⟪main_v1⟫ = val_main_v1 (F := F) a3 := Eq.trans (by after_results_simp) v1c
  have v2d : after opsD W₃ ⟪main_v2⟫ = val_main_v2 (F := F) a3 := Eq.trans (by after_results_simp) v2c
  have r0d : after opsD W₃ ⟪main_arg0⟫ = a0 := Eq.trans (by after_results_simp) r0c
  have r2d : after opsD W₃ ⟪main_arg2⟫ = a2 := Eq.trans (by after_results_simp) r2c
  clear c11 c4c v1c v2c r0c r1c r2c
  generalize after opsD W₃ = W₄ at m4 v1d v2d r0d r2d ⊢
  -- the second take's start indices
  have d5 := stE W₄ a3 v2d
  have m4e : after opsE W₄ ⟪main_v4⟫ = val_main_v4 (F := F) a1 a3 := Eq.trans (by after_results_simp) m4
  have v1e : after opsE W₄ ⟪main_v1⟫ = val_main_v1 (F := F) a3 := Eq.trans (by after_results_simp) v1d
  have r0e : after opsE W₄ ⟪main_arg0⟫ = a0 := Eq.trans (by after_results_simp) r0d
  have r2e : after opsE W₄ ⟪main_arg2⟫ = a2 := Eq.trans (by after_results_simp) r2d
  clear m4 v1d v2d r0d r2d
  generalize after opsE W₄ = W₅ at d5 m4e v1e r0e r2e ⊢
  -- its range test
  have d12 := stF W₅ a3 d5
  have d5f : after opsFs W₅ ⟪main_call2_v5⟫ = val_main_call2_v5 (F := F) a3 := Eq.trans (by after_results_simp) d5
  have m4f : after opsFs W₅ ⟪main_v4⟫ = val_main_v4 (F := F) a1 a3 := Eq.trans (by after_results_simp) m4e
  have v1f : after opsFs W₅ ⟪main_v1⟫ = val_main_v1 (F := F) a3 := Eq.trans (by after_results_simp) v1e
  have r0f : after opsFs W₅ ⟪main_arg0⟫ = a0 := Eq.trans (by after_results_simp) r0e
  have r2f : after opsFs W₅ ⟪main_arg2⟫ = a2 := Eq.trans (by after_results_simp) r2e
  clear d5 m4e v1e r0e r2e
  generalize after opsFs W₅ = W₆ at d12 d5f m4f v1f r0f r2f ⊢
  -- its gather and select
  have m5 := stG W₆ a2 a3 r2f d5f d12
  have m4g : after opsG W₆ ⟪main_v4⟫ = val_main_v4 (F := F) a1 a3 := Eq.trans (by after_results_simp) m4f
  have v1g : after opsG W₆ ⟪main_v1⟫ = val_main_v1 (F := F) a3 := Eq.trans (by after_results_simp) v1f
  have r0g : after opsG W₆ ⟪main_arg0⟫ = a0 := Eq.trans (by after_results_simp) r0f
  clear d12 d5f m4f v1f r0f r2f
  generalize after opsG W₆ = W₇ at m5 m4g v1g r0g ⊢
  -- the distance at each point
  have m9 := stH W₇ a0 a1 a2 a3 r0g m4g m5
  have v1h : after opsH W₇ ⟪main_v1⟫ = val_main_v1 (F := F) a3 := Eq.trans (by after_results_simp) v1g
  clear m5 m4g v1g r0g
  generalize after opsH W₇ = W₈ at m9 v1h ⊢
  -- the sum of the valid points' distances
  have m11 := stI W₈ a0 a1 a2 a3 v1h m9
  have v1i : after opsI W₈ ⟪main_v1⟫ = val_main_v1 (F := F) a3 := Eq.trans (by after_results_simp) v1h
  clear m9 v1h
  generalize after opsI W₈ = W₉ at m11 v1i ⊢
  -- the count of the valid points
  have m13 := stJ W₉ a3 v1i
  have m11j : after opsJ W₉ ⟪main_v11⟫ = val_main_v11 (F := F) a0 a1 a2 a3 := Eq.trans (by after_results_simp) m11
  clear m11 v1i
  generalize after opsJ W₉ = W₁₀ at m13 m11j ⊢
  -- the closing select
  exact stK W₁₀ a0 a1 a2 a3 m11j m13

/-- No operation writes an argument's buffer. -/
theorem args_after :
    after (ops (F := F)) V ⟪main_arg0⟫ = V ⟪main_arg0⟫ ∧ after (ops (F := F)) V ⟪main_arg1⟫ = V ⟪main_arg1⟫
      ∧ after (ops (F := F)) V ⟪main_arg2⟫ = V ⟪main_arg2⟫ ∧ after (ops (F := F)) V ⟪main_arg3⟫ = V ⟪main_arg3⟫ := by
  refine ⟨?_, ?_, ?_, ?_⟩ <;> after_results_simp

end Whole

/-- On every device, for any float values, from any memory with zero counters: every weakly fair execution of
    @main terminates with the result buffer at the reference's last stage of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = Cert.ReferenceIdeal.Read.val_main_v18 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v18).trans (v18_after (launchContents m c) _ _ _ _ rfl rfl rfl rfl),
        (h c main_arg0).trans (args_after (launchContents m c)).1,
        (h c main_arg1).trans (args_after (launchContents m c)).2.1,
        (h c main_arg2).trans (args_after (launchContents m c)).2.2.1,
        (h c main_arg3).trans (args_after (launchContents m c)).2.2.2⟩)
    (run_seq scopedRefs_eq scopedSems_eq defs main (fun _ => ops) main_eq (fun _ => ops_sub) m ρ)

end Cert.ReferenceIdeal.Value

end
-- ==== Proof.RefCount.lean ====
/-
  Facts about 32-bit words, one-bit conditions and finite sums that the reference's value rests on, stated with
  no program in view.

  * a word compared signed against 0 and 63; the maximum of 0 and a word ("the clipped word") is never negative, is
    the word itself when the word is not negative, and lies in 0 … 63 when the word is below 64;
  * an and-reduction of conditions that are all 1, started from 1, is 1;
  * a sum-reduction of widened one-bit conditions over EVERY index, when the array has fewer than 2³² elements, is the
    number of conditions that are 1;
  * a sum of ones over the indices with a property is the number of such indices, as an extended real;
  * for a word whose value is a count N of at most 4 000 000: "the word is positive" is "N > 0" among the extended
    reals, and the signed maximum of the word and 1, converted, is the maximum of N and 1.
-/
import Idealize.ShloMosaic.Lib.StableHlo.Predicate
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Idealize.ShloMosaic.StableHlo.Predicate

/-! ## A word against 0 and 63, read signed -/

theorem toInt_zero32 : (0#32 : BitVec 32).toInt = 0 := by decide
theorem toInt_one32 : (1#32 : BitVec 32).toInt = 1 := by decide
theorem toInt_63 : (63#32 : BitVec 32).toInt = 63 := by decide

/-- A word is not negative exactly when its value is below 2³¹, and then it reads the same signed and unsigned. -/
theorem toInt_nonneg_iff (a : BitVec 32) : 0 ≤ a.toInt ↔ a.toNat < 2 ^ 31 := by
  have := a.isLt
  rw [BitVec.toInt_eq_toNat_cond]
  split <;> omega

theorem toInt_of_nonneg {a : BitVec 32} (h : 0 ≤ a.toInt) : a.toInt = a.toNat :=
  toInt_eq_toNat_of_lt ((toInt_nonneg_iff a).1 h)

/-- "Not below zero", the printed validity test of a word. -/
theorem sge_zero_iff (a : BitVec 32) : IntOp.cmpi .sge a 0#32 = 1#1 ↔ 0 ≤ a.toInt := by
  show BitVec.ofBool ((0#32 : BitVec 32).sle a) = 1#1 ↔ _
  rw [ofBool_eq_one_iff, BitVec.sle, decide_eq_true_eq, toInt_zero32]

theorem slt_zero_iff (a : BitVec 32) : IntOp.cmpi .slt a 0#32 = 1#1 ↔ a.toInt < 0 := by
  show BitVec.ofBool (a.slt (0#32 : BitVec 32)) = 1#1 ↔ _
  rw [ofBool_eq_one_iff, BitVec.slt, decide_eq_true_eq, toInt_zero32]

theorem sle_63_iff (a : BitVec 32) : IntOp.cmpi .sle a 63#32 = 1#1 ↔ a.toInt ≤ 63 := by
  show BitVec.ofBool (a.sle (63#32 : BitVec 32)) = 1#1 ↔ _
  rw [ofBool_eq_one_iff, BitVec.sle, decide_eq_true_eq, toInt_63]

/-- The maximum of 0 and a word that is not negative is the word. -/
theorem maxsi_zero_of_nonneg {a : BitVec 32} (h : 0 ≤ a.toInt) : IntOp.maxsi 0#32 a = a := by
  unfold IntOp.maxsi
  rw [if_neg]
  rw [BitVec.slt, decide_eq_true_eq, toInt_zero32]; omega

/-- The maximum of 0 and a negative word is 0. -/
theorem maxsi_zero_of_neg {a : BitVec 32} (h : a.toInt < 0) : IntOp.maxsi 0#32 a = 0#32 := by
  unfold IntOp.maxsi
  rw [if_pos]
  rw [BitVec.slt, decide_eq_true_eq, toInt_zero32]; exact h

/-- The clipped word is never negative … -/
theorem maxsi_zero_nonneg (a : BitVec 32) : 0 ≤ (IntOp.maxsi 0#32 a).toInt := by
  rcases lt_or_ge a.toInt 0 with h | h
  · rw [maxsi_zero_of_neg h, toInt_zero32]
  · rw [maxsi_zero_of_nonneg h]; exact h

/-- … and stays below 64 when the word is. -/
theorem maxsi_zero_lt {a : BitVec 32} (ha : a.toInt < 64) : (IntOp.maxsi 0#32 a).toInt < 64 := by
  rcases lt_or_ge a.toInt 0 with h | h
  · rw [maxsi_zero_of_neg h, toInt_zero32]; omega
  · rw [maxsi_zero_of_nonneg h]; exact ha

/-- A word that is not negative is not wrapped: "below zero, then add 64, else keep" keeps it. -/
theorem wrap_of_nonneg {c : BitVec 32} (h : 0 ≤ c.toInt) :
    Scalar.select (IntOp.cmpi .slt c 0#32) (IntOp.addi c 64#32) c = c := by
  have h0 : IntOp.cmpi .slt c 0#32 = 0#1 := eq_zero_of_ne_one fun e => by
    have := (slt_zero_iff c).1 e; omega
  rw [h0, select_zero]

/-- A word in 0 … 63 passes the range test "not below 0 and at most 63". -/
theorem inrange_of_bounds {c : BitVec 32} (h0 : 0 ≤ c.toInt) (h1 : c.toInt < 64) :
    IntOp.andi (IntOp.cmpi .sge c 0#32) (IntOp.cmpi .sle c 63#32) = 1#1 := by
  rw [(sge_zero_iff c).2 h0, (sle_63_iff c).2 (by omega)]; rfl

/-- A valid word below 64 names a plane: its value is below 64, and read signed and clamped to 0 … 63 it is its value. -/
theorem start_of_valid {a : BitVec 32} (h0 : 0 ≤ a.toInt) (h1 : a.toInt < 64) :
    a.toNat < 64 ∧ min a.toInt.toNat (64 - 1) = a.toNat := by
  have e := toInt_of_nonneg h0
  omega

/-- A negative word has a value of at least 2³¹: it names no plane. -/
theorem not_lt_of_neg {a : BitVec 32} (h : a.toInt < 0) : ¬ a.toNat < 64 := by
  intro hl
  have : 0 ≤ a.toInt := (toInt_nonneg_iff a).2 (by omega)
  omega

/-! ## An and-reduction of ones -/

/-- Conditions that are all 1, folded by "and" from 1, give 1. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a]
    exact ih

/-! ## Counting the set conditions -/

/-- Summing the widened bits of a mask over EVERY index (the result has one element) gives the number of set bits,
    when the mask has fewer than 2³² elements. -/
theorem toNat_reduce_count_all {s t u : Shape} {axes : List (Fin s.rank)} (ht : ∀ b, t.size b = 1)
    (hs : s.numel < 2 ^ 32) (mask : IVec s 1) (hw : 1 < 32) (h : s.ReducesTo axes t) (hu : 0 < u.numel) (j : t.Idx) :
    (Host.reduce IntOp.addi (extui 32 mask hw) (constantI u 32 0#32) h hu j).toNat
      = (Finset.univ.filter (fun i => mask i = 1#1)).card := by
  classical
  rw [Host.reduce_eq_fold]
  have hall : (Finset.univ.filter fun i : s.Idx => h.drop i = j) = Finset.univ :=
    Finset.filter_true_of_mem fun i _ => funext fun b => Fin.ext (by
      have := (h.drop i b).isLt; have := (j b).isLt; have := ht b; omega)
  rw [hall]
  have hval : ∀ i, (extui 32 mask hw i).toNat = if mask i = 1#1 then 1 else 0 := fun i => toNat_setWidth_bit (mask i)
  have hsum : ∑ i : s.Idx, (extui 32 mask hw i).toNat = (Finset.univ.filter (fun i => mask i = 1#1)).card := by
    rw [Finset.card_filter]; exact Finset.sum_congr rfl fun i _ => hval i
  have hle : (Finset.univ.filter (fun i : s.Idx => mask i = 1#1)).card ≤ s.numel := by
    rw [← Shape.card_idx, ← Finset.card_univ]; exact Finset.card_le_univ _
  show (Finset.fold IntOp.addi 0#32 (extui 32 mask hw) Finset.univ).toNat = _
  rw [toNat_fold_addi _ _ (by rw [hsum]; omega), hsum]

/-- The number of set bits is at most the number of elements. -/
theorem count_le_numel {s : Shape} (mask : IVec s 1) : (Finset.univ.filter (fun i => mask i = 1#1)).card ≤ s.numel := by
  rw [← Shape.card_idx, ← Finset.card_univ]; exact Finset.card_le_univ _

/-- A sum of ones over the indices with a property is their number. -/
theorem sum_ones {ι : Type} [Fintype ι] (p : ι → Prop) [DecidablePred p] :
    ∑ i, (if p i then (1 : EReal) else 0) = (((Finset.univ.filter p).card : ℝ) : EReal) := by
  rw [Finset.sum_boole]; rfl

/-! ## The count word against the count -/

/-- For a word holding a count N of at most 4 000 000: the word is positive exactly when N is, among the extended reals. -/
theorem sgt_zero_count {w : BitVec 32} {N : ℕ} (hw : w.toNat = N) (hN : N ≤ 4000000) :
    IntOp.cmpi .sgt w 0#32 = Ideal.cmp .ogt ((N : ℝ) : EReal) 0 := by
  have hi : w.toInt = N := by rw [toInt_eq_toNat_of_lt (by omega), hw]
  show BitVec.ofBool ((0#32 : BitVec 32).slt w) = BitVec.ofBool (decide ((0 : EReal) < ((N : ℝ) : EReal)))
  congr 1
  rw [BitVec.slt, toInt_zero32, hi]
  refine decide_eq_decide.2 ?_
  rw [EReal.coe_pos]
  exact ⟨fun h => by exact_mod_cast h, fun h => by exact_mod_cast h⟩

/-- … and the signed maximum of the word and 1, converted exactly, is the maximum of N and 1. -/
theorem maxsi_one_count {w : BitVec 32} {N : ℕ} (hw : w.toNat = N) (hN : N ≤ 4000000) :
    (((IntOp.maxsi w 1#32).toInt : ℝ) : EReal) = max ((N : ℝ) : EReal) 1 := by
  have hi : w.toInt = N := by rw [toInt_eq_toNat_of_lt (by omega), hw]
  rw [← EReal.coe_one, ← EReal.coe_strictMono.monotone.map_max]
  congr 1
  unfold IntOp.maxsi
  rw [BitVec.slt, toInt_one32, hi]
  by_cases h : (1 : ℤ) < N
  · rw [if_pos (by simpa using h), hi]
    have : (1 : ℝ) ≤ N := by exact_mod_cast h.le
    rw [max_eq_left this]; simp
  · rw [if_neg (by simpa using h), toInt_one32]
    have : (N : ℝ) ≤ 1 := by exact_mod_cast (not_lt.1 h)
    rw [max_eq_right this]; simp

/-- So the printed closing select over the count word is the one over the count. -/
theorem result_word (T : EReal) {w : BitVec 32} {N : ℕ} (hw : w.toNat = N) (hN : N ≤ 4000000) :
    Scalar.select (IntOp.cmpi .sgt w 0#32) (Ideal.div T (((IntOp.maxsi w 1#32).toInt : ℝ) : EReal)) T
      = Scalar.select (Ideal.cmp .ogt ((N : ℝ) : EReal) 0) (Ideal.div T (max ((N : ℝ) : EReal) 1)) T := by
  rw [sgt_zero_count hw hN, maxsi_one_count hw hN]

end Cert.ReferenceIdeal.RefValue

end
-- ==== Proof.RefGather.lean ====
/-
  The two batched gathers of the reference, read at an index.

  `table[b, idx[b, n], :]` for a table of 8 × 64 rows of 3 and `table[b, idx[b, n]]` for a table of 8 × 64 scalars:
  the batch coordinate of the result picks the table's batch, the start index — read signed and clamped to 0 … 63 —
  picks the row, and the result's last coordinate (when the rows have one) picks the element within the row. The
  dimension numbers are the ones the program prints; their well-formedness is taken as a hypothesis.
-/
import Idealize.ShloMosaic.Lib.ValueIdx

noncomputable section

namespace Cert.ReferenceIdeal.RefValue

open Idealize.ShloMosaic Idealize.ShloMosaic.ValueIdx

/-- Rows of three gathered per batch: offset axis 2, collapsed axis 1, batch axis 0 on both sides, start index for axis 1. -/
abbrev rowsDims (wf : GatherDims.WF ⟨3, ![8, 64, 3]⟩ ⟨3, ![8, 500000, 1]⟩ ⟨3, ![8, 500000, 3]⟩ [2] [1] [0] [1] [0] 2 ![1, 1, 3]) :
    GatherDims ⟨3, ![8, 64, 3]⟩ ⟨3, ![8, 500000, 1]⟩ ⟨3, ![8, 500000, 3]⟩ where
  offsetDims := [2]
  collapsedSliceDims := [1]
  operandBatchingDims := [0]
  startIndicesBatchingDims := [0]
  startIndexMap := [1]
  indexVectorDim := 2
  sliceSizes := ![1, 1, 3]
  wf := wf

/-- Result element (b, n, k) is the table at (b, the clamped start index of (b, n), k). -/
theorem gather_rows_apply {α : Type} {w : Nat}
    (wf : GatherDims.WF ⟨3, ![8, 64, 3]⟩ ⟨3, ![8, 500000, 1]⟩ ⟨3, ![8, 500000, 3]⟩ [2] [1] [0] [1] [0] 2 ![1, 1, 3])
    (x : (⟨3, ![8, 64, 3]⟩ : Shape).Idx → α) (idx : IVec ⟨3, ![8, 500000, 1]⟩ w) (b : Fin 8) (n : Fin 500000) (k : Fin 3) :
    Host.gather (rowsDims wf) x idx (ix3 b n k)
      = x (ix3 b ⟨min (idx (ix3 b n 0)).toInt.toNat (64 - 1), by omega⟩ k) := by
  unfold Host.gather
  congr 1
  funext a
  refine Fin.ext ?_
  match a with
  | ⟨0, _⟩ =>
    show (rowsDims wf).start (ix3 b n k) idx 0 + (rowsDims wf).batchCoord (ix3 b n k) 0 + (rowsDims wf).offCoord (ix3 b n k) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (rowsDims wf).start (ix3 b n k) idx 1 + (rowsDims wf).batchCoord (ix3 b n k) 1 + (rowsDims wf).offCoord (ix3 b n k) 1
      = min (idx (ix3 b n 0)).toInt.toNat (64 - 1)
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims wf).startIndexMap from List.mem_singleton.mpr rfl)]
    have hsi : (rowsDims wf).siIdx (ix3 b n k) ⟨List.idxOf (1 : Fin 3) (rowsDims wf).startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi]
    rfl
  | ⟨2, _⟩ =>
    show (rowsDims wf).start (ix3 b n k) idx 2 + (rowsDims wf).batchCoord (ix3 b n k) 2 + (rowsDims wf).offCoord (ix3 b n k) 2 = k.val
    rw [GatherDims.batchCoord_eq_zero _ _ _ (show (2 : Fin 3) ∉ ([0] : List (Fin 3)) by decide)]
    unfold GatherDims.start
    rw [dif_neg (show (2 : Fin 3) ∉ ([1] : List (Fin 3)) by decide)]
    simp only [Nat.zero_add, Nat.add_zero]
    rfl

/-- Scalars gathered per batch: no offset axis, collapsed axis 1, batch axis 0 on both sides, start index for axis 1. -/
abbrev offsDims (wf : GatherDims.WF ⟨2, ![8, 64]⟩ ⟨3, ![8, 500000, 1]⟩ ⟨2, ![8, 500000]⟩ [] [1] [0] [1] [0] 2 ![1, 1]) :
    GatherDims ⟨2, ![8, 64]⟩ ⟨3, ![8, 500000, 1]⟩ ⟨2, ![8, 500000]⟩ where
  offsetDims := []
  collapsedSliceDims := [1]
  operandBatchingDims := [0]
  startIndicesBatchingDims := [0]
  startIndexMap := [1]
  indexVectorDim := 2
  sliceSizes := ![1, 1]
  wf := wf

/-- Result element (b, n) is the table at (b, the clamped start index of (b, n)). -/
theorem gather_offs_apply {α : Type} {w : Nat}
    (wf : GatherDims.WF ⟨2, ![8, 64]⟩ ⟨3, ![8, 500000, 1]⟩ ⟨2, ![8, 500000]⟩ [] [1] [0] [1] [0] 2 ![1, 1])
    (x : (⟨2, ![8, 64]⟩ : Shape).Idx → α) (idx : IVec ⟨3, ![8, 500000, 1]⟩ w) (b : Fin 8) (n : Fin 500000) :
    Host.gather (offsDims wf) x idx (ix2 b n)
      = x (ix2 b ⟨min (idx (ix3 b n 0)).toInt.toNat (64 - 1), by omega⟩) := by
  unfold Host.gather
  congr 1
  funext a
  refine Fin.ext ?_
  match a with
  | ⟨0, _⟩ =>
    show (offsDims wf).start (ix2 b n) idx 0 + (offsDims wf).batchCoord (ix2 b n) 0 + (offsDims wf).offCoord (ix2 b n) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (offsDims wf).start (ix2 b n) idx 1 + (offsDims wf).batchCoord (ix2 b n) 1 + (offsDims wf).offCoord (ix2 b n) 1
      = min (idx (ix3 b n 0)).toInt.toNat (64 - 1)
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (offsDims wf).startIndexMap from List.mem_singleton.mpr rfl)]
    have hsi : (offsDims wf).siIdx (ix2 b n) ⟨List.idxOf (1 : Fin 2) (offsDims wf).startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi]
    rfl

end Cert.ReferenceIdeal.RefValue

end
-- ==== Proof.RefIndex.lean ====
/-
  The reference's two table look-ups, read at a point.

  The reference clips each assignment at zero, looks the clipped assignment up in the table of plane normals (one row
  of three per plane) and in the table of plane offsets, and keeps the looked-up value where a range test holds.
  Because the clipped assignment is never negative it is never wrapped by the table length, and because the
  assignment is below 64 the clipped assignment lies in 0 … 63: the range test holds at EVERY point, so what is kept
  is always the table's entry at the clipped assignment, in the point's own batch. The second look-up builds the same
  start indices through a reshape, which names the same point.
-/
import proofs.«400829_j54382875902439_2_alg».proof.Proof.RefRead
import proofs.«400829_j54382875902439_2_alg».proof.Proof.RefCount
import proofs.«400829_j54382875902439_2_alg».proof.Proof.RefGather
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## The gathers with the start index named -/

theorem gather_rows_at {α : Type} {w : Nat}
    (wf : GatherDims.WF ⟨3, ![8, 64, 3]⟩ ⟨3, ![8, 500000, 1]⟩ ⟨3, ![8, 500000, 3]⟩ [2] [1] [0] [1] [0] 2 ![1, 1, 3])
    (x : (⟨3, ![8, 64, 3]⟩ : Shape).Idx → α) (idx : IVec ⟨3, ![8, 500000, 1]⟩ w) (b : Fin 8) (n : Fin 500000) (k : Fin 3)
    (c : BitVec w) (hc : idx (ix3 b n 0) = c) :
    Host.gather (rowsDims wf) x idx (ix3 b n k) = x (ix3 b ⟨min c.toInt.toNat (64 - 1), by omega⟩ k) := by
  subst hc; exact gather_rows_apply wf x idx b n k

theorem gather_offs_at {α : Type} {w : Nat}
    (wf : GatherDims.WF ⟨2, ![8, 64]⟩ ⟨3, ![8, 500000, 1]⟩ ⟨2, ![8, 500000]⟩ [] [1] [0] [1] [0] 2 ![1, 1])
    (x : (⟨2, ![8, 64]⟩ : Shape).Idx → α) (idx : IVec ⟨3, ![8, 500000, 1]⟩ w) (b : Fin 8) (n : Fin 500000)
    (c : BitVec w) (hc : idx (ix3 b n 0) = c) :
    Host.gather (offsDims wf) x idx (ix2 b n) = x (ix2 b ⟨min c.toInt.toNat (64 - 1), by omega⟩) := by
  subst hc; exact gather_offs_apply wf x idx b n

section Index

variable (x0 : (⟨S8x500000x3, .f32⟩ : BufTy).Contents (Elt Ideal)) (x1 : (⟨S8x64x3, .f32⟩ : BufTy).Contents (Elt Ideal))
  (x2 : (⟨S8x64, .f32⟩ : BufTy).Contents (Elt Ideal)) (x3 : (⟨S8x500000, .i32⟩ : BufTy).Contents (Elt Ideal))

/-- Every index of the [8, 500000, 1] start-index array is (b, n, 0). -/
theorem eq_ix3_zero (i : S8x500000x1.Idx) : i = ix3 (i 0) (i 1) (0 : Fin 1) := by
  funext a
  match a with
  | ⟨0, _⟩ => rfl
  | ⟨1, _⟩ => rfl
  | ⟨2, h⟩ =>
    have h2 : (i ⟨2, h⟩).val < 1 := (i ⟨2, h⟩).isLt
    exact Fin.ext (Nat.lt_one_iff.mp h2)

/-! ## The clipped assignment, and the start indices made of it -/

/-- `max(assignment, 0)` at point (b, n). -/
theorem v2_apply (b : Fin 8) (n : Fin 500000) :
    val_main_v2 (F := Ideal) x3 (ix2 b n) = IntOp.maxsi 0#32 (x3 (ix2 b n)) := by
  rw [val_main_v2_apply, val_main_call0_v1_apply, val_main_call0_v0_apply, val_main_c_0_apply]

theorem idx_v3 (b : Fin 8) (n : Fin 500000) : idx_main_v3 (ix3 b n (0 : Fin 1)) = ix2 b n := by
  funext a
  match a with
  | ⟨0, _⟩ => rfl
  | ⟨1, _⟩ => rfl

theorem v3_apply (b : Fin 8) (n : Fin 500000) :
    val_main_v3 (F := Ideal) x3 (ix3 b n (0 : Fin 1)) = IntOp.maxsi 0#32 (x3 (ix2 b n)) := by
  rw [val_main_v3_apply, idx_v3, v2_apply]

/-- The first take's start index: the clipped assignment is not negative, so it is not wrapped. -/
theorem call1_v4_apply (b : Fin 8) (n : Fin 500000) :
    val_main_call1_v4 (F := Ideal) x3 (ix3 b n (0 : Fin 1)) = IntOp.maxsi 0#32 (x3 (ix2 b n)) := by
  rw [val_main_call1_v4_apply, val_main_call1_v1_apply, val_main_call1_v3_apply, v3_apply, val_main_call1_v0_apply,
    val_main_call1_c_apply, val_main_call1_v2_apply, val_main_call1_c_0_apply]
  exact wrap_of_nonneg (maxsi_zero_nonneg _)

/-- The first take's range test holds at every point. -/
theorem call1_v10_apply (hA : ∀ i, (x3 i).toInt < 64) (b : Fin 8) (n : Fin 500000) :
    val_main_call1_v10 (F := Ideal) x3 (ix3 b n (0 : Fin 1)) = 1#1 := by
  rw [val_main_call1_v10_apply, val_main_call1_v6_apply, val_main_call1_v9_apply, call1_v4_apply, val_main_call1_v5_apply,
    val_main_call1_c_2_apply, val_main_call1_v8_apply, val_main_call1_v7_apply, val_main_call1_c_1_apply]
  exact inrange_of_bounds (maxsi_zero_nonneg _) (maxsi_zero_lt (hA _))

theorem call1_v11_apply (hA : ∀ i, (x3 i).toInt < 64) (j : S8x500000.Idx) :
    val_main_call1_v11 (F := Ideal) x3 j = 1#1 := by
  unfold val_main_call1_v11
  refine reduce_andi_of_all _ _ _ _ j rfl fun i => ?_
  rw [eq_ix3_zero i]
  exact call1_v10_apply x3 hA _ _

/-- The gathered normal: the table's row at the clipped assignment, for any name `p` of that row. -/
theorem v4_apply (hA : ∀ i, (x3 i).toInt < 64) (b : Fin 8) (n : Fin 500000) (k : Fin 3) (p : Fin 64)
    (hp : p.val = min (IntOp.maxsi 0#32 (x3 (ix2 b n))).toInt.toNat (64 - 1)) :
    val_main_v4 (F := Ideal) x1 x3 (ix3 b n k) = x1 (ix3 b p k) := by
  rw [val_main_v4_apply, val_main_call1_v13_apply, call1_v11_apply x3 hA, select_one]
  unfold val_main_call1_v12
  have e := gather_rows_at gather_S8x64x3_S8x500000x1_S8x500000x3_2_1_0_0_1_2_113_wf x1 (val_main_call1_v4 (F := Ideal) x3)
    b n k _ (call1_v4_apply x3 b n)
  obtain ⟨pv, hpv⟩ := p
  simp only at hp
  subst hp
  exact e

/-! ## The second take: the same start indices through a reshape -/

theorem call2_v4_apply (b : Fin 8) (n : Fin 500000) :
    val_main_call2_v4 (F := Ideal) x3 (ix2 b n) = IntOp.maxsi 0#32 (x3 (ix2 b n)) := by
  rw [val_main_call2_v4_apply, val_main_call2_v1_apply, val_main_call2_v3_apply, v2_apply, val_main_call2_v0_apply,
    val_main_call2_c_apply, val_main_call2_v2_apply, val_main_call2_c_0_apply]
  exact wrap_of_nonneg (maxsi_zero_nonneg _)

theorem idx_call2_v5 (b : Fin 8) (n : Fin 500000) : idx_main_call2_v5 (ix3 b n (0 : Fin 1)) = ix2 b n := by
  funext a
  have hb := b.isLt
  have hn := n.isLt
  match a with
  | ⟨0, _⟩ => exact Fin.ext (by show ((b.val * 500000 + n.val) * 1 + 0) / 500000 = b.val; omega)
  | ⟨1, _⟩ => exact Fin.ext (by show ((b.val * 500000 + n.val) * 1 + 0) % 500000 = n.val; omega)

theorem call2_v5_apply (b : Fin 8) (n : Fin 500000) :
    val_main_call2_v5 (F := Ideal) x3 (ix3 b n (0 : Fin 1)) = IntOp.maxsi 0#32 (x3 (ix2 b n)) := by
  rw [val_main_call2_v5_apply, idx_call2_v5, call2_v4_apply]

theorem call2_v11_apply (hA : ∀ i, (x3 i).toInt < 64) (b : Fin 8) (n : Fin 500000) :
    val_main_call2_v11 (F := Ideal) x3 (ix3 b n (0 : Fin 1)) = 1#1 := by
  rw [val_main_call2_v11_apply, val_main_call2_v7_apply, val_main_call2_v10_apply, call2_v5_apply, val_main_call2_v6_apply,
    val_main_call2_c_2_apply, val_main_call2_v9_apply, val_main_call2_v8_apply, val_main_call2_c_1_apply]
  exact inrange_of_bounds (maxsi_zero_nonneg _) (maxsi_zero_lt (hA _))

theorem call2_v12_apply (hA : ∀ i, (x3 i).toInt < 64) (j : S8x500000.Idx) :
    val_main_call2_v12 (F := Ideal) x3 j = 1#1 := by
  unfold val_main_call2_v12
  refine reduce_andi_of_all _ _ _ _ j rfl fun i => ?_
  rw [eq_ix3_zero i]
  exact call2_v11_apply x3 hA _ _

/-- The gathered offset: the table's entry at the clipped assignment, for any name `p` of it. -/
theorem v5_apply (hA : ∀ i, (x3 i).toInt < 64) (b : Fin 8) (n : Fin 500000) (p : Fin 64)
    (hp : p.val = min (IntOp.maxsi 0#32 (x3 (ix2 b n))).toInt.toNat (64 - 1)) :
    val_main_v5 (F := Ideal) x2 x3 (ix2 b n) = x2 (ix2 b p) := by
  rw [val_main_v5_apply, call2_v12_apply x3 hA, select_one]
  unfold val_main_call2_v13
  have e := gather_offs_at gather_S8x64_S8x500000x1_S8x500000_n_1_0_0_1_2_11_wf x2 (val_main_call2_v5 (F := Ideal) x3)
    b n _ (call2_v5_apply x3 b n)
  obtain ⟨pv, hpv⟩ := p
  simp only at hp
  subst hp
  exact e

end Index

end Cert.ReferenceIdeal.RefValue

end
-- ==== Proof.RefValue.lean ====
/-
  The reference's result is the mean point-to-assigned-plane distance of the specification.

  At a point (b, n): where the assignment is not negative it is below 64 by hypothesis, so it is its own clipped value and
  names a plane; the reference's `|0 + Σₖ point·normal + offset|` there is the specification's distance to that plane up
  to the order of the products' factors. Where the assignment is negative the reference's outer select gives 0, and the
  specification gives 0 too, since a negative word's value is at least 2³¹ and names no plane. Summed over all points
  the two totals agree. The reference's count is a 32-bit sum of the validity bits; there are 4 000 000 points, so it
  does not wrap and is the number N of valid points, which is also the specification's sum of ones; "count > 0" and
  "max(count, 1)" agree between the signed words and the extended reals at such N.
-/
import proofs.«400829_j54382875902439_2_alg».proof.Proof.RefRead
import proofs.«400829_j54382875902439_2_alg».proof.Proof.Spec
import proofs.«400829_j54382875902439_2_alg».proof.Proof.RefCount
import proofs.«400829_j54382875902439_2_alg».proof.Proof.RefIndex
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

section Value

variable (x0 : (⟨S8x500000x3, .f32⟩ : BufTy).Contents (Elt Ideal)) (x1 : (⟨S8x64x3, .f32⟩ : BufTy).Contents (Elt Ideal))
  (x2 : (⟨S8x64, .f32⟩ : BufTy).Contents (Elt Ideal)) (x3 : (⟨S8x500000, .i32⟩ : BufTy).Contents (Elt Ideal))

/-! ## The distance at a point -/

theorem idx_v7 (b : Fin 8) (n : Fin 500000) (k : Fin 3) : idx_main_v7 (ix2 b n) k = ix3 b n k := by
  funext a
  match a with
  | ⟨0, _⟩ => rfl
  | ⟨1, _⟩ => rfl
  | ⟨2, _⟩ => rfl

/-- One product of the dot: the point's coordinate times the gathered normal's. -/
theorem v6_apply (hA : ∀ i, (x3 i).toInt < 64) (b : Fin 8) (n : Fin 500000) (k : Fin 3) (p : Fin 64)
    (hp : p.val = min (IntOp.maxsi 0#32 (x3 (ix2 b n))).toInt.toNat (64 - 1)) :
    val_main_v6 (F := Ideal) x0 x1 x3 (ix3 b n k) = x0 (ix3 b n k) * x1 (ix3 b p k) := by
  rw [val_main_v6_apply, v4_apply x1 x3 hA b n k p hp]
  rfl

/-- The distance the reference computes at point (b, n) is the distance to the plane the clipped assignment names. -/
theorem v9_eq_dist (hA : ∀ i, (x3 i).toInt < 64) (b : Fin 8) (n : Fin 500000) (p : Fin 64)
    (hp : p.val = min (IntOp.maxsi 0#32 (x3 (ix2 b n))).toInt.toNat (64 - 1)) :
    val_main_v9 (F := Ideal) x0 x1 x2 x3 (ix2 b n) = Cert.PlaneSpec.dist x0 x1 x2 b n p := by
  rw [val_main_v9_apply, val_main_v8_apply, val_main_v7_apply, val_main_cst_apply, v5_apply x2 x3 hA b n p hp,
    Fin.sum_univ_three, idx_v7, idx_v7, idx_v7, v6_apply x0 x1 x3 hA b n 0 p hp, v6_apply x0 x1 x3 hA b n 1 p hp,
    v6_apply x0 x1 x3 hA b n 2 p hp]
  unfold Cert.PlaneSpec.dist
  have e : (FloatOps.addf (FloatOps.ofBits (F := Ideal) .f32 0x00000000#32
        + (x0 (ix3 b n 0) * x1 (ix3 b p 0) + x0 (ix3 b n 1) * x1 (ix3 b p 1) + x0 (ix3 b n 2) * x1 (ix3 b p 2))) (x2 (ix2 b p)) : EReal)
      = x1 (ix3 b p 0) * x0 (ix3 b n 0) + x1 (ix3 b p 1) * x0 (ix3 b n 1) + x1 (ix3 b p 2) * x0 (ix3 b n 2) + x2 (ix2 b p) := by
    show (Ideal.ofBits .f32 0x00000000#32 + _ : EReal) + _ = _
    rw [Ideal.ofBits_zero_f32, zero_add, mul_comm (x0 (ix3 b n 0)), mul_comm (x0 (ix3 b n 1)), mul_comm (x0 (ix3 b n 2))]
  show max _ (-_) = _
  rw [e]

/-! ## What a point contributes -/

theorem v10_eq_sel (hA : ∀ i, (x3 i).toInt < 64) (b : Fin 8) (n : Fin 500000) :
    val_main_v10 (F := Ideal) x0 x1 x2 x3 (ix2 b n) = Cert.PlaneSpec.sel x0 x1 x2 x3 b n := by
  rw [val_main_v10_apply, val_main_v1_apply, val_main_v0_apply, val_main_c_apply]
  unfold Cert.PlaneSpec.sel
  by_cases hv : IntOp.cmpi .sge (x3 (ix2 b n)) 0#32 = 1#1
  · have h0 := (sge_zero_iff _).1 hv
    obtain ⟨hlt, hmin⟩ := start_of_valid h0 (hA (ix2 b n))
    rw [hv, select_one, dif_pos hlt]
    exact v9_eq_dist x0 x1 x2 x3 hA b n ⟨_, hlt⟩ (by rw [maxsi_zero_of_nonneg h0]; exact hmin.symm)
  · have hneg : (x3 (ix2 b n)).toInt < 0 := lt_of_not_ge fun h => hv ((sge_zero_iff _).2 h)
    rw [eq_zero_of_ne_one hv, select_zero, dif_neg (not_lt_of_neg hneg), val_main_call3_v1_apply, val_main_call3_v0_apply,
      val_main_cst_1_apply]
    exact Ideal.ofBits_zero_f32

/-! ## The sum of the contributions -/

theorem v11_eq_total (hA : ∀ i, (x3 i).toInt < 64) (i : S_.Idx) :
    val_main_v11 (F := Ideal) x0 x1 x2 x3 i = Cert.PlaneSpec.total x0 x1 x2 x3 := by
  rw [val_main_v11_apply, val_main_cst_2_apply]
  unfold Cert.PlaneSpec.total
  rw [show (FloatOps.ofBits (F := Ideal) .f32 0x00000000#32 : EReal) = 0 from Ideal.ofBits_zero_f32, zero_add, sum_idx2]
  exact Finset.sum_congr rfl fun b _ => Finset.sum_congr rfl fun n _ => v10_eq_sel x0 x1 x2 x3 hA b n

/-! ## The count -/

/-- The number of valid points: the indices whose validity bit is set. -/
def nValid : ℕ := (Finset.univ.filter fun i : S8x500000.Idx => val_main_v1 (F := Ideal) x3 i = 1#1).card

theorem v1_iff (i : S8x500000.Idx) : val_main_v1 (F := Ideal) x3 i = 1#1 ↔ 0 ≤ (x3 i).toInt := by
  rw [val_main_v1_apply, val_main_v0_apply, val_main_c_apply]
  exact sge_zero_iff _

theorem count_eq : Cert.PlaneSpec.count x3 = ((nValid x3 : ℝ) : EReal) := by
  unfold Cert.PlaneSpec.count nValid
  rw [← sum_idx2 (fun i : S8x500000.Idx => if 0 ≤ (x3 i).toInt then (1 : EReal) else 0), sum_ones,
    Finset.filter_congr fun i _ => (v1_iff x3 i).symm]

theorem v13_toNat (j : S_.Idx) : (val_main_v13 (F := Ideal) x3 j).toNat = nValid x3 := by
  unfold val_main_v13 val_main_v12 val_main_c_3 nValid
  exact toNat_reduce_count_all (fun b => b.elim0) (by decide) (val_main_v1 (F := Ideal) x3) natLt_1_32
    reducesTo_S8x500000_S_d0_1 h_S_ j

theorem nValid_le : nValid x3 ≤ 4000000 :=
  le_trans (count_le_numel (val_main_v1 (F := Ideal) x3)) (by decide)

end Value

/-! ## The reference's result -/

theorem value (x0 : (⟨S8x500000x3, .f32⟩ : BufTy).Contents (Elt Ideal)) (x1 : (⟨S8x64x3, .f32⟩ : BufTy).Contents (Elt Ideal)) (x2 : (⟨S8x64, .f32⟩ : BufTy).Contents (Elt Ideal)) (x3 : (⟨S8x500000, .i32⟩ : BufTy).Contents (Elt Ideal))
    (hA : ∀ i, (x3 i).toInt < 64) :
    Cert.ReferenceIdeal.Read.val_main_v18 (F := Ideal) x0 x1 x2 x3 = fun _ => Cert.PlaneSpec.result (Cert.PlaneSpec.total x0 x1 x2 x3) (Cert.PlaneSpec.count x3) := by
  funext i
  rw [val_main_v18_apply, val_main_v14_apply, val_main_v17_apply, val_main_v16_apply, val_main_v15_apply, val_main_c_4_apply,
    val_main_c_5_apply, v11_eq_total x0 x1 x2 x3 hA i, count_eq x3]
  unfold Cert.PlaneSpec.result
  exact result_word _ (v13_toNat x3 i) (nValid_le x3)

end Cert.ReferenceIdeal.RefValue

end
-- ==== Proof.PreDecode.lean ====
/-
  What the precondition says of the plane assignments: every one is below 64 as a signed word (so an assignment that
  is not negative is a plane number).
-/
import proofs.«400829_j54382875902439_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.PreDecode

open Idealize.ShloMosaic Cert.Pre_finite_inputs

instance : Subsingleton S_.Idx := ⟨fun a b => funext fun d => d.elim0⟩

/-- Where the precondition holds, every assignment is below 64. -/
theorem assign_lt [Cert.Pre_finite_inputs.Facts] (x0 : FVec Ideal S8x500000x3 .f32) (x1 : FVec Ideal S8x64x3 .f32) (x2 : FVec Ideal S8x64 .f32)
    (x3 : IVec S8x500000 32) (h : Cert.Pre_finite_inputs.fn (F := Ideal) x0 x1 x2 x3 = fun _ => 1#1) (i : S8x500000.Idx) :
    (x3 i).toInt < 64 := by
  have h0 := congrFun h ValueIdx.ix0
  dsimp only [Cert.Pre_finite_inputs.fn, Cert.Pre_finite_inputs.fn_part1] at h0
  have h1 := (IntOp.andi_eq_one.mp h0).2
  have h2 := Host.reduce_andi_all _ _ _ _ _ h1 i
  have h3 : (x3 i).toInt < (64#32 : BitVec 32).toInt := IntOp.cmpi_slt.mp h2
  exact h3

end Cert.PreDecode

end
-- ==== Proof.lean ====
/-
  The kernel (a tiled accumulation of point-to-plane distances: for each of 8 batches, 31 tiles of 16384 points, each
  point's distance to the plane its assignment names selected by equality with the plane number, summed into a running
  total beside a running count of the points with a non-negative assignment; the host adds the 8 batch totals and
  counts and divides) and its reference (gather each point's plane by its clipped assignment, one distance per point,
  one sum over all 4,000,000 points) compute the same extended real, wherever every assignment is below 64.

  Both results are stated as ONE term of the argument arrays (Proof/Spec.lean): `result (total …) (count …)`.
  Kernel side: a tile's arithmetic at a lane (Proof/Tile.lean), the accumulators after each grid point by induction on
  the point (Proof/Acc.lean), the two result arrays (Proof/Out.lean), the host's closing sums and quotient
  (Proof/Tail.lean), the blocks read off the padded and transposed arguments (Proof/Inputs.lean), and the regrouping of
  8 × 31 × 16384 padded positions into 8 × 500000 points, the padding contributing nothing (Proof/Sums.lean,
  Proof/KValue.lean). Only commutativity and associativity of + and · on the extended reals are used: the sums are
  regrouped, never distributed over, so the finiteness of the float inputs is not needed.
  Reference side: its run stage by stage (Proof/RefRun.lean) and its last stage read at an index — the gathers in range
  because the clipped assignment is in 0 … 63, the integer count equal to the number of counted points because it cannot
  wrap (Proof/RefValue.lean and the modules it imports).
  The precondition's last conjunct gives "every assignment is below 64" (Proof/PreDecode.lean); the reference indexes its
  plane tables out of range without it.
-/
import proofs.«400829_j54382875902439_2_alg».proof.Defs
import proofs.«400829_j54382875902439_2_alg».proof.Proof.Gen.Kernel
import proofs.«400829_j54382875902439_2_alg».proof.Proof.Gen.Kernel.Skeleton
import proofs.«400829_j54382875902439_2_alg».proof.Proof.Gen.Kernel.Launch
import proofs.«400829_j54382875902439_2_alg».proof.Proof.Gen.Kernel.Points
import proofs.«400829_j54382875902439_2_alg».proof.Proof.Gen.Kernel.Frame
import proofs.«400829_j54382875902439_2_alg».proof.Proof.Gen.KernelIdeal
import proofs.«400829_j54382875902439_2_alg».proof.Proof.Gen.KernelIdeal.Skeleton
import proofs.«400829_j54382875902439_2_alg».proof.Proof.Gen.KernelIdeal.Launch
import proofs.«400829_j54382875902439_2_alg».proof.Proof.Gen.KernelIdeal.Points
import proofs.«400829_j54382875902439_2_alg».proof.Proof.Gen.KernelIdeal.Frame
import proofs.«400829_j54382875902439_2_alg».proof.Proof.Gen.ReferenceIdeal
import proofs.«400829_j54382875902439_2_alg».proof.Proof.Gen.Pre_finite_inputs
import proofs.«400829_j54382875902439_2_alg».proof.Proof.KValue
import proofs.«400829_j54382875902439_2_alg».proof.Proof.RefRun
import proofs.«400829_j54382875902439_2_alg».proof.Proof.RefValue
import proofs.«400829_j54382875902439_2_alg».proof.Proof.PreDecode
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From argument arrays that agree, both programs end with the same result: the mean distance of the assigned points
    to their planes (the bare sum when no point is assigned), the argument arrays unchanged. -/
theorem algebraic : Cert.algebraic_KernelIdeal_ReferenceIdeal := by
  intro m ρ m' ρ' hpre hagree
  refine ⟨fun c => (fun _ => Cert.PlaneSpec.result
      (Cert.PlaneSpec.total (Cert.KernelIdeal.KValue.aP m c) (Cert.KernelIdeal.KValue.aN m c) (Cert.KernelIdeal.KValue.aO m c) (Cert.KernelIdeal.KValue.aA m c))
      (Cert.PlaneSpec.count (Cert.KernelIdeal.KValue.aA m c))), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.value _ _ _ _ (Cert.PreDecode.assign_lt _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
